-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v151) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x8192x2 : Shape := ⟨3, ![512, 8192, 2]⟩
abbrev S512x1x200x200 : Shape := ⟨4, ![512, 1, 200, 200]⟩
abbrev S_ : Shape := ⟨0, ![]⟩

class Facts : Prop where
  bcast_S_S512x8192x2 : S_.BroadcastsInDim S512x8192x2 (![] : Fin 0 → Fin S512x8192x2.rank)
  reducesTo_S512x8192x2_S_d0_1_2 : S512x8192x2.ReducesTo [0, 1, 2] S_
  h_S_ : 0 < S_.numel
  bcast_S_S512x1x200x200 : S_.BroadcastsInDim S512x1x200x200 (![] : Fin 0 → Fin S512x1x200x200.rank)
  reducesTo_S512x1x200x200_S_d0_1_2_3 : S512x1x200x200.ReducesTo [0, 1, 2, 3] S_

variable [Facts]

def fn {F : FTy → Type} [FloatOps F] (main_arg0 : FVec F S512x8192x2 .f32) (main_arg1 : FVec F S512x1x200x200 .f32) : IVec S_ 1 :=
  let main_v0 : FVec F S512x8192x2 .f32 := Host.absf main_arg0
  let main_cst : FVec F S_ .f32 := constant S_ .f32 0x7F800000#32
  let main_v1 : FVec F S512x8192x2 .f32 := broadcastInDim S512x8192x2 ![] bcast_S_S512x8192x2 main_cst
  let main_v2 : IVec S512x8192x2 1 := cmpf .olt main_v0 main_v1
  let main_c : IVec S_ 1 := constantI S_ 1 1#1
  let main_v3 : IVec S_ 1 := (fun x v => Host.reduce IntOp.andi x v reducesTo_S512x8192x2_S_d0_1_2 h_S_) main_v2 main_c
  let main_v4 : FVec F S512x1x200x200 .f32 := Host.absf main_arg1
  let main_cst_0 : FVec F S_ .f32 := constant S_ .f32 0x7F800000#32
  let main_v5 : FVec F S512x1x200x200 .f32 := broadcastInDim S512x1x200x200 ![] bcast_S_S512x1x200x200 main_cst_0
  let main_v6 : IVec S512x1x200x200 1 := cmpf .olt main_v4 main_v5
  let main_c_1 : IVec S_ 1 := constantI S_ 1 1#1
  let main_v7 : IVec S_ 1 := (fun x v => Host.reduce IntOp.andi x v reducesTo_S512x1x200x200_S_d0_1_2_3 h_S_) main_v6 main_c_1
  let main_v8 : IVec S_ 1 := andi main_v3 main_v7
  main_v8
-- ==== Kernel.lean ====
abbrev S512x8192x2 : Shape := ⟨3, ![512, 8192, 2]⟩
abbrev S512x1x200x200 : Shape := ⟨4, ![512, 1, 200, 200]⟩
abbrev S512x200x200 : Shape := ⟨3, ![512, 200, 200]⟩
abbrev S512x1 : Shape := ⟨2, ![512, 1]⟩
abbrev S8x200x200 : Shape := ⟨3, ![8, 200, 200]⟩
abbrev S8x512x2 : Shape := ⟨3, ![8, 512, 2]⟩
abbrev S8x1 : Shape := ⟨2, ![8, 1]⟩
abbrev S8x512x1 : Shape := ⟨3, ![8, 512, 1]⟩
abbrev S8x512 : Shape := ⟨2, ![8, 512]⟩
abbrev S8x512x200 : Shape := ⟨3, ![8, 512, 200]⟩
abbrev S8 : Shape := ⟨1, ![8]⟩
abbrev S_ : Shape := ⟨0, ![]⟩

abbrev nBuf : Space → Nat
  | .hbm => 8
  | .vmem => 7
  | .smem => 0
  | _ => 0

abbrev bufTy : (tb : Table) → Fin (tcTables nBuf tb) → BufTy
  | .hbm, ⟨0, _⟩ => ⟨S512x8192x2, .f32⟩
  | .hbm, ⟨1, _⟩ => ⟨S512x1x200x200, .f32⟩
  | .hbm, ⟨2, _⟩ => ⟨S512x200x200, .f32⟩
  | .hbm, ⟨3, _⟩ => ⟨S512x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S8x200x200, .f32⟩
  | .local _ .vmem, ⟨1, _⟩ => ⟨S8x200x200, .f32⟩
  | .local _ .vmem, ⟨2, _⟩ => ⟨S8x512x2, .f32⟩
  | .local _ .vmem, ⟨3, _⟩ => ⟨S8x512x2, .f32⟩
  | .local _ .vmem, ⟨4, _⟩ => ⟨S8x1, .f32⟩
  | .local _ .vmem, ⟨5, _⟩ => ⟨S8x1, .f32⟩
  | .local _ .vmem, ⟨6, _⟩ => ⟨S8x1, .f32⟩
  | _, _ => ⟨S512x8192x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![64, 16], ![false, false]⟩

def k0_cond2 (i : grid0.Coords) : BitVec 1 :=
  let arg1 : BitVec 32 := BitVec.ofNat 32 (i 1).val
  let c15_i32 : BitVec 32 := 15#32
  let v146 : BitVec 1 := Scalar.cmpi .eq arg1 c15_i32
  let v147 : BitVec 32 := Scalar.extui v146
  let c0_i32_53 : BitVec 32 := 0#32
  let v148 : BitVec 1 := Scalar.cmpi .ne v147 c0_i32_53
  v148

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x200x200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x512x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S512x1x200x200_S512x200x200 : S512x1x200x200.ShapeCasts S512x200x200
  inb_S8x1_S8x1_0_0 : ∀ a, (![0, 0] : Fin 2 → Nat) a + S8x1.size a ≤ S8x1.size a
  h_S8x1 : 0 < S8x1.numel
  shapeCasts_S8x1_S8x1 : S8x1.ShapeCasts S8x1
  inb_S8x512x2_S8x512x1_0_0_0 : ∀ a, (![0, 0, 0] : Fin 3 → Nat) a + S8x512x1.size a ≤ S8x512x2.size a
  h_S8x512x1 : 0 < S8x512x1.numel
  shapeCasts_S8x512x1_S8x512 : S8x512x1.ShapeCasts S8x512
  inb_S8x512x2_S8x512x1_0_0_1 : ∀ a, (![0, 0, 1] : Fin 3 → Nat) a + S8x512x1.size a ≤ S8x512x2.size a
  iota_S8x512x200_d2_w32 : S8x512x200.Iotas .tc 32 [2]
  shapeCasts_S8x512_S8x512x1 : S8x512.ShapeCasts S8x512x1
  broadcasts_S8x512x1_S8x512x200 : S8x512x1.Broadcasts S8x512x200
  natLt_1_32 : 1 < 32
  bitsLt_bf16_f32 : FTy.bits .bf16 < FTy.bits .f32
  inb_S8x200x200_S8x200x200_0_0_0 : ∀ a, (![0, 0, 0] : Fin 3 → Nat) a + S8x200x200.size a ≤ S8x200x200.size a
  h_S8x200x200 : 0 < S8x200x200.numel
  shapeCasts_S8x200x200_S8x200x200 : S8x200x200.ShapeCasts S8x200x200
  reduces_S8x512x200_S8x512 : S8x512x200.Reduces [2] S8x512
  reduces_S8x512_S8 : S8x512.Reduces [1] S8
  shapeCasts_S8_S8x1 : S8.ShapeCasts S8x1
  reducesTo_S512x1_S_d0_1 : S512x1.ReducesTo [0, 1] S_
  h_S_ : 0 < S_.numel
  dot_S8x512x200_S8x200x200_S8x512x200_2_1_1_2_0_0_wf : DotDims.WF S8x512x200 S8x200x200 S8x512x200 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x200x200.size a ≤ S512x200x200.size a
  hwx0_0 : ∀ i : grid0.Coords, EltTy.bits .f32 = 32 ∨ (Rect.block (s := S512x200x200) S8x200x200.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512x2.size a ≤ S512x8192x2.size a
  hwx0_1 : ∀ i : grid0.Coords, EltTy.bits .f32 = 32 ∨ (Rect.block (s := S512x8192x2) S8x512x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1.size a ≤ S512x1.size a
  hwx0_2 : ∀ i : grid0.Coords, EltTy.bits .f32 = 32 ∨ (Rect.block (s := S512x1) S8x1.size (cc0_transform_2 i) (hinb0_2 i)).WholeWords (EltTy.packing .f32)

variable [Facts₀]

def dot_S8x512x200_S8x200x200_S8x512x200_2_1_1_2_0_0 : DotDims S8x512x200 S8x200x200 S8x512x200 where
  lhsContracting := [2]
  rhsContracting := [1]
  lhsNonContracting := [1]
  rhsNonContracting := [2]
  lhsBatch := [0]
  rhsBatch := [0]
  wf := dot_S8x512x200_S8x200x200_S8x512x200_2_1_1_2_0_0_wf

abbrev win0_0 : Pipeline.Window sig grid0 :=
  Pipeline.Window.ofSpec (Memref.whole main_v0) S8x200x200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8x512x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S512x8192x2 : Shape := ⟨3, ![512, 8192, 2]⟩
abbrev S512x1x200x200 : Shape := ⟨4, ![512, 1, 200, 200]⟩
abbrev S_ : Shape := ⟨0, ![]⟩
abbrev S512x8192 : Shape := ⟨2, ![512, 8192]⟩
abbrev S512x200x200 : Shape := ⟨3, ![512, 200, 200]⟩
abbrev S512 : Shape := ⟨1, ![512]⟩
abbrev S512x1 : Shape := ⟨2, ![512, 1]⟩
abbrev S512x8192x1 : Shape := ⟨3, ![512, 8192, 1]⟩
abbrev S512x8192x3 : Shape := ⟨3, ![512, 8192, 3]⟩

abbrev nBuf : Space → Nat
  | .hbm => 211
  | .vmem => 0
  | .smem => 0
  | _ => 0

abbrev hbmTy0_0 (i : Nat) : BufTy := match i % 128 with
  | 0 => ⟨S512x8192x2, .f32⟩
  | 1 => ⟨S512x1x200x200, .f32⟩
  | 2 => ⟨S_, .f32⟩
  | 3 => ⟨S512x8192x2, .f32⟩
  | 4 => ⟨S512x8192x2, .i1⟩
  | 5 => ⟨S_, .f32⟩
  | 6 => ⟨S512x8192x2, .f32⟩
  | 7 => ⟨S512x8192x2, .i1⟩
  | 8 => ⟨S512x8192x2, .i1⟩
  | 9 => ⟨S_, .i1⟩
  | 10 => ⟨S512x8192, .i1⟩
  | 11 => ⟨S_, .f32⟩
  | 12 => ⟨S_, .f32⟩
  | 13 => ⟨S_, .f32⟩
  | 14 => ⟨S512x8192x2, .f32⟩
  | 15 => ⟨S512x8192x2, .f32⟩
  | 16 => ⟨S_, .f32⟩
  | 17 => ⟨S512x8192x2, .f32⟩
  | 18 => ⟨S512x8192x2, .f32⟩
  | 19 => ⟨S_, .f32⟩
  | 20 => ⟨S512x8192x2, .f32⟩
  | 21 => ⟨S512x8192x2, .f32⟩
  | 22 => ⟨S_, .f32⟩
  | 23 => ⟨S512x8192x2, .f32⟩
  | 24 => ⟨S512x8192x2, .f32⟩
  | 25 => ⟨S_, .f32⟩
  | 26 => ⟨S512x8192x2, .f32⟩
  | 27 => ⟨S512x8192x2, .f32⟩
  | 28 => ⟨S512x8192x2, .f32⟩
  | 29 => ⟨S512x8192x2, .i32⟩
  | 30 => ⟨S512x8192x2, .f32⟩
  | 31 => ⟨S_, .f32⟩
  | 32 => ⟨S512x8192x2, .f32⟩
  | 33 => ⟨S512x8192x2, .f32⟩
  | 34 => ⟨S_, .f32⟩
  | 35 => ⟨S512x8192x2, .f32⟩
  | 36 => ⟨S512x8192x2, .f32⟩
  | 37 => ⟨S_, .f32⟩
  | 38 => ⟨S512x8192x2, .f32⟩
  | 39 => ⟨S512x8192x2, .f32⟩
  | 40 => ⟨S512x8192x2, .f32⟩
  | 41 => ⟨S_, .f32⟩
  | 42 => ⟨S512x8192x2, .f32⟩
  | 43 => ⟨S512x8192x2, .f32⟩
  | 44 => ⟨S512x200x200, .f32⟩
  | 45 => ⟨S512, .i32⟩
  | 46 => ⟨S512x1, .i32⟩
  | 47 => ⟨S512x8192x1, .i32⟩
  | 48 => ⟨S512x8192, .i32⟩
  | 49 => ⟨S512x8192x1, .i32⟩
  | 50 => ⟨S512x8192, .i32⟩
  | 51 => ⟨S_, .i32⟩
  | 52 => ⟨S512x1, .i32⟩
  | 53 => ⟨S512x1, .i1⟩
  | 54 => ⟨S_, .i32⟩
  | 55 => ⟨S512x1, .i32⟩
  | 56 => ⟨S512x1, .i32⟩
  | 57 => ⟨S512x1, .i32⟩
  | 58 => ⟨S_, .i32⟩
  | 59 => ⟨S512x8192, .i32⟩
  | 60 => ⟨S512x8192, .i1⟩
  | 61 => ⟨S_, .i32⟩
  | 62 => ⟨S512x8192, .i32⟩
  | 63 => ⟨S512x8192, .i32⟩
  | 64 => ⟨S512x8192, .i32⟩
  | 65 => ⟨S_, .i32⟩
  | 66 => ⟨S512x8192, .i32⟩
  | 67 => ⟨S512x8192, .i1⟩
  | 68 => ⟨S_, .i32⟩
  | 69 => ⟨S512x8192, .i32⟩
  | 70 => ⟨S512x8192, .i32⟩
  | 71 => ⟨S512x8192, .i32⟩
  | 72 => ⟨S512x8192, .i32⟩
  | 73 => ⟨S512x8192x1, .i32⟩
  | 74 => ⟨S512x8192x1, .i32⟩
  | 75 => ⟨S512x8192x1, .i32⟩
  | 76 => ⟨S512x8192x3, .i32⟩
  | 77 => ⟨S512x8192, .f32⟩
  | 78 => ⟨S_, .i32⟩
  | 79 => ⟨S512x8192, .i32⟩
  | 80 => ⟨S512x8192, .i32⟩
  | 81 => ⟨S_, .i32⟩
  | 82 => ⟨S512x1, .i32⟩
  | 83 => ⟨S512x1, .i1⟩
  | 84 => ⟨S_, .i32⟩
  | 85 => ⟨S512x1, .i32⟩
  | 86 => ⟨S512x1, .i32⟩
  | 87 => ⟨S512x1, .i32⟩
  | 88 => ⟨S_, .i32⟩
  | 89 => ⟨S512x8192, .i32⟩
  | 90 => ⟨S512x8192, .i1⟩
  | 91 => ⟨S_, .i32⟩
  | 92 => ⟨S512x8192, .i32⟩
  | 93 => ⟨S512x8192, .i32⟩
  | 94 => ⟨S512x8192, .i32⟩
  | 95 => ⟨S_, .i32⟩
  | 96 => ⟨S512x8192, .i32⟩
  | 97 => ⟨S512x8192, .i1⟩
  | 98 => ⟨S_, .i32⟩
  | 99 => ⟨S512x8192, .i32⟩
  | 100 => ⟨S512x8192, .i32⟩
  | 101 => ⟨S512x8192, .i32⟩
  | 102 => ⟨S512x8192, .i32⟩
  | 103 => ⟨S512x8192x1, .i32⟩
  | 104 => ⟨S512x8192x1, .i32⟩
  | 105 => ⟨S512x8192x1, .i32⟩
  | 106 => ⟨S512x8192x3, .i32⟩
  | 107 => ⟨S512x8192, .f32⟩
  | 108 => ⟨S_, .i32⟩
  | 109 => ⟨S512x8192, .i32⟩
  | 110 => ⟨S512x8192, .i32⟩
  | 111 => ⟨S_, .i32⟩
  | 112 => ⟨S512x1, .i32⟩
  | 113 => ⟨S512x1, .i1⟩
  | 114 => ⟨S_, .i32⟩
  | 115 => ⟨S512x1, .i32⟩
  | 116 => ⟨S512x1, .i32⟩
  | 117 => ⟨S512x1, .i32⟩
  | 118 => ⟨S_, .i32⟩
  | 119 => ⟨S512x8192, .i32⟩
  | 120 => ⟨S512x8192, .i1⟩
  | 121 => ⟨S_, .i32⟩
  | 122 => ⟨S512x8192, .i32⟩
  | 123 => ⟨S512x8192, .i32⟩
  | 124 => ⟨S512x8192, .i32⟩
  | 125 => ⟨S_, .i32⟩
  | 126 => ⟨S512x8192, .i32⟩
  | 127 => ⟨S512x8192, .i1⟩
  | _ => ⟨S512x8192x2, .f32⟩

abbrev hbmTy0_1 (i : Nat) : BufTy := match i % 128 with
  | 0 => ⟨S_, .i32⟩
  | 1 => ⟨S512x8192, .i32⟩
  | 2 => ⟨S512x8192, .i32⟩
  | 3 => ⟨S512x8192, .i32⟩
  | 4 => ⟨S512x8192, .i32⟩
  | 5 => ⟨S512x8192x1, .i32⟩
  | 6 => ⟨S512x8192x1, .i32⟩
  | 7 => ⟨S512x8192x1, .i32⟩
  | 8 => ⟨S512x8192x3, .i32⟩
  | 9 => ⟨S512x8192, .f32⟩
  | 10 => ⟨S_, .i32⟩
  | 11 => ⟨S512x8192, .i32⟩
  | 12 => ⟨S512x8192, .i32⟩
  | 13 => ⟨S_, .i32⟩
  | 14 => ⟨S512x8192, .i32⟩
  | 15 => ⟨S512x8192, .i32⟩
  | 16 => ⟨S_, .i32⟩
  | 17 => ⟨S512x1, .i32⟩
  | 18 => ⟨S512x1, .i1⟩
  | 19 => ⟨S_, .i32⟩
  | 20 => ⟨S512x1, .i32⟩
  | 21 => ⟨S512x1, .i32⟩
  | 22 => ⟨S512x1, .i32⟩
  | 23 => ⟨S_, .i32⟩
  | 24 => ⟨S512x8192, .i32⟩
  | 25 => ⟨S512x8192, .i1⟩
  | 26 => ⟨S_, .i32⟩
  | 27 => ⟨S512x8192, .i32⟩
  | 28 => ⟨S512x8192, .i32⟩
  | 29 => ⟨S512x8192, .i32⟩
  | 30 => ⟨S_, .i32⟩
  | 31 => ⟨S512x8192, .i32⟩
  | 32 => ⟨S512x8192, .i1⟩
  | 33 => ⟨S_, .i32⟩
  | 34 => ⟨S512x8192, .i32⟩
  | 35 => ⟨S512x8192, .i32⟩
  | 36 => ⟨S512x8192, .i32⟩
  | 37 => ⟨S512x8192, .i32⟩
  | 38 => ⟨S512x8192x1, .i32⟩
  | 39 => ⟨S512x8192x1, .i32⟩
  | 40 => ⟨S512x8192x1, .i32⟩
  | 41 => ⟨S512x8192x3, .i32⟩
  | 42 => ⟨S512x8192, .f32⟩
  | 43 => ⟨S512x8192x1, .f32⟩
  | 44 => ⟨S512x8192, .f32⟩
  | 45 => ⟨S512x8192x1, .f32⟩
  | 46 => ⟨S512x8192, .f32⟩
  | 47 => ⟨S_, .f32⟩
  | 48 => ⟨S512x8192, .f32⟩
  | 49 => ⟨S512x8192, .f32⟩
  | 50 => ⟨S512x8192, .f32⟩
  | 51 => ⟨S512x8192, .f32⟩
  | 52 => ⟨S512x8192, .f32⟩
  | 53 => ⟨S_, .f32⟩
  | 54 => ⟨S512x8192, .f32⟩
  | 55 => ⟨S512x8192, .f32⟩
  | 56 => ⟨S512x8192, .f32⟩
  | 57 => ⟨S512x8192, .f32⟩
  | 58 => ⟨S512x8192, .f32⟩
  | 59 => ⟨S_, .f32⟩
  | 60 => ⟨S512x8192, .f32⟩
  | 61 => ⟨S512x8192, .f32⟩
  | 62 => ⟨S512x8192, .f32⟩
  | 63 => ⟨S512x8192, .f32⟩
  | 64 => ⟨S512x8192, .f32⟩
  | 65 => ⟨S_, .f32⟩
  | 66 => ⟨S_, .f32⟩
  | 67 => ⟨S512x8192, .f32⟩
  | 68 => ⟨S512x8192, .f32⟩
  | 69 => ⟨S_, .f32⟩
  | 70 => ⟨S512x8192, .f32⟩
  | 71 => ⟨S512x8192, .f32⟩
  | 72 => ⟨S_, .f32⟩
  | 73 => ⟨S512x8192, .f32⟩
  | 74 => ⟨S512x8192, .f32⟩
  | 75 => ⟨S_, .f32⟩
  | 76 => ⟨S512x8192, .f32⟩
  | 77 => ⟨S512x8192, .f32⟩
  | 78 => ⟨S512x8192, .f32⟩
  | 79 => ⟨S_, .f32⟩
  | 80 => ⟨S_, .f32⟩
  | 81 => ⟨S_, .f32⟩
  | 82 => ⟨S_, .f32⟩
  | _ => ⟨S512x8192x2, .f32⟩

abbrev hbmTy (i : Nat) : BufTy := match i / 128 with
  | 0 => hbmTy0_0 i
  | 1 => hbmTy0_1 i
  | _ => ⟨S512x8192x2, .f32⟩

abbrev bufTy : (tb : Table) → Fin (tcTables nBuf tb) → BufTy
  | .hbm, ⟨i, _⟩ => hbmTy i
  | _, _ => ⟨S512x8192x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_cst_1 : Ref sig .tc := ⟨.hbm, 11, rfl⟩
abbrev main_cst_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v6 : Ref sig .tc := ⟨.hbm, 18, rfl⟩
abbrev main_cst_3 : Ref sig .tc := ⟨.hbm, 19, rfl⟩
abbrev main_v7 : Ref sig .tc := ⟨.hbm, 20, rfl⟩
abbrev main_v8 : Ref sig .tc := ⟨.hbm, 21, rfl⟩
abbrev main_cst_4 : Ref sig .tc := ⟨.hbm, 22, rfl⟩
abbrev main_v9 : Ref sig .tc := ⟨.hbm, 23, rfl⟩
abbrev main_v10 : Ref sig .tc := ⟨.hbm, 24, rfl⟩
abbrev main_cst_5 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_6 : Ref sig .tc := ⟨.hbm, 31, rfl⟩
abbrev main_v16 : Ref sig .tc := ⟨.hbm, 32, rfl⟩
abbrev main_v17 : Ref sig .tc := ⟨.hbm, 33, rfl⟩
abbrev main_cst_7 : Ref sig .tc := ⟨.hbm, 34, rfl⟩
abbrev main_v18 : Ref sig .tc := ⟨.hbm, 35, rfl⟩
abbrev main_v19 : Ref sig .tc := ⟨.hbm, 36, rfl⟩
abbrev main_cst_8 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_9 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_10 : Ref sig .tc := ⟨.hbm, 51, rfl⟩
abbrev main_v32 : Ref sig .tc := ⟨.hbm, 52, rfl⟩
abbrev main_v33 : Ref sig .tc := ⟨.hbm, 53, rfl⟩
abbrev main_c_11 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_12 : Ref sig .tc := ⟨.hbm, 58, rfl⟩
abbrev main_v37 : Ref sig .tc := ⟨.hbm, 59, rfl⟩
abbrev main_v38 : Ref sig .tc := ⟨.hbm, 60, rfl⟩
abbrev main_c_13 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_c_14 : Ref sig .tc := ⟨.hbm, 65, rfl⟩
abbrev main_v42 : Ref sig .tc := ⟨.hbm, 66, rfl⟩
abbrev main_v43 : Ref sig .tc := ⟨.hbm, 67, rfl⟩
abbrev main_c_15 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_c_16 : Ref sig .tc := ⟨.hbm, 78, rfl⟩
abbrev main_v53 : Ref sig .tc := ⟨.hbm, 79, rfl⟩
abbrev main_v54 : Ref sig .tc := ⟨.hbm, 80, rfl⟩
abbrev main_c_17 : Ref sig .tc := ⟨.hbm, 81, rfl⟩
abbrev main_v55 : Ref sig .tc := ⟨.hbm, 82, rfl⟩
abbrev main_v56 : Ref sig .tc := ⟨.hbm, 83, rfl⟩
abbrev main_c_18 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_c_19 : Ref sig .tc := ⟨.hbm, 88, rfl⟩
abbrev main_v60 : Ref sig .tc := ⟨.hbm, 89, rfl⟩
abbrev main_v61 : Ref sig .tc := ⟨.hbm, 90, rfl⟩
abbrev main_c_20 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_c_21 : Ref sig .tc := ⟨.hbm, 95, rfl⟩
abbrev main_v65 : Ref sig .tc := ⟨.hbm, 96, rfl⟩
abbrev main_v66 : Ref sig .tc := ⟨.hbm, 97, rfl⟩
abbrev main_c_22 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_c_23 : Ref sig .tc := ⟨.hbm, 108, rfl⟩
abbrev main_v76 : Ref sig .tc := ⟨.hbm, 109, rfl⟩
abbrev main_v77 : Ref sig .tc := ⟨.hbm, 110, rfl⟩
abbrev main_c_24 : Ref sig .tc := ⟨.hbm, 111, rfl⟩
abbrev main_v78 : Ref sig .tc := ⟨.hbm, 112, rfl⟩
abbrev main_v79 : Ref sig .tc := ⟨.hbm, 113, rfl⟩
abbrev main_c_25 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_c_26 : Ref sig .tc := ⟨.hbm, 118, rfl⟩
abbrev main_v83 : Ref sig .tc := ⟨.hbm, 119, rfl⟩
abbrev main_v84 : Ref sig .tc := ⟨.hbm, 120, rfl⟩
abbrev main_c_27 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_c_28 : Ref sig .tc := ⟨.hbm, 125, rfl⟩
abbrev main_v88 : Ref sig .tc := ⟨.hbm, 126, rfl⟩
abbrev main_v89 : Ref sig .tc := ⟨.hbm, 127, rfl⟩
abbrev main_c_29 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_c_30 : Ref sig .tc := ⟨.hbm, 138, rfl⟩
abbrev main_v99 : Ref sig .tc := ⟨.hbm, 139, rfl⟩
abbrev main_v100 : Ref sig .tc := ⟨.hbm, 140, rfl⟩
abbrev main_c_31 : Ref sig .tc := ⟨.hbm, 141, rfl⟩
abbrev main_v101 : Ref sig .tc := ⟨.hbm, 142, rfl⟩
abbrev main_v102 : Ref sig .tc := ⟨.hbm, 143, rfl⟩
abbrev main_c_32 : Ref sig .tc := ⟨.hbm, 144, rfl⟩
abbrev main_v103 : Ref sig .tc := ⟨.hbm, 145, rfl⟩
abbrev main_v104 : Ref sig .tc := ⟨.hbm, 146, rfl⟩
abbrev main_c_33 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_c_34 : Ref sig .tc := ⟨.hbm, 151, rfl⟩
abbrev main_v108 : Ref sig .tc := ⟨.hbm, 152, rfl⟩
abbrev main_v109 : Ref sig .tc := ⟨.hbm, 153, rfl⟩
abbrev main_c_35 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_c_36 : Ref sig .tc := ⟨.hbm, 158, rfl⟩
abbrev main_v113 : Ref sig .tc := ⟨.hbm, 159, rfl⟩
abbrev main_v114 : Ref sig .tc := ⟨.hbm, 160, rfl⟩
abbrev main_c_37 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_cst_38 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_cst_39 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_cst_40 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_cst_41 : Ref sig .tc := ⟨.hbm, 193, rfl⟩
abbrev main_call1_v0 : Ref sig .tc := ⟨.hbm, 194, rfl⟩
abbrev main_call1_v1 : Ref sig .tc := ⟨.hbm, 195, rfl⟩
abbrev main_v143 : Ref sig .tc := ⟨.hbm, 196, rfl⟩
abbrev main_cst_42 : Ref sig .tc := ⟨.hbm, 197, rfl⟩
abbrev main_v144 : Ref sig .tc := ⟨.hbm, 198, rfl⟩
abbrev main_v145 : Ref sig .tc := ⟨.hbm, 199, rfl⟩
abbrev main_cst_43 : Ref sig .tc := ⟨.hbm, 200, rfl⟩
abbrev main_v146 : Ref sig .tc := ⟨.hbm, 201, rfl⟩
abbrev main_v147 : Ref sig .tc := ⟨.hbm, 202, rfl⟩
abbrev main_call2_cst : Ref sig .tc := ⟨.hbm, 203, rfl⟩
abbrev main_call2_v0 : Ref sig .tc := ⟨.hbm, 204, rfl⟩
abbrev main_v148 : Ref sig .tc := ⟨.hbm, 205, rfl⟩
abbrev main_v149 : Ref sig .tc := ⟨.hbm, 206, rfl⟩
abbrev main_cst_44 : Ref sig .tc := ⟨.hbm, 207, rfl⟩
abbrev main_v150 : Ref sig .tc := ⟨.hbm, 208, rfl⟩
abbrev main_cst_45 : Ref sig .tc := ⟨.hbm, 209, rfl⟩
abbrev main_v151 : Ref sig .tc := ⟨.hbm, 210, rfl⟩

abbrev nD : Nat := 1
abbrev τ : Topo := Topo.v7x

variable {F : FTy → Type} [FloatOps F]

class Facts₀ : Prop where
  bcast_S_S512x8192x2 : S_.BroadcastsInDim S512x8192x2 (![] : Fin 0 → Fin S512x8192x2.rank)
  reducesTo_S512x8192x2_S512x8192_d2 : S512x8192x2.ReducesTo [2] S512x8192
  h_S_ : 0 < S_.numel
  shapeCasts_S512x1x200x200_S512x200x200 : S512x1x200x200.ShapeCasts S512x200x200
  bcast_S512_S512x1_0 : S512.BroadcastsInDim S512x1 (![0] : Fin 1 → Fin S512x1.rank)
  slices_S512x8192x2_S512x8192x1_0_0_0 : S512x8192x2.Slices ![0, 0, 0] S512x8192x1
  shapeCasts_S512x8192x1_S512x8192 : S512x8192x1.ShapeCasts S512x8192
  slices_S512x8192x2_S512x8192x1_0_0_1 : S512x8192x2.Slices ![0, 0, 1] S512x8192x1
  bcast_S_S512x1 : S_.BroadcastsInDim S512x1 (![] : Fin 0 → Fin S512x1.rank)
  bcast_S_S512x8192 : S_.BroadcastsInDim S512x8192 (![] : Fin 0 → Fin S512x8192.rank)
  bcast_S512x1_S512x8192_0_1 : S512x1.BroadcastsInDim S512x8192 (![0, 1] : Fin 2 → Fin S512x8192.rank)
  bcast_S512x8192_S512x8192x1_0_1 : S512x8192.BroadcastsInDim S512x8192x1 (![0, 1] : Fin 2 → Fin S512x8192x1.rank)
  concatenates_S512x8192x1_S512x8192x1_S512x8192x1_S512x8192x3_d2 : Shape.Concatenates [S512x8192x1, S512x8192x1, S512x8192x1] S512x8192x3 2
  reducesTo_S512x8192_S_d0_1 : S512x8192.ReducesTo [0, 1] S_
  gather_S512x200x200_S512x8192x3_S512x8192_n_012_n_n_012_2_111_wf : GatherDims.WF S512x200x200 S512x8192x3 S512x8192 [] [0, 1, 2] [] [0, 1, 2] [] 2 ![1, 1, 1]

variable [Facts₀]

def gather_S512x200x200_S512x8192x3_S512x8192_n_012_n_n_012_2_111 : GatherDims S512x200x200 S512x8192x3 S512x8192 where
  offsetDims := []
  collapsedSliceDims := [0, 1, 2]
  operandBatchingDims := []
  startIndicesBatchingDims := []
  startIndexMap := [0, 1, 2]
  indexVectorDim := 2
  sliceSizes := ![1, 1, 1]
  wf := gather_S512x200x200_S512x8192x3_S512x8192_n_012_n_n_012_2_111_wf

class Facts : Prop extends Facts₀ where

variable [Facts]
-- ==== Proof.KernelChunk.lean ====
import proofs.«116232_j80032420594331_1_alg».proof.Proof.Gen.KernelIdeal.Frame
import Idealize.ShloMosaic.Lib.Pipeline.Value

/-!
# What one grid point stores

At a grid point the body reads the point block `x1 : [8, 512, 2]` column by column (the `x` and the `y`
coordinates of 512 points of 8 batches), the grid block `x0 : [8, 200, 200]` whole, and the accumulator
`acc : [8, 1]`, and stores `acc` plus the row sums of the 8 × 512 penalties. `stored` is that value as one term
over the body's arithmetic; the three control cases differ only in what the accumulator holds when it is read
(zeros at a batch group's first chunk, the previous chunk's value afterwards) and in whether the sum is also copied
to the output block (at the last chunk).
-/

set_option maxRecDepth 16384

noncomputable section

namespace Cert.KernelIdeal.Chunk

open Cert.KernelIdeal Cert.KernelIdeal.Gen
open Idealize.ShloMosaic Idealize.ShloMosaic.TcCoe Idealize.ShloMosaic.Tactic
open Idealize.SL Idealize.SL.Sem

variable {F : FTy → Type} [FloatOps F]

theorem zero2 : (![0, 0] : Fin 2 → Nat) = fun _ => 0 := by funext a; fin_cases a <;> rfl
theorem zero3 : (![0, 0, 0] : Fin 3 → Nat) = fun _ => 0 := by funext a; fin_cases a <;> rfl

/-- The `x` coordinates of the block's points: column 0 of the last axis. -/
def colX (x1 : Vec F S8x512x2 .f32) : Vec F S8x512x1 .f32 :=
  View.ld x1 (Rect.unit (s := S8x512x2) ![0, 0, 0] S8x512x1.size inb_S8x512x2_S8x512x1_0_0_0)

/-- The `y` coordinates: column 1. -/
def colY (x1 : Vec F S8x512x2 .f32) : Vec F S8x512x1 .f32 :=
  View.ld x1 (Rect.unit (s := S8x512x2) ![0, 0, 1] S8x512x1.size inb_S8x512x2_S8x512x1_0_0_1)

/-- The accumulator after the point: `acc` plus the row sums of the block's penalties, as the body computes them. -/
def stored (x0 : Vec F S8x200x200 .f32) (x1 : Vec F S8x512x2 .f32) (acc : Vec F S8x1 .f32) : Vec F S8x1 .f32 :=
  k0_pay1
    (k0_pay5 (colX x1) (colY x1))
    (k0_pay15 (k0_pay7 (colY x1)) (k0_pay8 (colY x1)) (FloatOps.ofBits .f32 1092616192#32))
    (k0_pay19 (k0_pay10 (k0_pay9 (colX x1))) (k0_pay11 (k0_pay8 (colY x1)) (FloatOps.ofBits .f32 1092616192#32))
      (k0_pay12 (k0_pay9 (colX x1))) (k0_pay14 (k0_pay6 (colX x1)) (k0_pay9 (colX x1)))
      (iota .tc S8x512x200 32 [2] iota_S8x512x200_d2_w32) x0)
    (k0_pay20 (k0_pay10 (k0_pay9 (colX x1))) (k0_pay12 (k0_pay9 (colX x1)))
      (k0_pay13 (k0_pay8 (colY x1)) (FloatOps.ofBits .f32 1092616192#32)) (k0_pay14 (k0_pay6 (colX x1)) (k0_pay9 (colX x1)))
      (iota .tc S8x512x200 32 [2] iota_S8x512x200_d2_w32) x0)
    (k0_pay21 (k0_pay15 (k0_pay7 (colY x1)) (k0_pay8 (colY x1)) (FloatOps.ofBits .f32 1092616192#32)))
    acc

/-- A middle chunk leaves the accumulator at the previous value plus this block's sums. -/
theorem scratch_B (c : Dev nD) (i : grid0.Coords) (arg2 : Memref sig .tc .vmem S8x200x200 .f32) (harg2 : arg2.IsWhole) (arg3 : Memref sig .tc .vmem S8x512x2 .f32) (harg3 : arg3.IsWhole) (arg4 : Memref sig .tc .vmem S8x1 .f32) (harg4 : arg4.IsWhole) (arg5 : Memref sig .tc .vmem S8x1 .f32) (harg5 : arg5.IsWhole) (hc0 : ¬cond0_0 i) (hc1 : ¬cond0_1 i)
    (x0 : Vec F S8x200x200 .f32) (x1 : Vec F S8x512x2 .f32) (xs0 : Vec F S8x1 .f32) :
    sout0_B_0 c i arg2 harg2 arg3 harg3 arg4 harg4 arg5 harg5 hc0 hc1 x0 x1 xs0 = stored x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero zero2]
  simp only [View.readAt_eq_ld, harg3.read_unread, harg2.read_unread, harg5.read_unread, harg4.read_unread, View.ld_unit_zero (S := S8x200x200) zero3, View.ld_unit_zero (S := S8x1) zero2]
  rfl

/-- So does the last chunk, -/
theorem scratch_C (c : Dev nD) (i : grid0.Coords) (arg2 : Memref sig .tc .vmem S8x200x200 .f32) (harg2 : arg2.IsWhole) (arg3 : Memref sig .tc .vmem S8x512x2 .f32) (harg3 : arg3.IsWhole) (arg4 : Memref sig .tc .vmem S8x1 .f32) (harg4 : arg4.IsWhole) (arg5 : Memref sig .tc .vmem S8x1 .f32) (harg5 : arg5.IsWhole) (hc0 : ¬cond0_0 i) (hc1 : cond0_1 i)
    (x0 : Vec F S8x200x200 .f32) (x1 : Vec F S8x512x2 .f32) (xs0 : Vec F S8x1 .f32) :
    sout0_C_0 c i arg2 harg2 arg3 harg3 arg4 harg4 arg5 harg5 hc0 hc1 x0 x1 xs0 = stored x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero zero2]
  simp only [View.readAt_eq_ld, harg3.read_unread, harg2.read_unread, harg5.read_unread, harg4.read_unread, View.ld_unit_zero (S := S8x200x200) zero3, View.ld_unit_zero (S := S8x1) zero2]
  rfl

/-- which also copies that sum into the output block. -/
theorem output_C (c : Dev nD) (i : grid0.Coords) (arg2 : Memref sig .tc .vmem S8x200x200 .f32) (harg2 : arg2.IsWhole) (arg3 : Memref sig .tc .vmem S8x512x2 .f32) (harg3 : arg3.IsWhole) (arg4 : Memref sig .tc .vmem S8x1 .f32) (harg4 : arg4.IsWhole) (arg5 : Memref sig .tc .vmem S8x1 .f32) (harg5 : arg5.IsWhole) (hc0 : ¬cond0_0 i) (hc1 : cond0_1 i)
    (x0 : Vec F S8x200x200 .f32) (x1 : Vec F S8x512x2 .f32) (xs0 : Vec F S8x1 .f32) :
    out0_C_2 c i arg2 harg2 arg3 harg3 arg4 harg4 arg5 harg5 hc0 hc1 x0 x1 xs0 = stored x0 x1 xs0 := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero zero2]
  simp only [View.readCov_unit_zero (S := S8x1) _ zero2, View.readAt_eq_ld, harg3.read_unread, harg2.read_unread, harg5.read_unread, harg4.read_unread, View.ld_unit_zero (S := S8x200x200) zero3, View.ld_unit_zero (S := S8x1) zero2]
  rfl

/-- A group's first chunk zeroes the accumulator before adding. -/
theorem scratch_A (c : Dev nD) (i : grid0.Coords) (arg2 : Memref sig .tc .vmem S8x200x200 .f32) (harg2 : arg2.IsWhole) (arg3 : Memref sig .tc .vmem S8x512x2 .f32) (harg3 : arg3.IsWhole) (arg4 : Memref sig .tc .vmem S8x1 .f32) (harg4 : arg4.IsWhole) (arg5 : Memref sig .tc .vmem S8x1 .f32) (harg5 : arg5.IsWhole) (hc0 : cond0_0 i) (hc1 : ¬cond0_1 i)
    (x0 : Vec F S8x200x200 .f32) (x1 : Vec F S8x512x2 .f32) :
    sout0_A_0 c i arg2 harg2 arg3 harg3 arg4 harg4 arg5 harg5 hc0 hc1 x0 x1 = stored x0 x1 k0_pay2 := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S8x1) zero2]
  simp only [View.readCov_unit_zero (S := S8x1) _ zero2, View.readAt_eq_ld, harg3.read_unread, harg2.read_unread, harg5.read_unread, harg4.read_unread, View.ld_unit_zero (S := S8x200x200) zero3, View.ld_unit_zero (S := S8x1) zero2]
  rfl

end Cert.KernelIdeal.Chunk

end
-- ==== Proof.PointSpec.lean ====
import Idealize.ShloMosaic.PureOps.Ideal
import Idealize.ShloMosaic.Lib.ValueIdx

/-!
# The penalty of one point, and the mean over all points

A point `(x, y)` of batch `b` is clipped to the square `[lo, hi]²`, located in a cell of the batch's
`200 × 200` grid of distances, and the four grid values around it are blended bilinearly with the point's
fractional offsets inside the cell. A point that lay outside the square before clipping takes the distance `-1`
instead. The penalty is `max (10 · (0.3 - d)) 0` squared, and the result is the mean of the penalties over the
`512 · 8192` points. Every float constant is kept as its `f32` word: both programs print the same words.
-/

noncomputable section

namespace Cert.PointSpec

open Idealize.ShloMosaic Idealize.ShloMosaic.ValueIdx

abbrev SPts : Shape := ⟨3, ![512, 8192, 2]⟩
abbrev SGrid : Shape := ⟨3, ![512, 200, 200]⟩
abbrev SPen : Shape := ⟨2, ![512, 8192]⟩
abbrev SRow : Shape := ⟨2, ![512, 1]⟩
abbrev SEnv : Shape := ⟨4, ![512, 1, 200, 200]⟩

/-- The square's lower and upper bound, half a cell, the grid's offset, the cell width, `1/2`, `1`, `-1`, the
    safe distance `0.3`, zero, and the number of points `2²²`, each as the `f32` word both programs print. -/
abbrev cLo : EReal := Ideal.ofBits .f32 0xC11E6666#32
abbrev cHi : EReal := Ideal.ofBits .f32 0x411E6666#32
abbrev cHalfCell : EReal := Ideal.ofBits .f32 0x3D4CCCCD#32
abbrev cTen : EReal := Ideal.ofBits .f32 0x41200000#32
abbrev cCell : EReal := Ideal.ofBits .f32 0x3DCCCCCD#32
abbrev cHalf : EReal := Ideal.ofBits .f32 0x3F000000#32
abbrev cOne : EReal := Ideal.ofBits .f32 0x3F800000#32
abbrev cNegOne : EReal := Ideal.ofBits .f32 0xBF800000#32
abbrev cSafe : EReal := Ideal.ofBits .f32 0x3E99999A#32
abbrev cZero : EReal := Ideal.ofBits .f32 0x00000000#32
abbrev cCount : EReal := Ideal.ofBits .f32 0x4A800000#32

/-- A coordinate clipped to `[lo, hi]`. -/
def clip (x : EReal) : EReal := min cHi (max cLo x)

/-- The cell a coordinate falls in, as the 32-bit word the programs compute: the floor of
    `(clip x - halfCell + 10) / cell`, converted to an integer. -/
def cellWord (x : EReal) : BitVec 32 :=
  Ideal.fptosi 32 (Ideal.liftRound Int.floor (Ideal.div (clip x - cHalfCell + cTen) cCell))

/-- The fractional offset of a clipped coordinate from the centre `(w + 1/2) · cell - 10` of cell `w`, in cells. -/
def offset (x : EReal) (w : BitVec 32) : EReal :=
  Ideal.div (clip x - ((((w.toInt : ℝ) : EReal) + cHalf) * cCell - cTen)) cCell

/-- Whether the point lay outside the square before clipping. -/
def outside (x y : EReal) : BitVec 1 :=
  IntOp.ori (IntOp.ori (IntOp.ori (Ideal.cmp .olt x cLo) (Ideal.cmp .ogt x cHi)) (Ideal.cmp .olt y cLo)) (Ideal.cmp .ogt y cHi)

/-- The bilinear blend of the four grid values around the point. -/
def blend (dx dy v00 v10 v01 v11 : EReal) : EReal :=
  (cOne - dy) * ((cOne - dx) * v00 + dx * v10) + dy * ((cOne - dx) * v01 + dx * v11)

/-- The penalty of a distance: `-1` stands in for the distance of a point outside the square. -/
def penalty (o : BitVec 1) (v : EReal) : EReal :=
  max (cTen * (cSafe - Scalar.select o cNegOne v)) cZero * max (cTen * (cSafe - Scalar.select o cNegOne v)) cZero

/-- Batch `b`'s grid value at row `p`, column `q`, of an array of `n` grids (zero off the grid: never read,
    since a cell word and its successor stay below 200). -/
def cell {n : Nat} (E : (⟨3, ![n, 200, 200]⟩ : Shape).Idx → EReal) (b : Fin n) (p q : ℕ) : EReal :=
  if h : p < 200 ∧ q < 200 then E (ix3 b ⟨p, h.1⟩ ⟨q, h.2⟩) else 0

/-- The penalty of a point from its two coordinates and the grid `g` of its batch, read at a row and a column:
    the four values around the point's cell, blended by the point's offsets inside it. -/
def pen (x y : EReal) (g : ℕ → ℕ → EReal) : EReal :=
  penalty (outside x y)
    (blend (offset x (cellWord x)) (offset y (cellWord y))
      (g (cellWord x).toNat (cellWord y).toNat)
      (g ((cellWord x).toNat + 1) (cellWord y).toNat)
      (g (cellWord x).toNat ((cellWord y).toNat + 1))
      (g ((cellWord x).toNat + 1) ((cellWord y).toNat + 1)))

/-- The penalty of point `n` of batch `b`. -/
def pointPenalty (X : SPts.Idx → EReal) (E : SGrid.Idx → EReal) (b : Fin 512) (n : Fin 8192) : EReal :=
  pen (X (ix3 b n 0)) (X (ix3 b n 1)) (cell E b)

/-- The sum of a batch's penalties. -/
def rowPenalty (X : SPts.Idx → EReal) (E : SGrid.Idx → EReal) (b : Fin 512) : EReal :=
  ∑ n : Fin 8192, pointPenalty X E b n

/-- The mean penalty: the sum over all points from zero, divided by their number. -/
def total (X : SPts.Idx → EReal) (E : SGrid.Idx → EReal) : EReal :=
  Ideal.div (cZero + ∑ i : SPen.Idx, pointPenalty X E (i 0) (i 1)) cCount

/-- The grids as the programs see them after dropping the unit axis of the argument `[512, 1, 200, 200]`. -/
def grid3 (A : SEnv.Idx → EReal) : SGrid.Idx → EReal := fun j => A (ix4 (j 0) 0 (j 1) (j 2))

/-- The result of both programs, as a function of the two arguments. -/
def mean (X : SPts.Idx → EReal) (A : SEnv.Idx → EReal) : EReal := total X (grid3 A)

end Cert.PointSpec

end
-- ==== Proof.CellRange.lean ====
import proofs.«116232_j80032420594331_1_alg».proof.Proof.PointSpec

/-!
# The cell word stays on the grid

`clip x` lies between the two bounds whatever `x` is (an infinity included), so the quotient
`(clip x - halfCell + 10) / cell` lies between `1/2` and `198 + 1/2` (the constants are the exact binary values of
their `f32` words) and its floor is one of `0, …, 198`. On such a word the clamps to `[0, 199]`, the clamp of its
successor to `199`, and the wrap of a negative index are all the identity.
-/

noncomputable section

namespace Cert.PointSpec

open Idealize.ShloMosaic

namespace CellRange

/-! ### The five constants of the quotient, as exact binary fractions -/

/-- `lo = -(2²³ + 1992294) · 2⁻²⁰`. -/
theorem cLo_eq : cLo = ((-(5190451 / 524288) : ℝ) : EReal) := by
  simp [Ideal.ofBits, Ideal.ieee, -EReal.coe_mul, -EReal.coe_neg]; norm_num

/-- `hi = (2²³ + 1992294) · 2⁻²⁰`. -/
theorem cHi_eq : cHi = ((5190451 / 524288 : ℝ) : EReal) := by
  simp [Ideal.ofBits, Ideal.ieee, -EReal.coe_mul]; norm_num

/-- `halfCell = 13421773 · 2⁻²⁸`. -/
theorem cHalfCell_eq : cHalfCell = ((13421773 / 268435456 : ℝ) : EReal) := by
  simp [Ideal.ofBits, Ideal.ieee, -EReal.coe_mul]; norm_num

/-- The grid's offset is `10`. -/
theorem cTen_eq : cTen = ((10 : ℝ) : EReal) := by
  simp [Ideal.ofBits, Ideal.ieee, -EReal.coe_mul]; norm_num

/-- `cell = 13421773 · 2⁻²⁷`. -/
theorem cCell_eq : cCell = ((13421773 / 134217728 : ℝ) : EReal) := by
  simp [Ideal.ofBits, Ideal.ieee, -EReal.coe_mul]; norm_num

/-- A clipped coordinate is a real between the two bounds: `lo ≤ max lo x` and `min hi _ ≤ hi` hold at the
    infinities too, and an extended real between two reals is a real. -/
theorem clip_real (x : EReal) :
    ∃ r : ℝ, clip x = (r : EReal) ∧ -(5190451 / 524288) ≤ r ∧ r ≤ 5190451 / 524288 := by
  have h1 : clip x ≤ cHi := min_le_left _ _
  have h2 : cLo ≤ clip x := by
    refine le_min ?_ (le_max_left _ _)
    rw [cLo_eq, cHi_eq, EReal.coe_le_coe_iff]; norm_num
  rw [cHi_eq] at h1
  rw [cLo_eq] at h2
  have ht : clip x ≠ ⊤ := ne_top_of_le_ne_top (EReal.coe_ne_top _) h1
  have hb : clip x ≠ ⊥ := ne_bot_of_le_ne_bot (EReal.coe_ne_bot _) h2
  refine ⟨(clip x).toReal, (EReal.coe_toReal ht hb).symm, ?_, ?_⟩
  · rw [← EReal.coe_toReal ht hb, EReal.coe_le_coe_iff] at h2; exact h2
  · rw [← EReal.coe_toReal ht hb, EReal.coe_le_coe_iff] at h1; exact h1

/-- An integer in `[0, 198]` is inside the signed 32-bit range, so clamping to that range and reducing modulo
    `2³²` both leave it alone. -/
theorem ofInt_toNat_le (k : ℤ) (h0 : 0 ≤ k) (h1 : k ≤ 198) :
    (BitVec.ofInt 32 (max (-((2 ^ (32 - 1) : ℕ) : ℤ)) (min (((2 ^ (32 - 1) : ℕ) : ℤ) - 1) k))).toNat ≤ 198 := by
  have hk : max (-((2 ^ (32 - 1) : ℕ) : ℤ)) (min (((2 ^ (32 - 1) : ℕ) : ℤ) - 1) k) = k := by
    rw [min_eq_right (by norm_num; omega), max_eq_right (by norm_num; omega)]
  rw [hk, BitVec.toNat_ofInt]
  omega

/-- Two words below `2³¹` compare as signed integers the way their values compare. -/
theorem slt_small (a b : BitVec 32) (ha : a.toNat < 2 ^ 31) (hb : b.toNat < 2 ^ 31) :
    a.slt b = decide (a.toNat < b.toNat) := by
  have ha' : a.toInt = (a.toNat : ℤ) := by rw [BitVec.toInt_eq_toNat_cond, if_pos (by omega)]
  have hb' : b.toInt = (b.toNat : ℤ) := by rw [BitVec.toInt_eq_toNat_cond, if_pos (by omega)]
  simp only [BitVec.slt, ha', hb', Nat.cast_lt]

end CellRange

open CellRange

/-- The cell word is one of `0, …, 198`. -/
theorem cellWord_toNat_le (x : EReal) : (cellWord x).toNat ≤ 198 := by
  obtain ⟨r, hr, hlo, hhi⟩ := clip_real x
  unfold cellWord
  rw [hr, cHalfCell_eq, cTen_eq, cCell_eq, ← EReal.coe_sub, ← EReal.coe_add,
    Ideal.div_coe (by norm_num), ← EReal.coe_mul, Ideal.liftRound_coe, Ideal.fptosi, Ideal.toIntClamped_coe]
  -- the quotient is at least `13421875 / 26843546 > 0` …
  have hq0 : (0 : ℤ) ≤ ⌊(r - 13421773 / 268435456 + 10) * (1 / (13421773 / 134217728))⌋ := by
    apply Int.floor_nonneg.mpr
    apply mul_nonneg <;> [linarith; norm_num]
  -- … and at most `5328443699 / 26843546 < 199`
  have hq1 : ⌊(r - 13421773 / 268435456 + 10) * (1 / (13421773 / 134217728))⌋ ≤ (198 : ℤ) := by
    have : ⌊(r - 13421773 / 268435456 + 10) * (1 / (13421773 / 134217728))⌋ < (199 : ℤ) := by
      apply Int.floor_lt.mpr
      push_cast
      rw [one_div, inv_div]
      nlinarith
    omega
  rw [if_pos (by exact_mod_cast hq0), Int.floor_intCast]
  exact ofInt_toNat_le _ hq0 hq1

/-- The successor's value. -/
theorem succ_toNat (w : BitVec 32) (h : w.toNat ≤ 198) : (IntOp.addi w 1#32).toNat = w.toNat + 1 := by
  unfold IntOp.addi
  rw [BitVec.toNat_add]
  simp only [BitVec.toNat_ofNat]
  omega

/-- Clamping such a word to `[0, 199]` changes nothing. -/
theorem clamp_eq (w : BitVec 32) (h : w.toNat ≤ 198) : IntOp.minsi 199#32 (IntOp.maxsi 0#32 w) = w := by
  unfold IntOp.minsi IntOp.maxsi
  have h1 : w.slt 0#32 = false := by
    rw [slt_small _ _ (by omega) (by simp)]; simp
  have h2 : (199#32).slt w = false := by
    rw [slt_small _ _ (by simp) (by omega)]; simp; omega
  simp [h1, h2]

/-- Nor does clamping its successor to `199`. -/
theorem clamp_succ_eq (w : BitVec 32) (h : w.toNat ≤ 198) : IntOp.minsi (IntOp.addi w 1#32) 199#32 = IntOp.addi w 1#32 := by
  have hs := succ_toNat w h
  unfold IntOp.minsi
  split_ifs with h1
  · rfl
  · rw [slt_small _ _ (by omega) (by simp)] at h1
    apply BitVec.eq_of_toNat_eq
    simp at h1
    simp
    omega

/-- A word below `2³¹` is not negative: the wrap `if w < 0 then w + n else w` is the identity on it. -/
theorem wrap_eq (w n : BitVec 32) (h : w.toNat ≤ 511) :
    Scalar.select (IntOp.cmpi .slt w 0#32) (IntOp.addi w n) w = w := by
  unfold Scalar.select IntOp.cmpi
  have h1 : w.slt 0#32 = false := by
    rw [slt_small _ _ (by omega) (by simp)]; simp
  simp [h1]

/-- Read as a signed integer it is its value. -/
theorem toInt_eq (w : BitVec 32) (h : w.toNat ≤ 511) : w.toInt = (w.toNat : ℤ) := by
  rw [BitVec.toInt_eq_toNat_cond]
  split_ifs with h1
  · rfl
  · omega

end Cert.PointSpec

end
-- ==== Proof.KernelChunkValue.lean ====
import proofs.«116232_j80032420594331_1_alg».proof.Proof.KernelChunk
import proofs.«116232_j80032420594331_1_alg».proof.Proof.CellRange
import Idealize.ShloMosaic.Lib.ValueIdx
import Idealize.ShloMosaic.Lib.ValueLayout
import Idealize.ShloMosaic.Lib.Pipeline.Value
import Idealize.ShloMosaic.PureOps.Ideal.Laws

/-!
# The stored value, entry by entry, over the extended reals

Row `r` of what a grid point stores is the accumulator's row `r` plus the sum, over the block's 512 points of batch
`r`, of the point's penalty: the one-hot contraction with the grid picks row `ix` of the batch's grid (a sum of 200
products of which one factor is `1` and the others `0`), the product with the second one-hot and the lane sum pick
column `iy`, and the clamps are the identity on a cell word.
-/

set_option maxRecDepth 16384

noncomputable section

namespace Cert.KernelIdeal.Chunk

open Cert.KernelIdeal Cert.KernelIdeal.Gen
open Idealize.ShloMosaic Idealize.ShloMosaic.ValueIdx

/-- Column 0 of the point block. -/
theorem colX_apply (x1 : Vec Ideal S8x512x2 .f32) (r : Fin 8) (j : Fin 512) :
    colX x1 (ix3 r j (0 : Fin 1)) = x1 (ix3 r j (0 : Fin 2)) := by
  unfold colX
  show x1 _ = x1 _
  refine congrArg x1 (funext fun a => Fin.ext ?_)
  match a with
  | ⟨0, _⟩ => simp [Rect.unit, Rect.emb]
  | ⟨1, _⟩ => simp [Rect.unit, Rect.emb]
  | ⟨2, _⟩ => simp [Rect.unit, Rect.emb]

/-- Column 1 of the point block. -/
theorem colY_apply (x1 : Vec Ideal S8x512x2 .f32) (r : Fin 8) (j : Fin 512) :
    colY x1 (ix3 r j (0 : Fin 1)) = x1 (ix3 r j (1 : Fin 2)) := by
  unfold colY
  show x1 _ = x1 _
  refine congrArg x1 (funext fun a => Fin.ext ?_)
  match a with
  | ⟨0, _⟩ => simp [Rect.unit, Rect.emb]
  | ⟨1, _⟩ => simp [Rect.unit, Rect.emb]
  | ⟨2, _⟩ => simp [Rect.unit, Rect.emb]

/-- Dropping the trailing unit axis of a column keeps the entry. -/
theorem dropCol_apply {α : Type} (v : S8x512x1.Idx → α) (h : S8x512x1.ShapeCasts S8x512) (r : Fin 8) (j : Fin 512) :
    shapeCast S8x512 v h (ix2 r j) = v (ix3 r j (0 : Fin 1)) :=
  shapeCast_apply v h _ _ (by
    rw [Shape.rowMajor_val_three, Shape.rowMajor_val_two]
    show (r.val * 512 + j.val) * 1 + 0 = r.val * 512 + j.val
    omega)

/-- Adding a trailing unit axis keeps the entry. -/
theorem addCol_apply {α : Type} (v : S8x512.Idx → α) (h : S8x512.ShapeCasts S8x512x1) (r : Fin 8) (j : Fin 512) (u : Fin 1) :
    shapeCast S8x512x1 v h (ix3 r j u) = v (ix2 r j) :=
  shapeCast_apply v h _ _ (by
    have hu : u.val = 0 := by omega
    rw [Shape.rowMajor_val_three, Shape.rowMajor_val_two]
    show r.val * 512 + j.val = (r.val * 512 + j.val) * 1 + u.val
    omega)

/-- A column broadcast along the lane axis reads the column's entry at every lane. -/
theorem lanes_apply {α : Type} (v : S8x512x1.Idx → α) (h : S8x512x1.Broadcasts S8x512x200) (r : Fin 8) (j : Fin 512) (w : Fin 200) :
    broadcastTo S8x512x200 v h (ix3 r j w) = v (ix3 r j (0 : Fin 1)) :=
  broadcastTo_apply v h _ _ (fun a => by
    match a with
    | ⟨0, _⟩ => rfl
    | ⟨1, _⟩ => rfl
    | ⟨2, _⟩ => rfl)

theorem pay3_apply (v : Vec Ideal S8x512x1 .f32) (r : Fin 8) (j : Fin 512) :
    k0_pay3 v (ix2 r j) = v (ix3 r j (0 : Fin 1)) := dropCol_apply v _ r j

theorem pay4_apply (v : Vec Ideal S8x512x1 .f32) (r : Fin 8) (j : Fin 512) :
    k0_pay4 v (ix2 r j) = v (ix3 r j (0 : Fin 1)) := dropCol_apply v _ r j

/-- The batched contraction's record, by a short name. -/
abbrev DD : DotDims S8x512x200 S8x200x200 S8x512x200 := dot_S8x512x200_S8x200x200_S8x512x200_2_1_1_2_0_0

theorem DD_lhs (r : Fin 8) (p : Fin 512) (w h : Fin 200) :
    DD.lhsIdx (ix3 r p w) ((contrEquiv1 DD 200 rfl rfl).symm h) = ix3 r p h := by
  funext a; refine Fin.ext ?_
  match a with
  | ⟨0, _⟩ => rfl
  | ⟨1, _⟩ => rfl
  | ⟨2, _⟩ => exact (DD.lhsIdx_val_of_single (cl := 2) rfl _ _).trans (contrEquiv1_symm_val DD 200 rfl rfl h)

theorem DD_rhs (r : Fin 8) (p : Fin 512) (w h : Fin 200) :
    DD.rhsIdx (ix3 r p w) ((contrEquiv1 DD 200 rfl rfl).symm h) = ix3 r h w := by
  funext a; refine Fin.ext ?_
  match a with
  | ⟨0, _⟩ => rfl
  | ⟨1, _⟩ => exact (DD.rhsIdx_val_of_single (cr := 1) rfl _ _).trans (contrEquiv1_symm_val DD 200 rfl rfl h)
  | ⟨2, _⟩ => rfl

/-- The batched product into a zero accumulator, at an entry: the sum over the contracted axis. -/
theorem matmul_entry (L : FVec Ideal S8x512x200 .bf16) (G : FVec Ideal S8x200x200 .bf16) (r : Fin 8) (p : Fin 512) (w : Fin 200) :
    matmul DD none L G (constant S8x512x200 .f32 0x00000000#32) (ix3 r p w)
      = ∑ h : Fin 200, L (ix3 r p h) * G (ix3 r h w) := by
  refine (Ideal.matmul_constant_zero_apply DD none L G (ix3 r p w)).trans ?_
  rw [← Equiv.sum_comp (contrEquiv1 DD 200 rfl rfl).symm]
  refine Finset.sum_congr rfl fun h _ => ?_
  rw [DD_lhs, DD_rhs]

/-- The sum over the lane axis, at an entry. -/
theorem laneSum_entry (A : FVec Ideal S8x512x200 .f32) (hacc : (0x00000000#32 : BitVec 32) = 0x00000000#32) (r : Fin 8) (p : Fin 512) :
    multiReduction .add [2] S8x512 A 0x00000000#32 reduces_S8x512x200_S8x512 (.inl rfl) hacc (ix2 r p)
      = ∑ w : Fin 200, A (ix3 r p w) := by
  refine (Ideal.multiReduction_add_single A 0x00000000#32 reduces_S8x512x200_S8x512 (.inl rfl) hacc (ix2 r p)).trans ?_
  refine Finset.sum_congr rfl fun w _ => congrArg A ?_
  funext a; refine Fin.ext ?_
  match a with
  | ⟨0, _⟩ => rfl
  | ⟨1, _⟩ => rfl
  | ⟨2, _⟩ => rfl

/-- The sum over a batch's points, at an entry. -/
theorem rowSum_entry (A : FVec Ideal S8x512 .f32) (hacc : (0x00000000#32 : BitVec 32) = 0x00000000#32) (r : Fin 8) :
    multiReduction .add [1] S8 A 0x00000000#32 reduces_S8x512_S8 (.inl rfl) hacc (ix1 r)
      = ∑ p : Fin 512, A (ix2 r p) := by
  refine (Ideal.multiReduction_add_single A 0x00000000#32 reduces_S8x512_S8 (.inl rfl) hacc (ix1 r)).trans ?_
  refine Finset.sum_congr rfl fun w _ => congrArg A ?_
  funext a; refine Fin.ext ?_
  match a with
  | ⟨0, _⟩ => rfl
  | ⟨1, _⟩ => rfl

/-- The one-hot rows of a vector of words: lane `h` of row `(r, p)` is `1` when `h` is the word at `(r, p)`, else `0`. -/
def onehot (v : IVec S8x512 32) : FVec Ideal S8x512x200 .f32 :=
  sitofp .f32 (extui 32 (cmpi .eq (iota .tc S8x512x200 32 [2] iota_S8x512x200_d2_w32)
    (broadcastTo S8x512x200 (shapeCast S8x512x1 v shapeCasts_S8x512_S8x512x1) broadcasts_S8x512x1_S8x512x200)) natLt_1_32)

theorem onehot_entry (v : IVec S8x512 32) (r : Fin 8) (p : Fin 512) (h : Fin 200) (hw : (v (ix2 r p)).toNat < 200) :
    onehot v (ix3 r p h) = if h = (⟨(v (ix2 r p)).toNat, hw⟩ : Fin 200) then 1 else 0 := by
  unfold onehot
  show (((((IntOp.cmpi .eq (iota .tc S8x512x200 32 [2] iota_S8x512x200_d2_w32 (ix3 r p h))
      (broadcastTo S8x512x200 (shapeCast S8x512x1 v shapeCasts_S8x512_S8x512x1) broadcasts_S8x512x1_S8x512x200 (ix3 r p h))).setWidth 32).toInt : ℝ)) : EReal) = _
  rw [iota_single_apply, lanes_apply, addCol_apply]
  show (((((IntOp.cmpi .eq (BitVec.ofNat 32 h.val) (v (ix2 r p))).setWidth 32).toInt : ℝ)) : EReal) = _
  have hh := h.isLt
  by_cases e : h = (⟨(v (ix2 r p)).toNat, hw⟩ : Fin 200)
  · rw [if_pos e]
    have e' : BitVec.ofNat 32 h.val = v (ix2 r p) := by
      apply BitVec.eq_of_toNat_eq
      rw [BitVec.toNat_ofNat, e]
      show (v (ix2 r p)).toNat % 2 ^ 32 = _
      omega
    have eb : (BitVec.ofNat 32 h.val == v (ix2 r p)) = true := beq_iff_eq.mpr e'
    simp [IntOp.cmpi, eb]
  · rw [if_neg e]
    have e' : ¬ BitVec.ofNat 32 h.val = v (ix2 r p) := by
      intro q; apply e; apply Fin.ext
      show h.val = (v (ix2 r p)).toNat
      rw [← q, BitVec.toNat_ofNat]; omega
    have eb : (BitVec.ofNat 32 h.val == v (ix2 r p)) = false := beq_false_of_ne e'
    simp [IntOp.cmpi, eb]

/-- The grid block is read as it is: the cast to its own shape and the format change are identities. -/
theorem pay16_apply (x0 : Vec Ideal S8x200x200 .f32) (i : S8x200x200.Idx) : k0_pay16 x0 i = x0 i := by
  unfold k0_pay16
  show shapeCast S8x200x200 x0 shapeCasts_S8x200x200_S8x200x200 i = x0 i
  rw [shapeCast_self]

/-- The contraction of one-hot rows with the grid picks a row of the batch's grid. -/
theorem pay17_entry (v : IVec S8x512 32) (x0 : Vec Ideal S8x200x200 .f32) (r : Fin 8) (p : Fin 512) (c : Fin 200)
    (hw : (v (ix2 r p)).toNat < 200) :
    k0_pay17 v (iota .tc S8x512x200 32 [2] iota_S8x512x200_d2_w32) x0 (ix3 r p c) = x0 (ix3 r ⟨(v (ix2 r p)).toNat, hw⟩ c) := by
  unfold k0_pay17
  refine (matmul_entry (truncf .bf16 (onehot v) bitsLt_bf16_f32) (k0_pay16 x0) r p c).trans ?_
  rw [Finset.sum_eq_single (⟨(v (ix2 r p)).toNat, hw⟩ : Fin 200)]
  · rw [truncf_apply, onehot_entry v r p _ hw, if_pos rfl, one_mul, pay16_apply]
  · intro h _ hne
    rw [truncf_apply, onehot_entry v r p h hw, if_neg hne, zero_mul]
  · intro hn; exact absurd (Finset.mem_univ _) hn

theorem pay18_eq (v : IVec S8x512 32) (i : IVec S8x512x200 32) (x0 : Vec Ideal S8x200x200 .f32) :
    k0_pay18 v i x0 = k0_pay17 v i x0 := rfl

/-- A row picked by one word, multiplied by the one-hot of a second word and summed over the lanes, is one grid value. -/
theorem pick_entry (va vb : IVec S8x512 32) (x0 : Vec Ideal S8x200x200 .f32) (r : Fin 8) (p : Fin 512)
    (ha : (va (ix2 r p)).toNat < 200) (hb : (vb (ix2 r p)).toNat < 200) (hacc : (0x00000000#32 : BitVec 32) = 0x00000000#32) :
    multiReduction .add [2] S8x512 (mulf (k0_pay17 va (iota .tc S8x512x200 32 [2] iota_S8x512x200_d2_w32) x0) (onehot vb))
        0x00000000#32 reduces_S8x512x200_S8x512 (.inl rfl) hacc (ix2 r p)
      = x0 (ix3 r ⟨(va (ix2 r p)).toNat, ha⟩ ⟨(vb (ix2 r p)).toNat, hb⟩) := by
  refine (laneSum_entry _ hacc r p).trans ?_
  rw [Finset.sum_eq_single (⟨(vb (ix2 r p)).toNat, hb⟩ : Fin 200)]
  · rw [mulf_apply, onehot_entry vb r p _ hb, if_pos rfl, mul_one, pay17_entry va x0 r p _ ha]
  · intro h _ hne
    rw [mulf_apply, onehot_entry vb r p h hb, if_neg hne, mul_zero]
  · intro hn; exact absurd (Finset.mem_univ _) hn

/-- The outside bit of a point. -/
theorem pay5_entry (vx vy : Vec Ideal S8x512x1 .f32) (r : Fin 8) (p : Fin 512) :
    k0_pay5 vx vy (ix2 r p) = Cert.PointSpec.outside (vx (ix3 r p (0 : Fin 1))) (vy (ix3 r p (0 : Fin 1))) := by
  unfold k0_pay5 Cert.PointSpec.outside
  show IntOp.ori (IntOp.ori (IntOp.ori (Ideal.cmp .olt (k0_pay3 vx (ix2 r p)) Cert.PointSpec.cLo)
      (Ideal.cmp .ogt (k0_pay3 vx (ix2 r p)) Cert.PointSpec.cHi)) (Ideal.cmp .olt (k0_pay4 vy (ix2 r p)) Cert.PointSpec.cLo))
      (Ideal.cmp .ogt (k0_pay4 vy (ix2 r p)) Cert.PointSpec.cHi) = _
  rw [pay3_apply, pay4_apply]

/-- The clipped `x` coordinate. -/
theorem pay6_entry (vx : Vec Ideal S8x512x1 .f32) (r : Fin 8) (p : Fin 512) :
    k0_pay6 vx (ix2 r p) = Cert.PointSpec.clip (vx (ix3 r p (0 : Fin 1))) := by
  unfold k0_pay6 Cert.PointSpec.clip
  show min Cert.PointSpec.cHi (max Cert.PointSpec.cLo (k0_pay3 vx (ix2 r p))) = _
  rw [pay3_apply]

/-- The clipped `y` coordinate. -/
theorem pay7_entry (vy : Vec Ideal S8x512x1 .f32) (r : Fin 8) (p : Fin 512) :
    k0_pay7 vy (ix2 r p) = Cert.PointSpec.clip (vy (ix3 r p (0 : Fin 1))) := by
  unfold k0_pay7 Cert.PointSpec.clip
  show min Cert.PointSpec.cHi (max Cert.PointSpec.cLo (k0_pay4 vy (ix2 r p))) = _
  rw [pay4_apply]

/-- The clipped `y` coordinate less half a cell. -/
theorem pay8_entry (vy : Vec Ideal S8x512x1 .f32) (r : Fin 8) (p : Fin 512) :
    k0_pay8 vy (ix2 r p) = Cert.PointSpec.clip (vy (ix3 r p (0 : Fin 1))) - Cert.PointSpec.cHalfCell := by
  unfold k0_pay8
  show k0_pay7 vy (ix2 r p) - Cert.PointSpec.cHalfCell = _
  rw [pay7_entry]

/-- The cell word of the `x` coordinate. -/
theorem pay9_entry (vx : Vec Ideal S8x512x1 .f32) (r : Fin 8) (p : Fin 512) :
    k0_pay9 vx (ix2 r p) = Cert.PointSpec.cellWord (vx (ix3 r p (0 : Fin 1))) := by
  unfold k0_pay9 Cert.PointSpec.cellWord
  show Ideal.fptosi 32 (Ideal.liftRound Int.floor (Ideal.div (k0_pay6 vx (ix2 r p) - Cert.PointSpec.cHalfCell + Cert.PointSpec.cTen) Cert.PointSpec.cCell)) = _
  rw [pay6_entry]

section Point
variable (x0 : Vec Ideal S8x200x200 .f32) (x1 : Vec Ideal S8x512x2 .f32) (r : Fin 8) (p : Fin 512)

/-- The row word of a point: the clamp is the identity on a cell word. -/
theorem ix_entry :
    k0_pay10 (k0_pay9 (colX x1)) (ix2 r p) = Cert.PointSpec.cellWord (x1 (ix3 r p (0 : Fin 2))) := by
  show IntOp.minsi 199#32 (IntOp.maxsi 0#32 (k0_pay9 (colX x1) (ix2 r p))) = _
  rw [pay9_entry, colX_apply, Cert.PointSpec.clamp_eq _ (Cert.PointSpec.cellWord_toNat_le _)]

/-- The column word of a point. -/
theorem iy_entry :
    k0_pay11 (k0_pay8 (colY x1)) (FloatOps.ofBits .f32 1092616192#32) (ix2 r p) = Cert.PointSpec.cellWord (x1 (ix3 r p (1 : Fin 2))) := by
  show IntOp.minsi 199#32 (IntOp.maxsi 0#32 (Ideal.fptosi 32 (Ideal.liftRound Int.floor
    (Ideal.div (k0_pay8 (colY x1) (ix2 r p) + Cert.PointSpec.cTen) Cert.PointSpec.cCell)))) = _
  rw [pay8_entry, colY_apply]
  exact Cert.PointSpec.clamp_eq (Cert.PointSpec.cellWord (x1 (ix3 r p (1 : Fin 2)))) (Cert.PointSpec.cellWord_toNat_le _)

/-- The next row's word. -/
theorem ix1_entry :
    k0_pay12 (k0_pay9 (colX x1)) (ix2 r p) = IntOp.addi (Cert.PointSpec.cellWord (x1 (ix3 r p (0 : Fin 2)))) 1#32 := by
  show IntOp.minsi (IntOp.addi (k0_pay10 (k0_pay9 (colX x1)) (ix2 r p)) 1#32) 199#32 = _
  rw [ix_entry, Cert.PointSpec.clamp_succ_eq _ (Cert.PointSpec.cellWord_toNat_le _)]

/-- The next column's word. -/
theorem iy1_entry :
    k0_pay13 (k0_pay8 (colY x1)) (FloatOps.ofBits .f32 1092616192#32) (ix2 r p)
      = IntOp.addi (Cert.PointSpec.cellWord (x1 (ix3 r p (1 : Fin 2)))) 1#32 := by
  show IntOp.minsi (IntOp.addi (k0_pay11 (k0_pay8 (colY x1)) (FloatOps.ofBits .f32 1092616192#32) (ix2 r p)) 1#32) 199#32 = _
  rw [iy_entry, Cert.PointSpec.clamp_succ_eq _ (Cert.PointSpec.cellWord_toNat_le _)]

/-- The offset along `x`. -/
theorem dx_entry :
    k0_pay14 (k0_pay6 (colX x1)) (k0_pay9 (colX x1)) (ix2 r p)
      = Cert.PointSpec.offset (x1 (ix3 r p (0 : Fin 2))) (Cert.PointSpec.cellWord (x1 (ix3 r p (0 : Fin 2)))) := by
  unfold Cert.PointSpec.offset
  show Ideal.div (k0_pay6 (colX x1) (ix2 r p) - (((((k0_pay10 (k0_pay9 (colX x1)) (ix2 r p)).toInt : ℝ) : EReal)
    + Cert.PointSpec.cHalf) * Cert.PointSpec.cCell - Cert.PointSpec.cTen)) Cert.PointSpec.cCell = _
  rw [pay6_entry, ix_entry, colX_apply]

/-- The offset along `y`. -/
theorem dy_entry :
    k0_pay15 (k0_pay7 (colY x1)) (k0_pay8 (colY x1)) (FloatOps.ofBits .f32 1092616192#32) (ix2 r p)
      = Cert.PointSpec.offset (x1 (ix3 r p (1 : Fin 2))) (Cert.PointSpec.cellWord (x1 (ix3 r p (1 : Fin 2)))) := by
  unfold Cert.PointSpec.offset
  show Ideal.div (k0_pay7 (colY x1) (ix2 r p) - (((((k0_pay11 (k0_pay8 (colY x1)) (FloatOps.ofBits .f32 1092616192#32) (ix2 r p)).toInt : ℝ) : EReal)
    + Cert.PointSpec.cHalf) * Cert.PointSpec.cCell - Cert.PointSpec.cTen)) Cert.PointSpec.cCell = _
  rw [pay7_entry, iy_entry, colY_apply]

end Point

/-- The blend along `x` of the two grid values in column `vb`: rows `va` and `vc`. -/
theorem pay19_entry (va vb vc : IVec S8x512 32) (d : FVec Ideal S8x512 .f32) (x0 : Vec Ideal S8x200x200 .f32) (r : Fin 8) (p : Fin 512)
    (ha : (va (ix2 r p)).toNat < 200) (hb : (vb (ix2 r p)).toNat < 200) (hc : (vc (ix2 r p)).toNat < 200) :
    k0_pay19 va vb vc d (iota .tc S8x512x200 32 [2] iota_S8x512x200_d2_w32) x0 (ix2 r p)
      = (Cert.PointSpec.cOne - d (ix2 r p)) * x0 (ix3 r ⟨(va (ix2 r p)).toNat, ha⟩ ⟨(vb (ix2 r p)).toNat, hb⟩)
        + d (ix2 r p) * x0 (ix3 r ⟨(vc (ix2 r p)).toNat, hc⟩ ⟨(vb (ix2 r p)).toNat, hb⟩) := by
  unfold k0_pay19
  show (Cert.PointSpec.cOne - d (ix2 r p))
        * (multiReduction .add [2] S8x512 (mulf (k0_pay17 va (iota .tc S8x512x200 32 [2] iota_S8x512x200_d2_w32) x0) (onehot vb))
            0x00000000#32 reduces_S8x512x200_S8x512 (.inl rfl) rfl (ix2 r p))
      + d (ix2 r p)
        * (multiReduction .add [2] S8x512 (mulf (k0_pay17 vc (iota .tc S8x512x200 32 [2] iota_S8x512x200_d2_w32) x0) (onehot vb))
            0x00000000#32 reduces_S8x512x200_S8x512 (.inl rfl) rfl (ix2 r p)) = _
  rw [pick_entry va vb x0 r p ha hb rfl, pick_entry vc vb x0 r p hc hb rfl]

/-- The blend along `x` of the two grid values in column `vd`: rows `va` and `vc`. -/
theorem pay20_entry (va vc vd : IVec S8x512 32) (d : FVec Ideal S8x512 .f32) (x0 : Vec Ideal S8x200x200 .f32) (r : Fin 8) (p : Fin 512)
    (ha : (va (ix2 r p)).toNat < 200) (hc : (vc (ix2 r p)).toNat < 200) (hd : (vd (ix2 r p)).toNat < 200) :
    k0_pay20 va vc vd d (iota .tc S8x512x200 32 [2] iota_S8x512x200_d2_w32) x0 (ix2 r p)
      = (Cert.PointSpec.cOne - d (ix2 r p)) * x0 (ix3 r ⟨(va (ix2 r p)).toNat, ha⟩ ⟨(vd (ix2 r p)).toNat, hd⟩)
        + d (ix2 r p) * x0 (ix3 r ⟨(vc (ix2 r p)).toNat, hc⟩ ⟨(vd (ix2 r p)).toNat, hd⟩) := by
  unfold k0_pay20
  show (Cert.PointSpec.cOne - d (ix2 r p))
        * (multiReduction .add [2] S8x512 (mulf (k0_pay17 va (iota .tc S8x512x200 32 [2] iota_S8x512x200_d2_w32) x0) (onehot vd))
            0x00000000#32 reduces_S8x512x200_S8x512 (.inl rfl) rfl (ix2 r p))
      + d (ix2 r p)
        * (multiReduction .add [2] S8x512 (mulf (k0_pay17 vc (iota .tc S8x512x200 32 [2] iota_S8x512x200_d2_w32) x0) (onehot vd))
            0x00000000#32 reduces_S8x512x200_S8x512 (.inl rfl) rfl (ix2 r p)) = _
  rw [pick_entry va vd x0 r p ha hd rfl, pick_entry vc vd x0 r p hc hd rfl]

/-- A vector of per-batch sums stored as a column reads the batch's sum. -/
theorem colOfRow_apply {α : Type} (v : S8.Idx → α) (h : S8.ShapeCasts S8x1) (r : Fin 8) (u : Fin 1) :
    shapeCast S8x1 v h (ix2 r u) = v (ix1 r) :=
  shapeCast_apply v h _ _ (by
    have hu : u.val = 0 := by omega
    rw [Shape.rowMajor_val_two, Shape.rowMajor_val_one]
    show r.val = r.val * 1 + u.val
    omega)

/-- Row `r` of the stored column: the accumulator's row plus the batch's penalties, from the blends, the offset and the
    outside bit as vectors. -/
theorem pay1_entry (o : IVec S8x512 1) (dy a b e : FVec Ideal S8x512 .f32) (acc : Vec Ideal S8x1 .f32) (r : Fin 8) :
    k0_pay1 o dy a b e acc (ix2 r (0 : Fin 1))
      = acc (ix2 r (0 : Fin 1)) + ∑ p : Fin 512, Cert.PointSpec.penalty (o (ix2 r p))
          (e (ix2 r p) * a (ix2 r p) + dy (ix2 r p) * b (ix2 r p)) := by
  unfold k0_pay1
  rw [shapeCast_self]
  refine congrArg (acc (ix2 r (0 : Fin 1)) + ·) ?_
  refine (colOfRow_apply _ shapeCasts_S8_S8x1 r 0).trans ?_
  refine (rowSum_entry _ rfl r).trans ?_
  rfl

/-- One less the offset along `y`. -/
theorem pay21_entry (v : FVec Ideal S8x512 .f32) (i : S8x512.Idx) : k0_pay21 v i = Cert.PointSpec.cOne - v i := rfl

/-- A grid entry at a row and a column known by their values is the batch's grid value there. -/
theorem cell_eq (x0 : Vec Ideal S8x200x200 .f32) (r : Fin 8) (a b : Fin 200) (m n : ℕ) (hm : a.val = m) (hn : b.val = n) :
    x0 (ix3 r a b) = Cert.PointSpec.cell x0 r m n := by
  subst hm hn
  unfold Cert.PointSpec.cell
  rw [dif_pos ⟨a.isLt, b.isLt⟩]

/-- The zero payload reads as zero. -/
theorem zeros_apply (y : S8x1.Idx) : (k0_pay2 (F := Ideal)) y = Cert.PointSpec.cZero := by
  unfold k0_pay2
  rw [shapeCast_self]
  rfl

/-- Row `r` of the stored value: the accumulator's row plus the penalties of batch `r`'s 512 points. -/
theorem stored_apply (x0 : Vec Ideal S8x200x200 .f32) (x1 : Vec Ideal S8x512x2 .f32) (acc : Vec Ideal S8x1 .f32) (r : Fin 8) :
    stored (F := Ideal) x0 x1 acc (ix2 r 0)
      = acc (ix2 r 0) + ∑ j : Fin 512, Cert.PointSpec.pen (x1 (ix3 r j 0)) (x1 (ix3 r j 1)) (Cert.PointSpec.cell x0 r) := by
  unfold stored
  refine (pay1_entry _ _ _ _ _ acc r).trans ?_
  refine congrArg (acc (ix2 r (0 : Fin 1)) + ·) (Finset.sum_congr rfl fun p _ => ?_)
  have hx := Cert.PointSpec.cellWord_toNat_le (x1 (ix3 r p (0 : Fin 2)))
  have hy := Cert.PointSpec.cellWord_toNat_le (x1 (ix3 r p (1 : Fin 2)))
  have eix := ix_entry x1 r p
  have eiy := iy_entry x1 r p
  have eix1 := ix1_entry x1 r p
  have eiy1 := iy1_entry x1 r p
  have nix := congrArg BitVec.toNat eix
  have niy := congrArg BitVec.toNat eiy
  have nix1 := (congrArg BitVec.toNat eix1).trans (Cert.PointSpec.succ_toNat _ hx)
  have niy1 := (congrArg BitVec.toNat eiy1).trans (Cert.PointSpec.succ_toNat _ hy)
  have ha : (k0_pay10 (k0_pay9 (colX x1)) (ix2 r p)).toNat < 200 := by rw [nix]; omega
  have hb : (k0_pay11 (k0_pay8 (colY x1)) (FloatOps.ofBits .f32 1092616192#32) (ix2 r p)).toNat < 200 := by rw [niy]; omega
  have hc : (k0_pay12 (k0_pay9 (colX x1)) (ix2 r p)).toNat < 200 := by rw [nix1]; omega
  have hd : (k0_pay13 (k0_pay8 (colY x1)) (FloatOps.ofBits .f32 1092616192#32) (ix2 r p)).toNat < 200 := by rw [niy1]; omega
  rw [pay5_entry, colX_apply, colY_apply, pay21_entry,
    pay19_entry _ _ _ _ x0 r p ha hb hc, pay20_entry _ _ _ _ x0 r p ha hc hd,
    cell_eq x0 r ⟨_, ha⟩ ⟨_, hb⟩ _ _ nix niy, cell_eq x0 r ⟨_, hc⟩ ⟨_, hb⟩ _ _ nix1 niy,
    cell_eq x0 r ⟨_, ha⟩ ⟨_, hd⟩ _ _ nix niy1, cell_eq x0 r ⟨_, hc⟩ ⟨_, hd⟩ _ _ nix1 niy1,
    dx_entry, dy_entry]
  rfl

end Cert.KernelIdeal.Chunk

end
-- ==== Proof.LibTileSum.lean ====
/-
  Sums taken tile by tile.

  A sum over the first `a * b` naturals is the sum, over `a` consecutive tiles of length `b`, of each tile's
  own sum: `∑ k < a·b, f k = ∑ s < a, ∑ j < b, f (b·s + j)`. Only associativity of `+` is used, so the law
  holds in any additive commutative monoid — in particular on the extended reals, where no finiteness is needed.
  The `Fin` form states the same for a sum over `Fin (a * b)` against a sum over `Fin a × Fin b` spelled as
  an iterated sum, which is how a contraction over a long axis meets the same contraction accumulated
  block by block.
-/
import Mathlib.Algebra.BigOperators.Group.Finset.Basic
import Mathlib.Algebra.BigOperators.Fin

namespace TileSum

open Finset

variable {β : Type*} [AddCommMonoid β]

/-- A sum over `range (a * b)` is the sum over the `a` tiles `[b·s, b·s + b)` of the tiles' sums. -/
theorem sum_range_mul (f : ℕ → β) (a b : ℕ) :
    ∑ k ∈ range (a * b), f k = ∑ s ∈ range a, ∑ j ∈ range b, f (b * s + j) := by
  induction a with
  | zero => simp
  | succ a ih =>
    rw [Nat.succ_mul, sum_range_add, ih, sum_range_succ, Nat.mul_comm a b]

/-- The same with the long sum over `Fin (a * b)` and the tiles over `Fin a` and `Fin b`: `g` is any
    function of the natural index that the two sides agree to read. -/
theorem sum_fin_mul (g : ℕ → β) (a b : ℕ) :
    ∑ k : Fin (a * b), g k.val = ∑ s : Fin a, ∑ j : Fin b, g (b * s.val + j.val) := by
  rw [Fin.sum_univ_eq_sum_range (fun k => g k) (a * b), sum_range_mul g a b,
    ← Fin.sum_univ_eq_sum_range (fun s => ∑ j ∈ range b, g (b * s + j)) a]
  refine Finset.sum_congr rfl fun s _ => ?_
  exact (Fin.sum_univ_eq_sum_range (fun j => g (b * s.val + j)) b).symm

/-- The tiles' sum written over `range a` (as a fold over grid points unrolls it) against the long sum over
    `Fin (a * b)`. -/
theorem sum_range_tiles_eq_sum_fin (g : ℕ → β) (a b : ℕ) :
    ∑ s ∈ range a, ∑ j : Fin b, g (b * s + j.val) = ∑ k : Fin (a * b), g k.val := by
  rw [Fin.sum_univ_eq_sum_range (fun k => g k) (a * b), sum_range_mul g a b]
  refine Finset.sum_congr rfl fun s _ => ?_
  exact Fin.sum_univ_eq_sum_range (fun j => g (b * s + j)) b

end TileSum
-- ==== Proof.KernelAccum.lean ====
import proofs.«116232_j80032420594331_1_alg».proof.Proof.KernelChunkValue
import proofs.«116232_j80032420594331_1_alg».proof.Proof.LibTileSum
import Idealize.ShloMosaic.Lib.Pipeline.Value
import Idealize.ShloMosaic.Lib.ValueIdx

/-!
# The accumulator over a batch group's sixteen chunks, and the result array

Grid point `t = 16·g + l` works on batches `8g … 8g+7` and on points `512·l … 512·l+511` of each. Its two input
blocks are those rows of the argument arrays, so by the per-point value its accumulator row `r` grows by the penalties
of batch `8g + r`'s points of chunk `l`. By induction on the point the accumulator after point `t` is the sum of
chunks `0 … l`; the last chunk copies it to the output block, so row `b` of the result array is the sum of batch
`b`'s 8192 penalties: a sum of sixteen tiles of 512 consecutive terms.
-/

set_option maxRecDepth 16384

noncomputable section

namespace Cert.KernelIdeal.Accum

open Cert.KernelIdeal Cert.KernelIdeal.Gen Cert.KernelIdeal.Chunk
open Idealize.ShloMosaic Idealize.ShloMosaic.TcCoe Idealize.SL.Sem Idealize.ShloMosaic.ValueIdx
open Idealize.ShloMosaic.Pipeline (Dat)
open Finset

variable (m : (ℓ : Loc nD τ sig) → Buf (Elt Ideal) ℓ) (ρ : Dev nD → PrngReg)

/-- The two arrays as the region finds them, and a point's two input blocks, at their literal types. -/
abbrev pts (c : Dev nD) : Vec Ideal S512x8192x2 .f32 := V m c main_arg0
abbrev grids (c : Dev nD) : Vec Ideal S512x200x200 .f32 := V m c main_v0
abbrev gblk (c : Dev nD) (t : Fin cfg0.N) : Vec Ideal S8x200x200 .f32 := iblk m c 0 t
abbrev pblk (c : Dev nD) (t : Fin cfg0.N) : Vec Ideal S8x512x2 .f32 := iblk m c 1 t

theorem lt_N (t : Fin cfg0.N) : t.val < 1024 := lt_of_lt_of_eq t.isLt (show cfg0.N = 1024 from N_0)

/-- The block indices at point `t`: the grid block follows the batch group, the point block the group and the chunk. -/
theorem index_grid : ∀ t : Fin cfg0.N, win0_0.index t 0 = t.val / 16 ∧ win0_0.index t 1 = 0 ∧ win0_0.index t 2 = 0 :=
  (by decide +kernel : ∀ t : Fin grid0.N, win0_0.index t 0 = t.val / 16 ∧ win0_0.index t 1 = 0 ∧ win0_0.index t 2 = 0)
theorem index_pts : ∀ t : Fin cfg0.N, win0_1.index t 0 = t.val / 16 ∧ win0_1.index t 1 = t.val % 16 ∧ win0_1.index t 2 = 0 :=
  (by decide +kernel : ∀ t : Fin grid0.N, win0_1.index t 0 = t.val / 16 ∧ win0_1.index t 1 = t.val % 16 ∧ win0_1.index t 2 = 0)
theorem index_out : ∀ t : Fin cfg0.N, win0_2.index t 0 = t.val / 16 ∧ win0_2.index t 1 = 0 :=
  (by decide +kernel : ∀ t : Fin grid0.N, win0_2.index t 0 = t.val / 16 ∧ win0_2.index t 1 = 0)

/-- An entry of the point block is the array's entry of batch `8g + r`, point `512l + j`. -/
theorem pblk_apply (c : Dev nD) (t : Fin cfg0.N) (r : Fin 8) (j : Fin 512) (k : Fin 2) (b : Fin 512) (n : Fin 8192)
    (hb : b.val = 8 * (t.val / 16) + r.val) (hn : n.val = 512 * (t.val % 16) + j.val) :
    pblk m c t (ix3 r j k) = pts m c (ix3 b n k) := by
  obtain ⟨h0, h1, h2⟩ := index_pts t
  show iblk m c 1 t (ix3 r j k) = _
  unfold iblk
  rw [View.read_apply]
  show V m c main_arg0 _ = V m c main_arg0 _
  congr 1
  funext a
  apply Fin.ext
  match a with
  | ⟨0, _⟩ => show win0_1.index t 0 * 8 + 1 * r.val = b.val; rw [h0, hb]; omega
  | ⟨1, _⟩ => show win0_1.index t 1 * 512 + 1 * j.val = n.val; rw [h1, hn]; omega
  | ⟨2, _⟩ => show win0_1.index t 2 * 2 + 1 * k.val = k.val; rw [h2]; omega

/-- An entry of the grid block is the array's entry of batch `8g + r`. -/
theorem gblk_apply (c : Dev nD) (t : Fin cfg0.N) (r : Fin 8) (p q : Fin 200) (b : Fin 512)
    (hb : b.val = 8 * (t.val / 16) + r.val) :
    gblk m c t (ix3 r p q) = grids m c (ix3 b p q) := by
  obtain ⟨h0, h1, h2⟩ := index_grid t
  show iblk m c 0 t (ix3 r p q) = _
  unfold iblk
  rw [View.read_apply]
  show V m c main_v0 _ = V m c main_v0 _
  congr 1
  funext a
  apply Fin.ext
  match a with
  | ⟨0, _⟩ => show win0_0.index t 0 * 8 + 1 * r.val = b.val; rw [h0, hb]; omega
  | ⟨1, _⟩ => show win0_0.index t 1 * 200 + 1 * p.val = p.val; rw [h1]; omega
  | ⟨2, _⟩ => show win0_0.index t 2 * 200 + 1 * q.val = q.val; rw [h2]; omega

/-- The penalty of point number `nn` of batch number `bn` of the two arrays (zero past their ends: never read). -/
def penAt (c : Dev nD) (bn nn : ℕ) : EReal :=
  if h : bn < 512 ∧ nn < 8192 then Cert.PointSpec.pointPenalty (pts m c) (grids m c) ⟨bn, h.1⟩ ⟨nn, h.2⟩ else 0

/-- What point `t` adds to row `r` of the accumulator: the penalties of batch `8g + r`'s points of chunk `l`. -/
theorem chunk_eq (c : Dev nD) (t : Fin cfg0.N) (r : Fin 8) (acc : Vec Ideal S8x1 .f32) :
    stored (F := Ideal) (gblk m c t) (pblk m c t) acc (ix2 r 0)
      = acc (ix2 r 0) + ∑ j : Fin 512, penAt m c (8 * (t.val / 16) + r.val) (512 * (t.val % 16) + j.val) := by
  have hN := lt_N t
  refine (stored_apply (gblk m c t) (pblk m c t) acc r).trans ?_
  congr 1
  refine Finset.sum_congr rfl fun j _ => ?_
  have hb : 8 * (t.val / 16) + r.val < 512 := by omega
  have hn : 512 * (t.val % 16) + j.val < 8192 := by omega
  unfold penAt
  rw [dif_pos ⟨hb, hn⟩]
  unfold Cert.PointSpec.pointPenalty
  rw [pblk_apply m c t r j 0 ⟨_, hb⟩ ⟨_, hn⟩ rfl rfl, pblk_apply m c t r j 1 ⟨_, hb⟩ ⟨_, hn⟩ rfl rfl]
  have hcell : (Cert.PointSpec.cell (gblk m c t) r : ℕ → ℕ → EReal)
      = Cert.PointSpec.cell (grids m c) (⟨8 * (t.val / 16) + r.val, hb⟩ : Fin 512) := by
    funext p q
    unfold Cert.PointSpec.cell
    split
    · rename_i h; exact gblk_apply m c t r ⟨p, h.1⟩ ⟨q, h.2⟩ ⟨_, hb⟩ rfl
    · rfl
  rw [hcell]

/-- Row `r` of the accumulator after point `n`: zero plus the chunks `0 … n % 16` of batch `8·(n / 16) + r`. -/
def accAfter (c : Dev nD) (n : ℕ) (r : Fin 8) : EReal :=
  Cert.PointSpec.cZero + ∑ l ∈ range (n % 16 + 1), ∑ j : Fin 512, penAt m c (8 * (n / 16) + r.val) (512 * l + j.val)

/-- The accumulator after every point, by induction on the point: a group's first chunk starts from zero, every
    other adds to what the point before left. -/
theorem scratch_eq (c : Dev nD) : ∀ (n : ℕ) (hn : n < cfg0.N) (r : Fin 8), (outsAt0 m c n hn).2 (ix2 r 0) = accAfter m c n r := by
  intro n
  induction n with
  | zero =>
    intro hn r
    have h0 : (⟨0, hn⟩ : Fin cfg0.N).val % 16 = 0 := rfl
    have h1 : ¬(⟨0, hn⟩ : Fin cfg0.N).val % 16 = 15 := by show ¬(0 % 16 = 15); decide
    rw [outsAt0_A m c ⟨0, hn⟩ h0 h1]
    dsimp only
    let t : Fin cfg0.N := ⟨0, hn⟩
    refine (congrFun (scratch_A (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) (ix2 r 0)).trans ?_
    refine (chunk_eq m c t r (k0_pay2 (F := Ideal))).trans ?_
    rw [zeros_apply]
    unfold accAfter
    simp only [t, Nat.zero_mod, Nat.zero_div, zero_add, Finset.range_one, Finset.sum_singleton]
  | succ k ih =>
    intro hn r
    have hN : k + 1 < 1024 := lt_of_lt_of_eq hn (show cfg0.N = 1024 from N_0)
    let t : Fin cfg0.N := ⟨k + 1, hn⟩
    by_cases h0 : (k + 1) % 16 = 0
    · have h1 : ¬(k + 1) % 16 = 15 := by omega
      rw [outsAt0_A m c t h0 h1]
      dsimp only
      refine (congrFun (scratch_A (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) (ix2 r 0)).trans ?_
      refine (chunk_eq m c t r (k0_pay2 (F := Ideal))).trans ?_
      rw [zeros_apply]
      unfold accAfter
      show _ + ∑ j : Fin 512, penAt m c (8 * ((k + 1) / 16) + r.val) (512 * ((k + 1) % 16) + j.val) = _
      rw [h0]
      simp only [zero_add, Finset.range_one, Finset.sum_singleton]
    · have hprev := ih (Nat.lt_of_succ_lt hn) r
      have hdiv : k / 16 = (k + 1) / 16 := by omega
      have hmod : k % 16 + 1 = (k + 1) % 16 := by omega
      by_cases h1 : (k + 1) % 16 = 15
      · rw [outsAt0_C m c t h0 h1]
        dsimp only
        refine (congrFun (scratch_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) (ix2 r 0)).trans ?_
        refine (chunk_eq m c t r _).trans ?_
        show (outsAt0 m c k _).2 (ix2 r 0) + ∑ j : Fin 512, penAt m c (8 * ((k + 1) / 16) + r.val) (512 * ((k + 1) % 16) + j.val) = _
        rw [hprev]
        unfold accAfter
        rw [hdiv, ← hmod, Finset.sum_range_succ (n := k % 16 + 1), add_assoc]
      · rw [outsAt0_B m c t h0 h1]
        dsimp only
        refine (congrFun (scratch_B (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) (ix2 r 0)).trans ?_
        refine (chunk_eq m c t r _).trans ?_
        show (outsAt0 m c k _).2 (ix2 r 0) + ∑ j : Fin 512, penAt m c (8 * ((k + 1) / 16) + r.val) (512 * ((k + 1) % 16) + j.val) = _
        rw [hprev]
        unfold accAfter
        rw [hdiv, ← hmod, Finset.sum_range_succ (n := k % 16 + 1), add_assoc]

/-- At a group's last chunk the output block is given the accumulator's value. -/
theorem output_eq_scratch (c : Dev nD) (t : Fin cfg0.N) (h1 : t.val % 16 = 15) :
    (outsAt0 m c t.val t.isLt).1 = (outsAt0 m c t.val t.isLt).2 := by
  have h0 : ¬t.val % 16 = 0 := by omega
  rw [outsAt0_C m c t h0 h1]
  dsimp only
  exact (output_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2).trans
    (scratch_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2).symm

/-- Sixteen chunks of 512 points are a batch's 8192 points: the tiles' sum is the batch's sum. -/
theorem tiles_eq_row (c : Dev nD) (b : Fin 512) :
    ∑ l ∈ range 16, ∑ j : Fin 512, penAt m c b.val (512 * l + j.val)
      = Cert.PointSpec.rowPenalty (pts m c) (grids m c) b := by
  rw [TileSum.sum_range_tiles_eq_sum_fin (fun k => penAt m c b.val k) 16 512,
    Fin.sum_univ_eq_sum_range (fun k => penAt m c b.val k) (16 * 512)]
  unfold Cert.PointSpec.rowPenalty
  rw [show (16 * 512 : ℕ) = 8192 from rfl, ← Fin.sum_univ_eq_sum_range (fun k => penAt m c b.val k) 8192]
  refine Finset.sum_congr rfl fun n _ => ?_
  unfold penAt
  rw [dif_pos ⟨b.isLt, n.isLt⟩]

/-- The result array: row `b` is zero plus the sum of batch `b`'s penalties. -/
def outArr (c : Dev nD) : Vec Ideal S512x1 .f32 :=
  fun i => Cert.PointSpec.cZero + Cert.PointSpec.rowPenalty (pts m c) (grids m c) (i 0)

/-- What a group's last chunk writes back is the group's eight rows of the result array. -/
theorem flushed_eq (c : Dev nD) (t : Fin cfg0.N) (hf : (cfg0.win 2).flush t = true) :
    (dats m 0 c).flushed 2 t = ((cfg0.win 2).blk t).view.read (Elt Ideal) (outArr m c) := by
  have hN := lt_N t
  have h1 := (flush0_2 t).mp hf
  obtain ⟨i0, i1⟩ := index_out t
  show (cfg0.win 2).cut (grid0.coords t) ((dats m 0 c).after 2 t) = _
  rw [after0_2, output_eq_scratch m c t h1]
  funext y
  obtain ⟨r, z, rfl⟩ : ∃ (r : Fin 8) (z : Fin 1), y = ix2 r z := ⟨y 0, y 1, eq_ix2 y⟩
  obtain rfl : z = 0 := Subsingleton.elim _ _
  rw [View.read_apply]
  show (outsAt0 m c t.val t.isLt).2 (ix2 r 0) = _
  rw [scratch_eq m c t.val t.isLt r]
  unfold accAfter
  have hb : 8 * (t.val / 16) + r.val < 512 := by omega
  rw [h1, tiles_eq_row m c ⟨8 * (t.val / 16) + r.val, hb⟩]
  unfold outArr
  congr 2
  apply Fin.ext
  show 8 * (t.val / 16) + r.val = win0_2.index t 0 * 8 + 1 * r.val
  rw [i0]; omega

/-- Every row of the result array is in the block of its group's last chunk. -/
theorem covered (c : Dev nD) (i : ((cfg0.win 2).arr.view.loc (c.tc : Thread nD τ)).2.ty.Idx) :
    ∃ t : Fin cfg0.N, (cfg0.win 2).flush t = true ∧ i ∈ ((cfg0.win 2).blk t).view.set := by
  have hi0 : (i 0 : Nat) < 512 := (i 0).isLt
  have hi1 : (i 1 : Nat) < 1 := (i 1).isLt
  have hN : cfg0.N = 1024 := N_0
  have ht : 16 * ((i 0 : Nat) / 8) + 15 < cfg0.N := by rw [hN]; omega
  refine ⟨⟨16 * ((i 0 : Nat) / 8) + 15, ht⟩, (flush0_2 _).mpr (by show (16 * ((i 0 : Nat) / 8) + 15) % 16 = 15; omega), ?_⟩
  obtain ⟨i0, i1⟩ := index_out ⟨16 * ((i 0 : Nat) / 8) + 15, ht⟩
  show i ∈ ((View.whole main_v1).slice (win0_2.rect ⟨16 * ((i 0 : Nat) / 8) + 15, ht⟩)).set
  rw [View.set_slice_whole, Rect.mem_set_unit]
  intro a
  match a with
  | ⟨0, _⟩ =>
    show win0_2.index ⟨16 * ((i 0 : Nat) / 8) + 15, ht⟩ 0 * 8 ≤ (i 0 : Nat) ∧ (i 0 : Nat) < win0_2.index ⟨16 * ((i 0 : Nat) / 8) + 15, ht⟩ 0 * 8 + 8
    rw [i0]; show (16 * ((i 0 : Nat) / 8) + 15) / 16 * 8 ≤ (i 0 : Nat) ∧ (i 0 : Nat) < (16 * ((i 0 : Nat) / 8) + 15) / 16 * 8 + 8; omega
  | ⟨1, _⟩ =>
    show win0_2.index ⟨16 * ((i 0 : Nat) / 8) + 15, ht⟩ 1 * 1 ≤ (i 1 : Nat) ∧ (i 1 : Nat) < win0_2.index ⟨16 * ((i 0 : Nat) / 8) + 15, ht⟩ 1 * 1 + 1
    rw [i1]; omega

/-- So the result array ends holding, in row `b`, zero plus the sum of batch `b`'s penalties. -/
theorem final_out (c : Dev nD) : (dats m 0 c).arrAt 2 cfg0.N = outArr m c :=
  (dats m 0 c).arrAt_eq_of_cover 2 (outArr m c) (flushed_eq m c) (covered c)

end Cert.KernelIdeal.Accum

end
-- ==== Proof.KernelTail.lean ====
import proofs.«116232_j80032420594331_1_alg».proof.Proof.KernelAccum
import Idealize.ShloMosaic.Lib.StableHlo.Run
import Idealize.ShloMosaic.PureOps.Ideal.Laws
import Idealize.ShloMosaic.Lib.Pipeline.Value

/-!
# The kernel's result

After the region the host sums the result array's 512 rows from zero and divides by the number of points. Row `b`
is zero plus the sum of batch `b`'s penalties and the zero word is the real zero, so the sum of the rows is the sum
over all `512 · 8192` points, and the result is the mean penalty of the two arguments (the grids the region reads
being the argument's with its unit axis dropped, by the host's reshape before the region).
-/

set_option maxRecDepth 16384

noncomputable section

namespace Cert.KernelIdeal.Tail

open Cert.KernelIdeal Cert.KernelIdeal.Gen Cert.KernelIdeal.Accum
open Idealize.ShloMosaic Idealize.ShloMosaic.TcCoe Idealize.SL.Sem Idealize.ShloMosaic.ValueIdx Idealize.ShloMosaic.StableHlo
open Finset

variable (m : (ℓ : Loc nD τ sig) → Buf (Elt Ideal) ℓ) (ρ : Dev nD → PrngReg)

/-- The grids the region finds are the argument's, its unit axis dropped. -/
theorem grids_eq (c : Dev nD) : grids m c = Cert.PointSpec.grid3 (m ((c : Thread nD τ).loc main_arg1)) := by
  have e : (V m c main_v0 : S512x200x200.Idx → EReal)
      = shapeCast S512x200x200 (m ((c : Thread nD τ).loc main_arg1)) shapeCasts_S512x1x200x200_S512x200x200 := by
    show StableHlo.after hostOps0 (fun b => m (c, b)) (Proc.devRef .tc main_v0) = _
    after_results
    rfl
  funext j
  show V m c main_v0 j = _
  rw [e]
  obtain ⟨b, p, q, rfl⟩ : ∃ (b : Fin 512) (p q : Fin 200), j = ix3 b p q := ⟨j 0, j 1, j 2, eq_ix3 j⟩
  refine (shapeCast_apply _ _ (ix3 b p q) (ix4 b 0 p q) ?_).trans rfl
  rw [Shape.rowMajor_val_four, Shape.rowMajor_val_three]
  show ((b.val * 1 + 0) * 200 + p.val) * 200 + q.val = (b.val * 200 + p.val) * 200 + q.val
  omega

/-- The points the region finds are the argument. -/
theorem pts_eq (c : Dev nD) : pts m c = m ((c : Thread nD τ).loc main_arg0) := V_main_arg0 m c

/-- The value the host's tail leaves in the result buffer. -/
theorem result_value (c : Dev nD) :
    Pipeline.afterTail₀ cfgs (dats m) 0 (V0 m) [hostOps1] c main_v3
      = fun _ => Cert.PointSpec.mean (m ((c : Thread nD τ).loc main_arg0)) (m ((c : Thread nD τ).loc main_arg1)) := by
  unfold Pipeline.afterTail₀
  show StableHlo.after hostOps1 _ (Proc.devRef .tc main_v3) = _
  after_results
  rw [show Pipeline.withArrays (cfgs 0).spec c (V0 m c) (fun w => (dats m 0 c).arrAt w (cfgs 0).N) (Proc.devRef .tc main_v1)
      = (dats m 0 c).arrAt 2 cfg0.N from Pipeline.withArrays_arr spec0 launch0.win.arr_inj c _ _ 2, final_out]
  funext i
  have hsum : (Host.reduceAdd (F := Ideal) (outArr m c) (constant S_ .f32 0#32) reducesTo_S512x1_S_d0_1 h_S_) i
      = Cert.PointSpec.cZero + ∑ j : S512x1.Idx, outArr m c j := by
    simp only [Host.reduceAdd, Ideal.hostReduceAdd_def]
    exact Ideal.hostReduceAdd_total reducesTo_S512x1_S_d0_1 (fun b => b.elim0) (outArr m c) _ i
  show Ideal.div ((Host.reduceAdd (F := Ideal) (outArr m c) (constant S_ .f32 0#32) reducesTo_S512x1_S_d0_1 h_S_) i) Cert.PointSpec.cCount = _
  rw [hsum]
  unfold Cert.PointSpec.mean Cert.PointSpec.total
  refine congrArg (fun z => Ideal.div (Cert.PointSpec.cZero + z) Cert.PointSpec.cCount) ?_
  rw [sum_idx2, sum_idx2]
  refine Finset.sum_congr rfl fun b _ => ?_
  rw [Fin.sum_univ_one]
  show Cert.PointSpec.cZero + Cert.PointSpec.rowPenalty (pts m c) (grids m c) b = _
  rw [show Cert.PointSpec.cZero = 0 from Ideal.ofBits_zero_f32, zero_add, pts_eq, grids_eq]
  rfl

/-- The kernel's run, read: the result buffer at the mean penalty of the two arguments, the arguments unchanged. -/
theorem run : θ_run defs (onTc (τ := τ) (main (F := Ideal))) ⟨m, fun _ => 0, ρ⟩ (fun r => ∀ c : Dev nD,
      r.2.mem ((c.tc : Thread nD τ).loc main_v3)
        = (fun _ => Cert.PointSpec.mean (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).2 main_v3 (Pipeline.mem_restRefs_of main_v3 (by decide) (by decide))).trans (result_value m c),
       ((h c).1 1).trans (((dats m 0 c).arrAt_in 1 rfl _).trans ((A_eq m c 1).trans (V_main_arg0 m c))),
       ((h c).2 main_arg1 (Pipeline.mem_restRefs_of main_arg1 (by decide) (by decide))).trans (W_main_arg1 m (dats m) c)⟩)
    (run_main m ρ)

end Cert.KernelIdeal.Tail

end
-- ==== Proof.RefRun.lean ====
import proofs.«116232_j80032420594331_1_alg».proof.Proof.RefOps
import proofs.«116232_j80032420594331_1_alg».proof.Proof.RefStages

/-!
# The reference's run

Every weakly fair execution of the reference's @main — a straight line of 209 host operations — terminates with
the result buffer at the last stage's value of the two arguments, and the arguments unchanged. The buffer contents
after the whole line are computed a stretch of operations at a time: after each stretch every buffer a later
operation reads holds its stage's value of the arguments, given that the buffers the stretch itself reads did.
-/

noncomputable section

namespace Cert.ReferenceIdeal.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The contents after two stretches run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ### The eleven stretches, and what each leaves in the buffers read after it -/

/-- Operations 0 to 41: the test whether a point lies outside the square (`main_v5`), the clipped coordinates, their cell
    words (`main_v14`) and their offsets inside the cell (`main_v24`). -/
def s0 : List (HloOp τ sig (Elt F)) :=
  [ nullary main_cst (constant S_ .f32 0xC11E6666#32),
    unary main_cst main_v0 (broadcastInDim S512x8192x2 ![] bcast_S_S512x8192x2 : (⟨S_, .f32⟩ : BufTy).Contents (Elt F) → (⟨S512x8192x2, .f32⟩ : BufTy).Contents (Elt F)),
    binary main_arg0 main_v0 main_v1 (cmpf .olt : (⟨S512x8192x2, .f32⟩ : BufTy).Contents (Elt F) → (⟨S512x8192x2, .f32⟩ : BufTy).Contents (Elt F) → (⟨S512x8192x2, .i1⟩ : BufTy).Contents (Elt F)),
    nullary main_cst_0 (constant S_ .f32 0x411E6666#32),
    unary main_cst_0 main_v2 (broadcastInDim S512x8192x2 ![] bcast_S_S512x8192x2 : (⟨S_, .f32⟩ : BufTy).Contents (Elt F) → (⟨S512x8192x2, .f32⟩ : BufTy).Contents (Elt F)),
    binary main_arg0 main_v2 main_v3 (cmpf .ogt : (⟨S512x8192x2, .f32⟩ : BufTy).Contents (Elt F) → (⟨S512x8192x2, .f32⟩ : BufTy).Contents (Elt F) → (⟨S512x8192x2, .i1⟩ : BufTy).Contents (Elt F)),
    binary main_v1 main_v3 main_v4 (ori : (⟨S512x8192x2, .i1⟩ : BufTy).Contents (Elt F) → (⟨S512x8192x2, .i1⟩ : BufTy).Contents (Elt F) → (⟨S512x8192x2, .i1⟩ : BufTy).Contents (Elt F)),
    nullary main_c (constantI S_ 1 0#1),
    binary main_v4 main_c main_v5 ((fun x v => Host.reduce IntOp.ori x v reducesTo_S512x8192x2_S512x8192_d2 h_S_) : (⟨S512x8192x2, .i1⟩ : BufTy).Contents (Elt F) → (⟨S_, .i1⟩ : BufTy).Contents (Elt F) → (⟨S512x8192, .i1⟩ : BufTy).Contents (Elt F)),
    nullary main_cst_1 (constant S_ .f32 0xC11E6666#32),
    nullary main_cst_2 (constant S_ .f32 0x411E6666#32),
    TRef.unary (TRef.of (T := ⟨S_, .f32⟩) main_cst_1) (TRef.of (T := ⟨S_, .f32⟩) main_call0_v0) id,
    TRef.unary (TRef.of (T := ⟨S_, .f32⟩) main_call0_v0) (TRef.of (T := ⟨S512x8192x2, .f32⟩) main_call0_v1) (broadcastInDim S512x8192x2 ![] bcast_S_S512x8192x2),
    TRef.binary (TRef.of (T := ⟨S512x8192x2, .f32⟩) main_call0_v1) (TRef.of (T := ⟨S512x8192x2, .f32⟩) main_arg0) (TRef.of (T := ⟨S512x8192x2, .f32⟩) main_call0_v2) maximumf,
    TRef.unary (TRef.of (T := ⟨S_, .f32⟩) main_cst_2) (TRef.of (T := ⟨S_, .f32⟩) main_call0_v3) id,
    TRef.unary (TRef.of (T := ⟨S_, .f32⟩) main_call0_v3) (TRef.of (T := ⟨S512x8192x2, .f32⟩) main_call0_v4) (broadcastInDim S512x8192x2 ![] bcast_S_S512x8192x2),
    TRef.binary (TRef.of (T := ⟨S512x8192x2, .f32⟩) main_call0_v4) (TRef.of (T := ⟨S512x8192x2, .f32⟩) main_call0_v2) (TRef.of (T := ⟨S512x8192x2, .f32⟩) main_v6) minimumf,
    nullary main_cst_3 (constant S_ .f32 0x3D4CCCCD#32),
    unary main_cst_3 main_v7 (broadcastInDim S512x8192x2 ![] bcast_S_S512x8192x2 : (⟨S_, .f32⟩ : BufTy).Contents (Elt F) → (⟨S512x8192x2, .f32⟩ : BufTy).Contents (Elt F)),
    binary main_v6 main_v7 main_v8 (subf : (⟨S512x8192x2, .f32⟩ : BufTy).Contents (Elt F) → (⟨S512x8192x2, .f32⟩ : BufTy).Contents (Elt F) → (⟨S512x8192x2, .f32⟩ : BufTy).Contents (Elt F)),
    nullary main_cst_4 (constant S_ .f32 0x41200000#32),
    unary main_cst_4 main_v9 (broadcastInDim S512x8192x2 ![] bcast_S_S512x8192x2 : (⟨S_, .f32⟩ : BufTy).Contents (Elt F) → (⟨S512x8192x2, .f32⟩ : BufTy).Contents (Elt F)),
    binary main_v8 main_v9 main_v10 (addf : (⟨S512x8192x2, .f32⟩ : BufTy).Contents (Elt F) → (⟨S512x8192x2, .f32⟩ : BufTy).Contents (Elt F) → (⟨S512x8192x2, .f32⟩ : BufTy).Contents (Elt F)),
    nullary main_cst_5 (constant S_ .f32 0x3DCCCCCD#32),
    unary main_cst_5 main_v11 (broadcastInDim S512x8192x2 ![] bcast_S_S512x8192x2 : (⟨S_, .f32⟩ : BufTy).Contents (Elt F) → (⟨S512x8192x2, .f32⟩ : BufTy).Contents (Elt F)),
    binary main_v10 main_v11 main_v12 (Host.divf : (⟨S512x8192x2, .f32⟩ : BufTy).Contents (Elt F) → (⟨S512x8192x2, .f32⟩ : BufTy).Contents (Elt F) → (⟨S512x8192x2, .f32⟩ : BufTy).Contents (Elt F)),
    unary main_v12 main_v13 (Host.floor : (⟨S512x8192x2, .f32⟩ : BufTy).Contents (Elt F) → (⟨S512x8192x2, .f32⟩ : BufTy).Contents (Elt F)),
    unary main_v13 main_v14 (fptosi 32 : (⟨S512x8192x2, .f32⟩ : BufTy).Contents (Elt F) → (⟨S512x8192x2, .i32⟩ : BufTy).Contents (Elt F)),
    unary main_v14 main_v15 (sitofp .f32 : (⟨S512x8192x2, .i32⟩ : BufTy).Contents (Elt F) → (⟨S512x8192x2, .f32⟩ : BufTy).Contents (Elt F)),
    nullary main_cst_6 (constant S_ .f32 0x3F000000#32),
    unary main_cst_6 main_v16 (broadcastInDim S512x8192x2 ![] bcast_S_S512x8192x2 : (⟨S_, .f32⟩ : BufTy).Contents (Elt F) → (⟨S512x8192x2, .f32⟩ : BufTy).Contents (Elt F)),
    binary main_v15 main_v16 main_v17 (addf : (⟨S512x8192x2, .f32⟩ : BufTy).Contents (Elt F) → (⟨S512x8192x2, .f32⟩ : BufTy).Contents (Elt F) → (⟨S512x8192x2, .f32⟩ : BufTy).Contents (Elt F)),
    nullary main_cst_7 (constant S_ .f32 0x3DCCCCCD#32),
    unary main_cst_7 main_v18 (broadcastInDim S512x8192x2 ![] bcast_S_S512x8192x2 : (⟨S_, .f32⟩ : BufTy).Contents (Elt F) → (⟨S512x8192x2, .f32⟩ : BufTy).Contents (Elt F)),
    binary main_v17 main_v18 main_v19 (mulf : (⟨S512x8192x2, .f32⟩ : BufTy).Contents (Elt F) → (⟨S512x8192x2, .f32⟩ : BufTy).Contents (Elt F) → (⟨S512x8192x2, .f32⟩ : BufTy).Contents (Elt F)),
    nullary main_cst_8 (constant S_ .f32 0x41200000#32),
    unary main_cst_8 main_v20 (broadcastInDim S512x8192x2 ![] bcast_S_S512x8192x2 : (⟨S_, .f32⟩ : BufTy).Contents (Elt F) → (⟨S512x8192x2, .f32⟩ : BufTy).Contents (Elt F)),
    binary main_v19 main_v20 main_v21 (subf : (⟨S512x8192x2, .f32⟩ : BufTy).Contents (Elt F) → (⟨S512x8192x2, .f32⟩ : BufTy).Contents (Elt F) → (⟨S512x8192x2, .f32⟩ : BufTy).Contents (Elt F)),
    binary main_v6 main_v21 main_v22 (subf : (⟨S512x8192x2, .f32⟩ : BufTy).Contents (Elt F) → (⟨S512x8192x2, .f32⟩ : BufTy).Contents (Elt F) → (⟨S512x8192x2, .f32⟩ : BufTy).Contents (Elt F)),
    nullary main_cst_9 (constant S_ .f32 0x3DCCCCCD#32),
    unary main_cst_9 main_v23 (broadcastInDim S512x8192x2 ![] bcast_S_S512x8192x2 : (⟨S_, .f32⟩ : BufTy).Contents (Elt F) → (⟨S512x8192x2, .f32⟩ : BufTy).Contents (Elt F)),
    binary main_v22 main_v23 main_v24 (Host.divf : (⟨S512x8192x2, .f32⟩ : BufTy).Contents (Elt F) → (⟨S512x8192x2, .f32⟩ : BufTy).Contents (Elt F) → (⟨S512x8192x2, .f32⟩ : BufTy).Contents (Elt F)) ]

set_option maxHeartbeats 4000000 in
/-- After stretch 0 each buffer a later operation reads holds its stage's value, given that the buffers the stretch reads
    held theirs: the buffers the stretch writes by computing the fold, the others because no operation of it writes them. -/
theorem after_s0 (x0 : (⟨S512x8192x2, .f32⟩ : BufTy).Contents (Elt F)) (x1 : (⟨S512x1x200x200, .f32⟩ : BufTy).Contents (Elt F)) (W : Valuation τ sig (Elt F))
    (h_arg0 : W (Proc.devRef .tc main_arg0) = x0)
    (h_arg1 : W (Proc.devRef .tc main_arg1) = x1) :
    after (s0 (F := F)) W (Proc.devRef .tc main_v14) = val_main_v14 (F := F) x0
    ∧ after (s0 (F := F)) W (Proc.devRef .tc main_v24) = val_main_v24 (F := F) x0
    ∧ after (s0 (F := F)) W (Proc.devRef .tc main_v5) = val_main_v5 (F := F) x0
    ∧ after (s0 (F := F)) W (Proc.devRef .tc main_arg1) = x1 := by
  refine ⟨?_, ?_, ?_, ?_⟩
  · unfold s0; after_results_simp
    try simp only [h_arg0, h_arg1]
    all_goals rfl
  · unfold s0; after_results_simp
    try simp only [h_arg0, h_arg1]
    all_goals rfl
  · unfold s0; after_results_simp
    try simp only [h_arg0, h_arg1]
    all_goals rfl
  · unfold s0; after_results_simp; exact h_arg1

/-- Operations 42 to 73: the grids without their unit axis (`main_v25`), the batch numbers (`main_v27`), the row and the
    column words (`main_v29`, `main_v31`), each wrapped where negative, and from them the three index columns of the
    corner `(row, column)` (`main_v48`, `main_v49`, `main_v50`). -/
def s1 : List (HloOp τ sig (Elt F)) :=
  [ reshape main_arg1 main_v25 rfl shapeCasts_S512x1x200x200_S512x200x200,
    nullary main_v26 (iotaInDim S512 32 0),
    unary main_v26 main_v27 (broadcastInDim S512x1 ![0] bcast_S512_S512x1_0 : (⟨S512, .i32⟩ : BufTy).Contents (Elt F) → (⟨S512x1, .i32⟩ : BufTy).Contents (Elt F)),
    unary main_v14 main_v28 ((extractStridedSlice S512x8192x1 ![0, 0, 0] · slices_S512x8192x2_S512x8192x1_0_0_0) : (⟨S512x8192x2, .i32⟩ : BufTy).Contents (Elt F) → (⟨S512x8192x1, .i32⟩ : BufTy).Contents (Elt F)),
    reshape main_v28 main_v29 rfl shapeCasts_S512x8192x1_S512x8192,
    unary main_v14 main_v30 ((extractStridedSlice S512x8192x1 ![0, 0, 1] · slices_S512x8192x2_S512x8192x1_0_0_1) : (⟨S512x8192x2, .i32⟩ : BufTy).Contents (Elt F) → (⟨S512x8192x1, .i32⟩ : BufTy).Contents (Elt F)),
    reshape main_v30 main_v31 rfl shapeCasts_S512x8192x1_S512x8192,
    nullary main_c_10 (constantI S_ 32 0#32),
    unary main_c_10 main_v32 (broadcastInDim S512x1 ![] bcast_S_S512x1 : (⟨S_, .i32⟩ : BufTy).Contents (Elt F) → (⟨S512x1, .i32⟩ : BufTy).Contents (Elt F)),
    binary main_v27 main_v32 main_v33 (cmpi .slt : (⟨S512x1, .i32⟩ : BufTy).Contents (Elt F) → (⟨S512x1, .i32⟩ : BufTy).Contents (Elt F) → (⟨S512x1, .i1⟩ : BufTy).Contents (Elt F)),
    nullary main_c_11 (constantI S_ 32 512#32),
    unary main_c_11 main_v34 (broadcastInDim S512x1 ![] bcast_S_S512x1 : (⟨S_, .i32⟩ : BufTy).Contents (Elt F) → (⟨S512x1, .i32⟩ : BufTy).Contents (Elt F)),
    binary main_v27 main_v34 main_v35 (addi : (⟨S512x1, .i32⟩ : BufTy).Contents (Elt F) → (⟨S512x1, .i32⟩ : BufTy).Contents (Elt F) → (⟨S512x1, .i32⟩ : BufTy).Contents (Elt F)),
    ternary main_v33 main_v35 main_v27 main_v36 (select : (⟨S512x1, .i1⟩ : BufTy).Contents (Elt F) → (⟨S512x1, .i32⟩ : BufTy).Contents (Elt F) → (⟨S512x1, .i32⟩ : BufTy).Contents (Elt F) → (⟨S512x1, .i32⟩ : BufTy).Contents (Elt F)),
    nullary main_c_12 (constantI S_ 32 0#32),
    unary main_c_12 main_v37 (broadcastInDim S512x8192 ![] bcast_S_S512x8192 : (⟨S_, .i32⟩ : BufTy).Contents (Elt F) → (⟨S512x8192, .i32⟩ : BufTy).Contents (Elt F)),
    binary main_v29 main_v37 main_v38 (cmpi .slt : (⟨S512x8192, .i32⟩ : BufTy).Contents (Elt F) → (⟨S512x8192, .i32⟩ : BufTy).Contents (Elt F) → (⟨S512x8192, .i1⟩ : BufTy).Contents (Elt F)),
    nullary main_c_13 (constantI S_ 32 200#32),
    unary main_c_13 main_v39 (broadcastInDim S512x8192 ![] bcast_S_S512x8192 : (⟨S_, .i32⟩ : BufTy).Contents (Elt F) → (⟨S512x8192, .i32⟩ : BufTy).Contents (Elt F)),
    binary main_v29 main_v39 main_v40 (addi : (⟨S512x8192, .i32⟩ : BufTy).Contents (Elt F) → (⟨S512x8192, .i32⟩ : BufTy).Contents (Elt F) → (⟨S512x8192, .i32⟩ : BufTy).Contents (Elt F)),
    ternary main_v38 main_v40 main_v29 main_v41 (select : (⟨S512x8192, .i1⟩ : BufTy).Contents (Elt F) → (⟨S512x8192, .i32⟩ : BufTy).Contents (Elt F) → (⟨S512x8192, .i32⟩ : BufTy).Contents (Elt F) → (⟨S512x8192, .i32⟩ : BufTy).Contents (Elt F)),
    nullary main_c_14 (constantI S_ 32 0#32),
    unary main_c_14 main_v42 (broadcastInDim S512x8192 ![] bcast_S_S512x8192 : (⟨S_, .i32⟩ : BufTy).Contents (Elt F) → (⟨S512x8192, .i32⟩ : BufTy).Contents (Elt F)),
    binary main_v31 main_v42 main_v43 (cmpi .slt : (⟨S512x8192, .i32⟩ : BufTy).Contents (Elt F) → (⟨S512x8192, .i32⟩ : BufTy).Contents (Elt F) → (⟨S512x8192, .i1⟩ : BufTy).Contents (Elt F)),
    nullary main_c_15 (constantI S_ 32 200#32),
    unary main_c_15 main_v44 (broadcastInDim S512x8192 ![] bcast_S_S512x8192 : (⟨S_, .i32⟩ : BufTy).Contents (Elt F) → (⟨S512x8192, .i32⟩ : BufTy).Contents (Elt F)),
    binary main_v31 main_v44 main_v45 (addi : (⟨S512x8192, .i32⟩ : BufTy).Contents (Elt F) → (⟨S512x8192, .i32⟩ : BufTy).Contents (Elt F) → (⟨S512x8192, .i32⟩ : BufTy).Contents (Elt F)),
    ternary main_v43 main_v45 main_v31 main_v46 (select : (⟨S512x8192, .i1⟩ : BufTy).Contents (Elt F) → (⟨S512x8192, .i32⟩ : BufTy).Contents (Elt F) → (⟨S512x8192, .i32⟩ : BufTy).Contents (Elt F) → (⟨S512x8192, .i32⟩ : BufTy).Contents (Elt F)),
    unary main_v36 main_v47 (broadcastInDim S512x8192 ![0, 1] bcast_S512x1_S512x8192_0_1 : (⟨S512x1, .i32⟩ : BufTy).Contents (Elt F) → (⟨S512x8192, .i32⟩ : BufTy).Contents (Elt F)),
    unary main_v47 main_v48 (broadcastInDim S512x8192x1 ![0, 1] bcast_S512x8192_S512x8192x1_0_1 : (⟨S512x8192, .i32⟩ : BufTy).Contents (Elt F) → (⟨S512x8192x1, .i32⟩ : BufTy).Contents (Elt F)),
    unary main_v41 main_v49 (broadcastInDim S512x8192x1 ![0, 1] bcast_S512x8192_S512x8192x1_0_1 : (⟨S512x8192, .i32⟩ : BufTy).Contents (Elt F) → (⟨S512x8192x1, .i32⟩ : BufTy).Contents (Elt F)),
    unary main_v46 main_v50 (broadcastInDim S512x8192x1 ![0, 1] bcast_S512x8192_S512x8192x1_0_1 : (⟨S512x8192, .i32⟩ : BufTy).Contents (Elt F) → (⟨S512x8192x1, .i32⟩ : BufTy).Contents (Elt F)) ]

set_option maxHeartbeats 4000000 in
/-- After stretch 1 each buffer a later operation reads holds its stage's value, given that the buffers the stretch reads
    held theirs: the buffers the stretch writes by computing the fold, the others because no operation of it writes them. -/
theorem after_s1 (x0 : (⟨S512x8192x2, .f32⟩ : BufTy).Contents (Elt F)) (x1 : (⟨S512x1x200x200, .f32⟩ : BufTy).Contents (Elt F)) (W : Valuation τ sig (Elt F))
    (h_arg1 : W (Proc.devRef .tc main_arg1) = x1)
    (h_v14 : W (Proc.devRef .tc main_v14) = val_main_v14 (F := F) x0)
    (h_v24 : W (Proc.devRef .tc main_v24) = val_main_v24 (F := F) x0)
    (h_v5 : W (Proc.devRef .tc main_v5) = val_main_v5 (F := F) x0) :
    after (s1 (F := F)) W (Proc.devRef .tc main_v48) = val_main_v48 (F := F)
    ∧ after (s1 (F := F)) W (Proc.devRef .tc main_v49) = val_main_v49 (F := F) x0
    ∧ after (s1 (F := F)) W (Proc.devRef .tc main_v50) = val_main_v50 (F := F) x0
    ∧ after (s1 (F := F)) W (Proc.devRef .tc main_v25) = val_main_v25 (F := F) x1
    ∧ after (s1 (F := F)) W (Proc.devRef .tc main_v29) = val_main_v29 (F := F) x0
    ∧ after (s1 (F := F)) W (Proc.devRef .tc main_v27) = val_main_v27 (F := F)
    ∧ after (s1 (F := F)) W (Proc.devRef .tc main_v31) = val_main_v31 (F := F) x0
    ∧ after (s1 (F := F)) W (Proc.devRef .tc main_v24) = val_main_v24 (F := F) x0
    ∧ after (s1 (F := F)) W (Proc.devRef .tc main_v5) = val_main_v5 (F := F) x0 := by
  refine ⟨?_, ?_, ?_, ?_, ?_, ?_, ?_, ?_, ?_⟩
  · unfold s1; after_results_simp
    try simp only [h_arg1, h_v14, h_v24, h_v5]
    all_goals rfl
  · unfold s1; after_results_simp
    try simp only [h_arg1, h_v14, h_v24, h_v5]
    all_goals rfl
  · unfold s1; after_results_simp
    try simp only [h_arg1, h_v14, h_v24, h_v5]
    all_goals rfl
  · unfold s1; after_results_simp
    try simp only [h_arg1, h_v14, h_v24, h_v5]
    all_goals rfl
  · unfold s1; after_results_simp
    try simp only [h_arg1, h_v14, h_v24, h_v5]
    all_goals rfl
  · unfold s1; after_results_simp
    try simp only [h_arg1, h_v14, h_v24, h_v5]
    all_goals rfl
  · unfold s1; after_results_simp
    try simp only [h_arg1, h_v14, h_v24, h_v5]
    all_goals rfl
  · unfold s1; after_results_simp; exact h_v24
  · unfold s1; after_results_simp; exact h_v5

/-- Operations 74 and 75: the index triples of the corner `(row, column)` and the grid values there (`main_v52`). -/
def s2 : List (HloOp τ sig (Elt F)) :=
  [ nary ![main_v48, main_v49, main_v50] main_v51 (fun u => concatenate S512x8192x3 2 [⟨S512x8192x1, u 0⟩, ⟨S512x8192x1, u 1⟩, ⟨S512x8192x1, u 2⟩] concatenates_S512x8192x1_S512x8192x1_S512x8192x1_S512x8192x3_d2),
    binary main_v25 main_v51 main_v52 ((fun x i => Host.gather gather_S512x200x200_S512x8192x3_S512x8192_n_012_n_n_012_2_111 x i) : (⟨S512x200x200, .f32⟩ : BufTy).Contents (Elt F) → (⟨S512x8192x3, .i32⟩ : BufTy).Contents (Elt F) → (⟨S512x8192, .f32⟩ : BufTy).Contents (Elt F)) ]

set_option maxHeartbeats 4000000 in
/-- After stretch 2 the gathered values hold their stage's value and every buffer read later keeps its own, given that the
    buffers the stretch reads held theirs. The concatenate reads its three operands through the family `![a, b, c]`: each
    member is named before the contents are rewritten. -/
theorem after_s2 (x0 : (⟨S512x8192x2, .f32⟩ : BufTy).Contents (Elt F)) (x1 : (⟨S512x1x200x200, .f32⟩ : BufTy).Contents (Elt F)) (W : Valuation τ sig (Elt F))
    (h_v48 : W (Proc.devRef .tc main_v48) = val_main_v48 (F := F))
    (h_v49 : W (Proc.devRef .tc main_v49) = val_main_v49 (F := F) x0)
    (h_v50 : W (Proc.devRef .tc main_v50) = val_main_v50 (F := F) x0)
    (h_v25 : W (Proc.devRef .tc main_v25) = val_main_v25 (F := F) x1)
    (h_v29 : W (Proc.devRef .tc main_v29) = val_main_v29 (F := F) x0)
    (h_v27 : W (Proc.devRef .tc main_v27) = val_main_v27 (F := F))
    (h_v31 : W (Proc.devRef .tc main_v31) = val_main_v31 (F := F) x0)
    (h_v24 : W (Proc.devRef .tc main_v24) = val_main_v24 (F := F) x0)
    (h_v5 : W (Proc.devRef .tc main_v5) = val_main_v5 (F := F) x0) :
    after (s2 (F := F)) W (Proc.devRef .tc main_v29) = val_main_v29 (F := F) x0
    ∧ after (s2 (F := F)) W (Proc.devRef .tc main_v27) = val_main_v27 (F := F)
    ∧ after (s2 (F := F)) W (Proc.devRef .tc main_v31) = val_main_v31 (F := F) x0
    ∧ after (s2 (F := F)) W (Proc.devRef .tc main_v25) = val_main_v25 (F := F) x1
    ∧ after (s2 (F := F)) W (Proc.devRef .tc main_v24) = val_main_v24 (F := F) x0
    ∧ after (s2 (F := F)) W (Proc.devRef .tc main_v52) = val_main_v52 (F := F) x0 x1
    ∧ after (s2 (F := F)) W (Proc.devRef .tc main_v5) = val_main_v5 (F := F) x0 := by
  refine ⟨?_, ?_, ?_, ?_, ?_, ?_, ?_⟩
  · unfold s2; after_results_simp; exact h_v29
  · unfold s2; after_results_simp; exact h_v27
  · unfold s2; after_results_simp; exact h_v31
  · unfold s2; after_results_simp; exact h_v25
  · unfold s2; after_results_simp; exact h_v24
  · unfold s2; after_results_simp
    have e0 : W (Proc.devRef .tc ((![main_v48, main_v49, main_v50] : Fin 3 → Ref sig .tc) 0)) = val_main_v48 (F := F) := h_v48
    have e1 : W (Proc.devRef .tc ((![main_v48, main_v49, main_v50] : Fin 3 → Ref sig .tc) 1)) = val_main_v49 (F := F) x0 := h_v49
    have e2 : W (Proc.devRef .tc ((![main_v48, main_v49, main_v50] : Fin 3 → Ref sig .tc) 2)) = val_main_v50 (F := F) x0 := h_v50
    rw [e0, e1, e2, h_v25]
    rfl
  · unfold s2; after_results_simp; exact h_v5

/-- Operations 76 to 103: the three index columns of the corner `(row + 1, column)` (`main_v71`, `main_v72`, `main_v73`). -/
def s3 : List (HloOp τ sig (Elt F)) :=
  [ nullary main_c_16 (constantI S_ 32 1#32),
    unary main_c_16 main_v53 (broadcastInDim S512x8192 ![] bcast_S_S512x8192 : (⟨S_, .i32⟩ : BufTy).Contents (Elt F) → (⟨S512x8192, .i32⟩ : BufTy).Contents (Elt F)),
    binary main_v29 main_v53 main_v54 (addi : (⟨S512x8192, .i32⟩ : BufTy).Contents (Elt F) → (⟨S512x8192, .i32⟩ : BufTy).Contents (Elt F) → (⟨S512x8192, .i32⟩ : BufTy).Contents (Elt F)),
    nullary main_c_17 (constantI S_ 32 0#32),
    unary main_c_17 main_v55 (broadcastInDim S512x1 ![] bcast_S_S512x1 : (⟨S_, .i32⟩ : BufTy).Contents (Elt F) → (⟨S512x1, .i32⟩ : BufTy).Contents (Elt F)),
    binary main_v27 main_v55 main_v56 (cmpi .slt : (⟨S512x1, .i32⟩ : BufTy).Contents (Elt F) → (⟨S512x1, .i32⟩ : BufTy).Contents (Elt F) → (⟨S512x1, .i1⟩ : BufTy).Contents (Elt F)),
    nullary main_c_18 (constantI S_ 32 512#32),
    unary main_c_18 main_v57 (broadcastInDim S512x1 ![] bcast_S_S512x1 : (⟨S_, .i32⟩ : BufTy).Contents (Elt F) → (⟨S512x1, .i32⟩ : BufTy).Contents (Elt F)),
    binary main_v27 main_v57 main_v58 (addi : (⟨S512x1, .i32⟩ : BufTy).Contents (Elt F) → (⟨S512x1, .i32⟩ : BufTy).Contents (Elt F) → (⟨S512x1, .i32⟩ : BufTy).Contents (Elt F)),
    ternary main_v56 main_v58 main_v27 main_v59 (select : (⟨S512x1, .i1⟩ : BufTy).Contents (Elt F) → (⟨S512x1, .i32⟩ : BufTy).Contents (Elt F) → (⟨S512x1, .i32⟩ : BufTy).Contents (Elt F) → (⟨S512x1, .i32⟩ : BufTy).Contents (Elt F)),
    nullary main_c_19 (constantI S_ 32 0#32),
    unary main_c_19 main_v60 (broadcastInDim S512x8192 ![] bcast_S_S512x8192 : (⟨S_, .i32⟩ : BufTy).Contents (Elt F) → (⟨S512x8192, .i32⟩ : BufTy).Contents (Elt F)),
    binary main_v54 main_v60 main_v61 (cmpi .slt : (⟨S512x8192, .i32⟩ : BufTy).Contents (Elt F) → (⟨S512x8192, .i32⟩ : BufTy).Contents (Elt F) → (⟨S512x8192, .i1⟩ : BufTy).Contents (Elt F)),
    nullary main_c_20 (constantI S_ 32 200#32),
    unary main_c_20 main_v62 (broadcastInDim S512x8192 ![] bcast_S_S512x8192 : (⟨S_, .i32⟩ : BufTy).Contents (Elt F) → (⟨S512x8192, .i32⟩ : BufTy).Contents (Elt F)),
    binary main_v54 main_v62 main_v63 (addi : (⟨S512x8192, .i32⟩ : BufTy).Contents (Elt F) → (⟨S512x8192, .i32⟩ : BufTy).Contents (Elt F) → (⟨S512x8192, .i32⟩ : BufTy).Contents (Elt F)),
    ternary main_v61 main_v63 main_v54 main_v64 (select : (⟨S512x8192, .i1⟩ : BufTy).Contents (Elt F) → (⟨S512x8192, .i32⟩ : BufTy).Contents (Elt F) → (⟨S512x8192, .i32⟩ : BufTy).Contents (Elt F) → (⟨S512x8192, .i32⟩ : BufTy).Contents (Elt F)),
    nullary main_c_21 (constantI S_ 32 0#32),
    unary main_c_21 main_v65 (broadcastInDim S512x8192 ![] bcast_S_S512x8192 : (⟨S_, .i32⟩ : BufTy).Contents (Elt F) → (⟨S512x8192, .i32⟩ : BufTy).Contents (Elt F)),
    binary main_v31 main_v65 main_v66 (cmpi .slt : (⟨S512x8192, .i32⟩ : BufTy).Contents (Elt F) → (⟨S512x8192, .i32⟩ : BufTy).Contents (Elt F) → (⟨S512x8192, .i1⟩ : BufTy).Contents (Elt F)),
    nullary main_c_22 (constantI S_ 32 200#32),
    unary main_c_22 main_v67 (broadcastInDim S512x8192 ![] bcast_S_S512x8192 : (⟨S_, .i32⟩ : BufTy).Contents (Elt F) → (⟨S512x8192, .i32⟩ : BufTy).Contents (Elt F)),
    binary main_v31 main_v67 main_v68 (addi : (⟨S512x8192, .i32⟩ : BufTy).Contents (Elt F) → (⟨S512x8192, .i32⟩ : BufTy).Contents (Elt F) → (⟨S512x8192, .i32⟩ : BufTy).Contents (Elt F)),
    ternary main_v66 main_v68 main_v31 main_v69 (select : (⟨S512x8192, .i1⟩ : BufTy).Contents (Elt F) → (⟨S512x8192, .i32⟩ : BufTy).Contents (Elt F) → (⟨S512x8192, .i32⟩ : BufTy).Contents (Elt F) → (⟨S512x8192, .i32⟩ : BufTy).Contents (Elt F)),
    unary main_v59 main_v70 (broadcastInDim S512x8192 ![0, 1] bcast_S512x1_S512x8192_0_1 : (⟨S512x1, .i32⟩ : BufTy).Contents (Elt F) → (⟨S512x8192, .i32⟩ : BufTy).Contents (Elt F)),
    unary main_v70 main_v71 (broadcastInDim S512x8192x1 ![0, 1] bcast_S512x8192_S512x8192x1_0_1 : (⟨S512x8192, .i32⟩ : BufTy).Contents (Elt F) → (⟨S512x8192x1, .i32⟩ : BufTy).Contents (Elt F)),
    unary main_v64 main_v72 (broadcastInDim S512x8192x1 ![0, 1] bcast_S512x8192_S512x8192x1_0_1 : (⟨S512x8192, .i32⟩ : BufTy).Contents (Elt F) → (⟨S512x8192x1, .i32⟩ : BufTy).Contents (Elt F)),
    unary main_v69 main_v73 (broadcastInDim S512x8192x1 ![0, 1] bcast_S512x8192_S512x8192x1_0_1 : (⟨S512x8192, .i32⟩ : BufTy).Contents (Elt F) → (⟨S512x8192x1, .i32⟩ : BufTy).Contents (Elt F)) ]

set_option maxHeartbeats 4000000 in
/-- After stretch 3 each buffer a later operation reads holds its stage's value, given that the buffers the stretch reads
    held theirs: the buffers the stretch writes by computing the fold, the others because no operation of it writes them. -/
theorem after_s3 (x0 : (⟨S512x8192x2, .f32⟩ : BufTy).Contents (Elt F)) (x1 : (⟨S512x1x200x200, .f32⟩ : BufTy).Contents (Elt F)) (W : Valuation τ sig (Elt F))
    (h_v29 : W (Proc.devRef .tc main_v29) = val_main_v29 (F := F) x0)
    (h_v27 : W (Proc.devRef .tc main_v27) = val_main_v27 (F := F))
    (h_v31 : W (Proc.devRef .tc main_v31) = val_main_v31 (F := F) x0)
    (h_v25 : W (Proc.devRef .tc main_v25) = val_main_v25 (F := F) x1)
    (h_v24 : W (Proc.devRef .tc main_v24) = val_main_v24 (F := F) x0)
    (h_v52 : W (Proc.devRef .tc main_v52) = val_main_v52 (F := F) x0 x1)
    (h_v5 : W (Proc.devRef .tc main_v5) = val_main_v5 (F := F) x0) :
    after (s3 (F := F)) W (Proc.devRef .tc main_v71) = val_main_v71 (F := F)
    ∧ after (s3 (F := F)) W (Proc.devRef .tc main_v72) = val_main_v72 (F := F) x0
    ∧ after (s3 (F := F)) W (Proc.devRef .tc main_v73) = val_main_v73 (F := F) x0
    ∧ after (s3 (F := F)) W (Proc.devRef .tc main_v25) = val_main_v25 (F := F) x1
    ∧ after (s3 (F := F)) W (Proc.devRef .tc main_v31) = val_main_v31 (F := F) x0
    ∧ after (s3 (F := F)) W (Proc.devRef .tc main_v27) = val_main_v27 (F := F)
    ∧ after (s3 (F := F)) W (Proc.devRef .tc main_v29) = val_main_v29 (F := F) x0
    ∧ after (s3 (F := F)) W (Proc.devRef .tc main_v24) = val_main_v24 (F := F) x0
    ∧ after (s3 (F := F)) W (Proc.devRef .tc main_v52) = val_main_v52 (F := F) x0 x1
    ∧ after (s3 (F := F)) W (Proc.devRef .tc main_v5) = val_main_v5 (F := F) x0 := by
  refine ⟨?_, ?_, ?_, ?_, ?_, ?_, ?_, ?_, ?_, ?_⟩
  · unfold s3; after_results_simp
    try simp only [h_v29, h_v27, h_v31, h_v25, h_v24, h_v52, h_v5]
    all_goals rfl
  · unfold s3; after_results_simp
    try simp only [h_v29, h_v27, h_v31, h_v25, h_v24, h_v52, h_v5]
    all_goals rfl
  · unfold s3; after_results_simp
    try simp only [h_v29, h_v27, h_v31, h_v25, h_v24, h_v52, h_v5]
    all_goals rfl
  · unfold s3; after_results_simp; exact h_v25
  · unfold s3; after_results_simp; exact h_v31
  · unfold s3; after_results_simp; exact h_v27
  · unfold s3; after_results_simp; exact h_v29
  · unfold s3; after_results_simp; exact h_v24
  · unfold s3; after_results_simp; exact h_v52
  · unfold s3; after_results_simp; exact h_v5

/-- Operations 104 and 105: the index triples of the corner `(row + 1, column)` and the grid values there (`main_v75`). -/
def s4 : List (HloOp τ sig (Elt F)) :=
  [ nary ![main_v71, main_v72, main_v73] main_v74 (fun u => concatenate S512x8192x3 2 [⟨S512x8192x1, u 0⟩, ⟨S512x8192x1, u 1⟩, ⟨S512x8192x1, u 2⟩] concatenates_S512x8192x1_S512x8192x1_S512x8192x1_S512x8192x3_d2),
    binary main_v25 main_v74 main_v75 ((fun x i => Host.gather gather_S512x200x200_S512x8192x3_S512x8192_n_012_n_n_012_2_111 x i) : (⟨S512x200x200, .f32⟩ : BufTy).Contents (Elt F) → (⟨S512x8192x3, .i32⟩ : BufTy).Contents (Elt F) → (⟨S512x8192, .f32⟩ : BufTy).Contents (Elt F)) ]

set_option maxHeartbeats 4000000 in
/-- After stretch 4 the gathered values hold their stage's value and every buffer read later keeps its own, given that the
    buffers the stretch reads held theirs. The concatenate reads its three operands through the family `![a, b, c]`: each
    member is named before the contents are rewritten. -/
theorem after_s4 (x0 : (⟨S512x8192x2, .f32⟩ : BufTy).Contents (Elt F)) (x1 : (⟨S512x1x200x200, .f32⟩ : BufTy).Contents (Elt F)) (W : Valuation τ sig (Elt F))
    (h_v71 : W (Proc.devRef .tc main_v71) = val_main_v71 (F := F))
    (h_v72 : W (Proc.devRef .tc main_v72) = val_main_v72 (F := F) x0)
    (h_v73 : W (Proc.devRef .tc main_v73) = val_main_v73 (F := F) x0)
    (h_v25 : W (Proc.devRef .tc main_v25) = val_main_v25 (F := F) x1)
    (h_v31 : W (Proc.devRef .tc main_v31) = val_main_v31 (F := F) x0)
    (h_v27 : W (Proc.devRef .tc main_v27) = val_main_v27 (F := F))
    (h_v29 : W (Proc.devRef .tc main_v29) = val_main_v29 (F := F) x0)
    (h_v24 : W (Proc.devRef .tc main_v24) = val_main_v24 (F := F) x0)
    (h_v52 : W (Proc.devRef .tc main_v52) = val_main_v52 (F := F) x0 x1)
    (h_v5 : W (Proc.devRef .tc main_v5) = val_main_v5 (F := F) x0) :
    after (s4 (F := F)) W (Proc.devRef .tc main_v31) = val_main_v31 (F := F) x0
    ∧ after (s4 (F := F)) W (Proc.devRef .tc main_v27) = val_main_v27 (F := F)
    ∧ after (s4 (F := F)) W (Proc.devRef .tc main_v29) = val_main_v29 (F := F) x0
    ∧ after (s4 (F := F)) W (Proc.devRef .tc main_v25) = val_main_v25 (F := F) x1
    ∧ after (s4 (F := F)) W (Proc.devRef .tc main_v24) = val_main_v24 (F := F) x0
    ∧ after (s4 (F := F)) W (Proc.devRef .tc main_v52) = val_main_v52 (F := F) x0 x1
    ∧ after (s4 (F := F)) W (Proc.devRef .tc main_v75) = val_main_v75 (F := F) x0 x1
    ∧ after (s4 (F := F)) W (Proc.devRef .tc main_v5) = val_main_v5 (F := F) x0 := by
  refine ⟨?_, ?_, ?_, ?_, ?_, ?_, ?_, ?_⟩
  · unfold s4; after_results_simp; exact h_v31
  · unfold s4; after_results_simp; exact h_v27
  · unfold s4; after_results_simp; exact h_v29
  · unfold s4; after_results_simp; exact h_v25
  · unfold s4; after_results_simp; exact h_v24
  · unfold s4; after_results_simp; exact h_v52
  · unfold s4; after_results_simp
    have e0 : W (Proc.devRef .tc ((![main_v71, main_v72, main_v73] : Fin 3 → Ref sig .tc) 0)) = val_main_v71 (F := F) := h_v71
    have e1 : W (Proc.devRef .tc ((![main_v71, main_v72, main_v73] : Fin 3 → Ref sig .tc) 1)) = val_main_v72 (F := F) x0 := h_v72
    have e2 : W (Proc.devRef .tc ((![main_v71, main_v72, main_v73] : Fin 3 → Ref sig .tc) 2)) = val_main_v73 (F := F) x0 := h_v73
    rw [e0, e1, e2, h_v25]
    rfl
  · unfold s4; after_results_simp; exact h_v5

/-- Operations 106 to 133: the three index columns of the corner `(row, column + 1)` (`main_v94`, `main_v95`, `main_v96`). -/
def s5 : List (HloOp τ sig (Elt F)) :=
  [ nullary main_c_23 (constantI S_ 32 1#32),
    unary main_c_23 main_v76 (broadcastInDim S512x8192 ![] bcast_S_S512x8192 : (⟨S_, .i32⟩ : BufTy).Contents (Elt F) → (⟨S512x8192, .i32⟩ : BufTy).Contents (Elt F)),
    binary main_v31 main_v76 main_v77 (addi : (⟨S512x8192, .i32⟩ : BufTy).Contents (Elt F) → (⟨S512x8192, .i32⟩ : BufTy).Contents (Elt F) → (⟨S512x8192, .i32⟩ : BufTy).Contents (Elt F)),
    nullary main_c_24 (constantI S_ 32 0#32),
    unary main_c_24 main_v78 (broadcastInDim S512x1 ![] bcast_S_S512x1 : (⟨S_, .i32⟩ : BufTy).Contents (Elt F) → (⟨S512x1, .i32⟩ : BufTy).Contents (Elt F)),
    binary main_v27 main_v78 main_v79 (cmpi .slt : (⟨S512x1, .i32⟩ : BufTy).Contents (Elt F) → (⟨S512x1, .i32⟩ : BufTy).Contents (Elt F) → (⟨S512x1, .i1⟩ : BufTy).Contents (Elt F)),
    nullary main_c_25 (constantI S_ 32 512#32),
    unary main_c_25 main_v80 (broadcastInDim S512x1 ![] bcast_S_S512x1 : (⟨S_, .i32⟩ : BufTy).Contents (Elt F) → (⟨S512x1, .i32⟩ : BufTy).Contents (Elt F)),
    binary main_v27 main_v80 main_v81 (addi : (⟨S512x1, .i32⟩ : BufTy).Contents (Elt F) → (⟨S512x1, .i32⟩ : BufTy).Contents (Elt F) → (⟨S512x1, .i32⟩ : BufTy).Contents (Elt F)),
    ternary main_v79 main_v81 main_v27 main_v82 (select : (⟨S512x1, .i1⟩ : BufTy).Contents (Elt F) → (⟨S512x1, .i32⟩ : BufTy).Contents (Elt F) → (⟨S512x1, .i32⟩ : BufTy).Contents (Elt F) → (⟨S512x1, .i32⟩ : BufTy).Contents (Elt F)),
    nullary main_c_26 (constantI S_ 32 0#32),
    unary main_c_26 main_v83 (broadcastInDim S512x8192 ![] bcast_S_S512x8192 : (⟨S_, .i32⟩ : BufTy).Contents (Elt F) → (⟨S512x8192, .i32⟩ : BufTy).Contents (Elt F)),
    binary main_v29 main_v83 main_v84 (cmpi .slt : (⟨S512x8192, .i32⟩ : BufTy).Contents (Elt F) → (⟨S512x8192, .i32⟩ : BufTy).Contents (Elt F) → (⟨S512x8192, .i1⟩ : BufTy).Contents (Elt F)),
    nullary main_c_27 (constantI S_ 32 200#32),
    unary main_c_27 main_v85 (broadcastInDim S512x8192 ![] bcast_S_S512x8192 : (⟨S_, .i32⟩ : BufTy).Contents (Elt F) → (⟨S512x8192, .i32⟩ : BufTy).Contents (Elt F)),
    binary main_v29 main_v85 main_v86 (addi : (⟨S512x8192, .i32⟩ : BufTy).Contents (Elt F) → (⟨S512x8192, .i32⟩ : BufTy).Contents (Elt F) → (⟨S512x8192, .i32⟩ : BufTy).Contents (Elt F)),
    ternary main_v84 main_v86 main_v29 main_v87 (select : (⟨S512x8192, .i1⟩ : BufTy).Contents (Elt F) → (⟨S512x8192, .i32⟩ : BufTy).Contents (Elt F) → (⟨S512x8192, .i32⟩ : BufTy).Contents (Elt F) → (⟨S512x8192, .i32⟩ : BufTy).Contents (Elt F)),
    nullary main_c_28 (constantI S_ 32 0#32),
    unary main_c_28 main_v88 (broadcastInDim S512x8192 ![] bcast_S_S512x8192 : (⟨S_, .i32⟩ : BufTy).Contents (Elt F) → (⟨S512x8192, .i32⟩ : BufTy).Contents (Elt F)),
    binary main_v77 main_v88 main_v89 (cmpi .slt : (⟨S512x8192, .i32⟩ : BufTy).Contents (Elt F) → (⟨S512x8192, .i32⟩ : BufTy).Contents (Elt F) → (⟨S512x8192, .i1⟩ : BufTy).Contents (Elt F)),
    nullary main_c_29 (constantI S_ 32 200#32),
    unary main_c_29 main_v90 (broadcastInDim S512x8192 ![] bcast_S_S512x8192 : (⟨S_, .i32⟩ : BufTy).Contents (Elt F) → (⟨S512x8192, .i32⟩ : BufTy).Contents (Elt F)),
    binary main_v77 main_v90 main_v91 (addi : (⟨S512x8192, .i32⟩ : BufTy).Contents (Elt F) → (⟨S512x8192, .i32⟩ : BufTy).Contents (Elt F) → (⟨S512x8192, .i32⟩ : BufTy).Contents (Elt F)),
    ternary main_v89 main_v91 main_v77 main_v92 (select : (⟨S512x8192, .i1⟩ : BufTy).Contents (Elt F) → (⟨S512x8192, .i32⟩ : BufTy).Contents (Elt F) → (⟨S512x8192, .i32⟩ : BufTy).Contents (Elt F) → (⟨S512x8192, .i32⟩ : BufTy).Contents (Elt F)),
    unary main_v82 main_v93 (broadcastInDim S512x8192 ![0, 1] bcast_S512x1_S512x8192_0_1 : (⟨S512x1, .i32⟩ : BufTy).Contents (Elt F) → (⟨S512x8192, .i32⟩ : BufTy).Contents (Elt F)),
    unary main_v93 main_v94 (broadcastInDim S512x8192x1 ![0, 1] bcast_S512x8192_S512x8192x1_0_1 : (⟨S512x8192, .i32⟩ : BufTy).Contents (Elt F) → (⟨S512x8192x1, .i32⟩ : BufTy).Contents (Elt F)),
    unary main_v87 main_v95 (broadcastInDim S512x8192x1 ![0, 1] bcast_S512x8192_S512x8192x1_0_1 : (⟨S512x8192, .i32⟩ : BufTy).Contents (Elt F) → (⟨S512x8192x1, .i32⟩ : BufTy).Contents (Elt F)),
    unary main_v92 main_v96 (broadcastInDim S512x8192x1 ![0, 1] bcast_S512x8192_S512x8192x1_0_1 : (⟨S512x8192, .i32⟩ : BufTy).Contents (Elt F) → (⟨S512x8192x1, .i32⟩ : BufTy).Contents (Elt F)) ]

set_option maxHeartbeats 4000000 in
/-- After stretch 5 each buffer a later operation reads holds its stage's value, given that the buffers the stretch reads
    held theirs: the buffers the stretch writes by computing the fold, the others because no operation of it writes them. -/
theorem after_s5 (x0 : (⟨S512x8192x2, .f32⟩ : BufTy).Contents (Elt F)) (x1 : (⟨S512x1x200x200, .f32⟩ : BufTy).Contents (Elt F)) (W : Valuation τ sig (Elt F))
    (h_v31 : W (Proc.devRef .tc main_v31) = val_main_v31 (F := F) x0)
    (h_v27 : W (Proc.devRef .tc main_v27) = val_main_v27 (F := F))
    (h_v29 : W (Proc.devRef .tc main_v29) = val_main_v29 (F := F) x0)
    (h_v25 : W (Proc.devRef .tc main_v25) = val_main_v25 (F := F) x1)
    (h_v24 : W (Proc.devRef .tc main_v24) = val_main_v24 (F := F) x0)
    (h_v52 : W (Proc.devRef .tc main_v52) = val_main_v52 (F := F) x0 x1)
    (h_v75 : W (Proc.devRef .tc main_v75) = val_main_v75 (F := F) x0 x1)
    (h_v5 : W (Proc.devRef .tc main_v5) = val_main_v5 (F := F) x0) :
    after (s5 (F := F)) W (Proc.devRef .tc main_v94) = val_main_v94 (F := F)
    ∧ after (s5 (F := F)) W (Proc.devRef .tc main_v95) = val_main_v95 (F := F) x0
    ∧ after (s5 (F := F)) W (Proc.devRef .tc main_v96) = val_main_v96 (F := F) x0
    ∧ after (s5 (F := F)) W (Proc.devRef .tc main_v25) = val_main_v25 (F := F) x1
    ∧ after (s5 (F := F)) W (Proc.devRef .tc main_v29) = val_main_v29 (F := F) x0
    ∧ after (s5 (F := F)) W (Proc.devRef .tc main_v31) = val_main_v31 (F := F) x0
    ∧ after (s5 (F := F)) W (Proc.devRef .tc main_v27) = val_main_v27 (F := F)
    ∧ after (s5 (F := F)) W (Proc.devRef .tc main_v24) = val_main_v24 (F := F) x0
    ∧ after (s5 (F := F)) W (Proc.devRef .tc main_v52) = val_main_v52 (F := F) x0 x1
    ∧ after (s5 (F := F)) W (Proc.devRef .tc main_v75) = val_main_v75 (F := F) x0 x1
    ∧ after (s5 (F := F)) W (Proc.devRef .tc main_v5) = val_main_v5 (F := F) x0 := by
  refine ⟨?_, ?_, ?_, ?_, ?_, ?_, ?_, ?_, ?_, ?_, ?_⟩
  · unfold s5; after_results_simp
    try simp only [h_v31, h_v27, h_v29, h_v25, h_v24, h_v52, h_v75, h_v5]
    all_goals rfl
  · unfold s5; after_results_simp
    try simp only [h_v31, h_v27, h_v29, h_v25, h_v24, h_v52, h_v75, h_v5]
    all_goals rfl
  · unfold s5; after_results_simp
    try simp only [h_v31, h_v27, h_v29, h_v25, h_v24, h_v52, h_v75, h_v5]
    all_goals rfl
  · unfold s5; after_results_simp; exact h_v25
  · unfold s5; after_results_simp; exact h_v29
  · unfold s5; after_results_simp; exact h_v31
  · unfold s5; after_results_simp; exact h_v27
  · unfold s5; after_results_simp; exact h_v24
  · unfold s5; after_results_simp; exact h_v52
  · unfold s5; after_results_simp; exact h_v75
  · unfold s5; after_results_simp; exact h_v5

/-- Operations 134 and 135: the index triples of the corner `(row, column + 1)` and the grid values there (`main_v98`). -/
def s6 : List (HloOp τ sig (Elt F)) :=
  [ nary ![main_v94, main_v95, main_v96] main_v97 (fun u => concatenate S512x8192x3 2 [⟨S512x8192x1, u 0⟩, ⟨S512x8192x1, u 1⟩, ⟨S512x8192x1, u 2⟩] concatenates_S512x8192x1_S512x8192x1_S512x8192x1_S512x8192x3_d2),
    binary main_v25 main_v97 main_v98 ((fun x i => Host.gather gather_S512x200x200_S512x8192x3_S512x8192_n_012_n_n_012_2_111 x i) : (⟨S512x200x200, .f32⟩ : BufTy).Contents (Elt F) → (⟨S512x8192x3, .i32⟩ : BufTy).Contents (Elt F) → (⟨S512x8192, .f32⟩ : BufTy).Contents (Elt F)) ]

set_option maxHeartbeats 4000000 in
/-- After stretch 6 the gathered values hold their stage's value and every buffer read later keeps its own, given that the
    buffers the stretch reads held theirs. The concatenate reads its three operands through the family `![a, b, c]`: each
    member is named before the contents are rewritten. -/
theorem after_s6 (x0 : (⟨S512x8192x2, .f32⟩ : BufTy).Contents (Elt F)) (x1 : (⟨S512x1x200x200, .f32⟩ : BufTy).Contents (Elt F)) (W : Valuation τ sig (Elt F))
    (h_v94 : W (Proc.devRef .tc main_v94) = val_main_v94 (F := F))
    (h_v95 : W (Proc.devRef .tc main_v95) = val_main_v95 (F := F) x0)
    (h_v96 : W (Proc.devRef .tc main_v96) = val_main_v96 (F := F) x0)
    (h_v25 : W (Proc.devRef .tc main_v25) = val_main_v25 (F := F) x1)
    (h_v29 : W (Proc.devRef .tc main_v29) = val_main_v29 (F := F) x0)
    (h_v31 : W (Proc.devRef .tc main_v31) = val_main_v31 (F := F) x0)
    (h_v27 : W (Proc.devRef .tc main_v27) = val_main_v27 (F := F))
    (h_v24 : W (Proc.devRef .tc main_v24) = val_main_v24 (F := F) x0)
    (h_v52 : W (Proc.devRef .tc main_v52) = val_main_v52 (F := F) x0 x1)
    (h_v75 : W (Proc.devRef .tc main_v75) = val_main_v75 (F := F) x0 x1)
    (h_v5 : W (Proc.devRef .tc main_v5) = val_main_v5 (F := F) x0) :
    after (s6 (F := F)) W (Proc.devRef .tc main_v29) = val_main_v29 (F := F) x0
    ∧ after (s6 (F := F)) W (Proc.devRef .tc main_v31) = val_main_v31 (F := F) x0
    ∧ after (s6 (F := F)) W (Proc.devRef .tc main_v27) = val_main_v27 (F := F)
    ∧ after (s6 (F := F)) W (Proc.devRef .tc main_v25) = val_main_v25 (F := F) x1
    ∧ after (s6 (F := F)) W (Proc.devRef .tc main_v24) = val_main_v24 (F := F) x0
    ∧ after (s6 (F := F)) W (Proc.devRef .tc main_v52) = val_main_v52 (F := F) x0 x1
    ∧ after (s6 (F := F)) W (Proc.devRef .tc main_v75) = val_main_v75 (F := F) x0 x1
    ∧ after (s6 (F := F)) W (Proc.devRef .tc main_v98) = val_main_v98 (F := F) x0 x1
    ∧ after (s6 (F := F)) W (Proc.devRef .tc main_v5) = val_main_v5 (F := F) x0 := by
  refine ⟨?_, ?_, ?_, ?_, ?_, ?_, ?_, ?_, ?_⟩
  · unfold s6; after_results_simp; exact h_v29
  · unfold s6; after_results_simp; exact h_v31
  · unfold s6; after_results_simp; exact h_v27
  · unfold s6; after_results_simp; exact h_v25
  · unfold s6; after_results_simp; exact h_v24
  · unfold s6; after_results_simp; exact h_v52
  · unfold s6; after_results_simp; exact h_v75
  · unfold s6; after_results_simp
    have e0 : W (Proc.devRef .tc ((![main_v94, main_v95, main_v96] : Fin 3 → Ref sig .tc) 0)) = val_main_v94 (F := F) := h_v94
    have e1 : W (Proc.devRef .tc ((![main_v94, main_v95, main_v96] : Fin 3 → Ref sig .tc) 1)) = val_main_v95 (F := F) x0 := h_v95
    have e2 : W (Proc.devRef .tc ((![main_v94, main_v95, main_v96] : Fin 3 → Ref sig .tc) 2)) = val_main_v96 (F := F) x0 := h_v96
    rw [e0, e1, e2, h_v25]
    rfl
  · unfold s6; after_results_simp; exact h_v5

/-- Operations 136 to 166: the three index columns of the corner `(row + 1, column + 1)` (`main_v119`, `main_v120`,
    `main_v121`). -/
def s7 : List (HloOp τ sig (Elt F)) :=
  [ nullary main_c_30 (constantI S_ 32 1#32),
    unary main_c_30 main_v99 (broadcastInDim S512x8192 ![] bcast_S_S512x8192 : (⟨S_, .i32⟩ : BufTy).Contents (Elt F) → (⟨S512x8192, .i32⟩ : BufTy).Contents (Elt F)),
    binary main_v29 main_v99 main_v100 (addi : (⟨S512x8192, .i32⟩ : BufTy).Contents (Elt F) → (⟨S512x8192, .i32⟩ : BufTy).Contents (Elt F) → (⟨S512x8192, .i32⟩ : BufTy).Contents (Elt F)),
    nullary main_c_31 (constantI S_ 32 1#32),
    unary main_c_31 main_v101 (broadcastInDim S512x8192 ![] bcast_S_S512x8192 : (⟨S_, .i32⟩ : BufTy).Contents (Elt F) → (⟨S512x8192, .i32⟩ : BufTy).Contents (Elt F)),
    binary main_v31 main_v101 main_v102 (addi : (⟨S512x8192, .i32⟩ : BufTy).Contents (Elt F) → (⟨S512x8192, .i32⟩ : BufTy).Contents (Elt F) → (⟨S512x8192, .i32⟩ : BufTy).Contents (Elt F)),
    nullary main_c_32 (constantI S_ 32 0#32),
    unary main_c_32 main_v103 (broadcastInDim S512x1 ![] bcast_S_S512x1 : (⟨S_, .i32⟩ : BufTy).Contents (Elt F) → (⟨S512x1, .i32⟩ : BufTy).Contents (Elt F)),
    binary main_v27 main_v103 main_v104 (cmpi .slt : (⟨S512x1, .i32⟩ : BufTy).Contents (Elt F) → (⟨S512x1, .i32⟩ : BufTy).Contents (Elt F) → (⟨S512x1, .i1⟩ : BufTy).Contents (Elt F)),
    nullary main_c_33 (constantI S_ 32 512#32),
    unary main_c_33 main_v105 (broadcastInDim S512x1 ![] bcast_S_S512x1 : (⟨S_, .i32⟩ : BufTy).Contents (Elt F) → (⟨S512x1, .i32⟩ : BufTy).Contents (Elt F)),
    binary main_v27 main_v105 main_v106 (addi : (⟨S512x1, .i32⟩ : BufTy).Contents (Elt F) → (⟨S512x1, .i32⟩ : BufTy).Contents (Elt F) → (⟨S512x1, .i32⟩ : BufTy).Contents (Elt F)),
    ternary main_v104 main_v106 main_v27 main_v107 (select : (⟨S512x1, .i1⟩ : BufTy).Contents (Elt F) → (⟨S512x1, .i32⟩ : BufTy).Contents (Elt F) → (⟨S512x1, .i32⟩ : BufTy).Contents (Elt F) → (⟨S512x1, .i32⟩ : BufTy).Contents (Elt F)),
    nullary main_c_34 (constantI S_ 32 0#32),
    unary main_c_34 main_v108 (broadcastInDim S512x8192 ![] bcast_S_S512x8192 : (⟨S_, .i32⟩ : BufTy).Contents (Elt F) → (⟨S512x8192, .i32⟩ : BufTy).Contents (Elt F)),
    binary main_v100 main_v108 main_v109 (cmpi .slt : (⟨S512x8192, .i32⟩ : BufTy).Contents (Elt F) → (⟨S512x8192, .i32⟩ : BufTy).Contents (Elt F) → (⟨S512x8192, .i1⟩ : BufTy).Contents (Elt F)),
    nullary main_c_35 (constantI S_ 32 200#32),
    unary main_c_35 main_v110 (broadcastInDim S512x8192 ![] bcast_S_S512x8192 : (⟨S_, .i32⟩ : BufTy).Contents (Elt F) → (⟨S512x8192, .i32⟩ : BufTy).Contents (Elt F)),
    binary main_v100 main_v110 main_v111 (addi : (⟨S512x8192, .i32⟩ : BufTy).Contents (Elt F) → (⟨S512x8192, .i32⟩ : BufTy).Contents (Elt F) → (⟨S512x8192, .i32⟩ : BufTy).Contents (Elt F)),
    ternary main_v109 main_v111 main_v100 main_v112 (select : (⟨S512x8192, .i1⟩ : BufTy).Contents (Elt F) → (⟨S512x8192, .i32⟩ : BufTy).Contents (Elt F) → (⟨S512x8192, .i32⟩ : BufTy).Contents (Elt F) → (⟨S512x8192, .i32⟩ : BufTy).Contents (Elt F)),
    nullary main_c_36 (constantI S_ 32 0#32),
    unary main_c_36 main_v113 (broadcastInDim S512x8192 ![] bcast_S_S512x8192 : (⟨S_, .i32⟩ : BufTy).Contents (Elt F) → (⟨S512x8192, .i32⟩ : BufTy).Contents (Elt F)),
    binary main_v102 main_v113 main_v114 (cmpi .slt : (⟨S512x8192, .i32⟩ : BufTy).Contents (Elt F) → (⟨S512x8192, .i32⟩ : BufTy).Contents (Elt F) → (⟨S512x8192, .i1⟩ : BufTy).Contents (Elt F)),
    nullary main_c_37 (constantI S_ 32 200#32),
    unary main_c_37 main_v115 (broadcastInDim S512x8192 ![] bcast_S_S512x8192 : (⟨S_, .i32⟩ : BufTy).Contents (Elt F) → (⟨S512x8192, .i32⟩ : BufTy).Contents (Elt F)),
    binary main_v102 main_v115 main_v116 (addi : (⟨S512x8192, .i32⟩ : BufTy).Contents (Elt F) → (⟨S512x8192, .i32⟩ : BufTy).Contents (Elt F) → (⟨S512x8192, .i32⟩ : BufTy).Contents (Elt F)),
    ternary main_v114 main_v116 main_v102 main_v117 (select : (⟨S512x8192, .i1⟩ : BufTy).Contents (Elt F) → (⟨S512x8192, .i32⟩ : BufTy).Contents (Elt F) → (⟨S512x8192, .i32⟩ : BufTy).Contents (Elt F) → (⟨S512x8192, .i32⟩ : BufTy).Contents (Elt F)),
    unary main_v107 main_v118 (broadcastInDim S512x8192 ![0, 1] bcast_S512x1_S512x8192_0_1 : (⟨S512x1, .i32⟩ : BufTy).Contents (Elt F) → (⟨S512x8192, .i32⟩ : BufTy).Contents (Elt F)),
    unary main_v118 main_v119 (broadcastInDim S512x8192x1 ![0, 1] bcast_S512x8192_S512x8192x1_0_1 : (⟨S512x8192, .i32⟩ : BufTy).Contents (Elt F) → (⟨S512x8192x1, .i32⟩ : BufTy).Contents (Elt F)),
    unary main_v112 main_v120 (broadcastInDim S512x8192x1 ![0, 1] bcast_S512x8192_S512x8192x1_0_1 : (⟨S512x8192, .i32⟩ : BufTy).Contents (Elt F) → (⟨S512x8192x1, .i32⟩ : BufTy).Contents (Elt F)),
    unary main_v117 main_v121 (broadcastInDim S512x8192x1 ![0, 1] bcast_S512x8192_S512x8192x1_0_1 : (⟨S512x8192, .i32⟩ : BufTy).Contents (Elt F) → (⟨S512x8192x1, .i32⟩ : BufTy).Contents (Elt F)) ]

set_option maxHeartbeats 4000000 in
/-- After stretch 7 each buffer a later operation reads holds its stage's value, given that the buffers the stretch reads
    held theirs: the buffers the stretch writes by computing the fold, the others because no operation of it writes them. -/
theorem after_s7 (x0 : (⟨S512x8192x2, .f32⟩ : BufTy).Contents (Elt F)) (x1 : (⟨S512x1x200x200, .f32⟩ : BufTy).Contents (Elt F)) (W : Valuation τ sig (Elt F))
    (h_v29 : W (Proc.devRef .tc main_v29) = val_main_v29 (F := F) x0)
    (h_v31 : W (Proc.devRef .tc main_v31) = val_main_v31 (F := F) x0)
    (h_v27 : W (Proc.devRef .tc main_v27) = val_main_v27 (F := F))
    (h_v25 : W (Proc.devRef .tc main_v25) = val_main_v25 (F := F) x1)
    (h_v24 : W (Proc.devRef .tc main_v24) = val_main_v24 (F := F) x0)
    (h_v52 : W (Proc.devRef .tc main_v52) = val_main_v52 (F := F) x0 x1)
    (h_v75 : W (Proc.devRef .tc main_v75) = val_main_v75 (F := F) x0 x1)
    (h_v98 : W (Proc.devRef .tc main_v98) = val_main_v98 (F := F) x0 x1)
    (h_v5 : W (Proc.devRef .tc main_v5) = val_main_v5 (F := F) x0) :
    after (s7 (F := F)) W (Proc.devRef .tc main_v119) = val_main_v119 (F := F)
    ∧ after (s7 (F := F)) W (Proc.devRef .tc main_v120) = val_main_v120 (F := F) x0
    ∧ after (s7 (F := F)) W (Proc.devRef .tc main_v121) = val_main_v121 (F := F) x0
    ∧ after (s7 (F := F)) W (Proc.devRef .tc main_v25) = val_main_v25 (F := F) x1
    ∧ after (s7 (F := F)) W (Proc.devRef .tc main_v24) = val_main_v24 (F := F) x0
    ∧ after (s7 (F := F)) W (Proc.devRef .tc main_v52) = val_main_v52 (F := F) x0 x1
    ∧ after (s7 (F := F)) W (Proc.devRef .tc main_v75) = val_main_v75 (F := F) x0 x1
    ∧ after (s7 (F := F)) W (Proc.devRef .tc main_v98) = val_main_v98 (F := F) x0 x1
    ∧ after (s7 (F := F)) W (Proc.devRef .tc main_v5) = val_main_v5 (F := F) x0 := by
  refine ⟨?_, ?_, ?_, ?_, ?_, ?_, ?_, ?_, ?_⟩
  · unfold s7; after_results_simp
    try simp only [h_v29, h_v31, h_v27, h_v25, h_v24, h_v52, h_v75, h_v98, h_v5]
    all_goals rfl
  · unfold s7; after_results_simp
    try simp only [h_v29, h_v31, h_v27, h_v25, h_v24, h_v52, h_v75, h_v98, h_v5]
    all_goals rfl
  · unfold s7; after_results_simp
    try simp only [h_v29, h_v31, h_v27, h_v25, h_v24, h_v52, h_v75, h_v98, h_v5]
    all_goals rfl
  · unfold s7; after_results_simp; exact h_v25
  · unfold s7; after_results_simp; exact h_v24
  · unfold s7; after_results_simp; exact h_v52
  · unfold s7; after_results_simp; exact h_v75
  · unfold s7; after_results_simp; exact h_v98
  · unfold s7; after_results_simp; exact h_v5

/-- Operations 167 and 168: the index triples of the corner `(row + 1, column + 1)` and the grid values there (`main_v123`). -/
def s8 : List (HloOp τ sig (Elt F)) :=
  [ nary ![main_v119, main_v120, main_v121] main_v122 (fun u => concatenate S512x8192x3 2 [⟨S512x8192x1, u 0⟩, ⟨S512x8192x1, u 1⟩, ⟨S512x8192x1, u 2⟩] concatenates_S512x8192x1_S512x8192x1_S512x8192x1_S512x8192x3_d2),
    binary main_v25 main_v122 main_v123 ((fun x i => Host.gather gather_S512x200x200_S512x8192x3_S512x8192_n_012_n_n_012_2_111 x i) : (⟨S512x200x200, .f32⟩ : BufTy).Contents (Elt F) → (⟨S512x8192x3, .i32⟩ : BufTy).Contents (Elt F) → (⟨S512x8192, .f32⟩ : BufTy).Contents (Elt F)) ]

set_option maxHeartbeats 4000000 in
/-- After stretch 8 the gathered values hold their stage's value and every buffer read later keeps its own, given that the
    buffers the stretch reads held theirs. The concatenate reads its three operands through the family `![a, b, c]`: each
    member is named before the contents are rewritten. -/
theorem after_s8 (x0 : (⟨S512x8192x2, .f32⟩ : BufTy).Contents (Elt F)) (x1 : (⟨S512x1x200x200, .f32⟩ : BufTy).Contents (Elt F)) (W : Valuation τ sig (Elt F))
    (h_v119 : W (Proc.devRef .tc main_v119) = val_main_v119 (F := F))
    (h_v120 : W (Proc.devRef .tc main_v120) = val_main_v120 (F := F) x0)
    (h_v121 : W (Proc.devRef .tc main_v121) = val_main_v121 (F := F) x0)
    (h_v25 : W (Proc.devRef .tc main_v25) = val_main_v25 (F := F) x1)
    (h_v24 : W (Proc.devRef .tc main_v24) = val_main_v24 (F := F) x0)
    (h_v52 : W (Proc.devRef .tc main_v52) = val_main_v52 (F := F) x0 x1)
    (h_v75 : W (Proc.devRef .tc main_v75) = val_main_v75 (F := F) x0 x1)
    (h_v98 : W (Proc.devRef .tc main_v98) = val_main_v98 (F := F) x0 x1)
    (h_v5 : W (Proc.devRef .tc main_v5) = val_main_v5 (F := F) x0) :
    after (s8 (F := F)) W (Proc.devRef .tc main_v24) = val_main_v24 (F := F) x0
    ∧ after (s8 (F := F)) W (Proc.devRef .tc main_v52) = val_main_v52 (F := F) x0 x1
    ∧ after (s8 (F := F)) W (Proc.devRef .tc main_v75) = val_main_v75 (F := F) x0 x1
    ∧ after (s8 (F := F)) W (Proc.devRef .tc main_v98) = val_main_v98 (F := F) x0 x1
    ∧ after (s8 (F := F)) W (Proc.devRef .tc main_v123) = val_main_v123 (F := F) x0 x1
    ∧ after (s8 (F := F)) W (Proc.devRef .tc main_v5) = val_main_v5 (F := F) x0 := by
  refine ⟨?_, ?_, ?_, ?_, ?_, ?_⟩
  · unfold s8; after_results_simp; exact h_v24
  · unfold s8; after_results_simp; exact h_v52
  · unfold s8; after_results_simp; exact h_v75
  · unfold s8; after_results_simp; exact h_v98
  · unfold s8; after_results_simp
    have e0 : W (Proc.devRef .tc ((![main_v119, main_v120, main_v121] : Fin 3 → Ref sig .tc) 0)) = val_main_v119 (F := F) := h_v119
    have e1 : W (Proc.devRef .tc ((![main_v119, main_v120, main_v121] : Fin 3 → Ref sig .tc) 1)) = val_main_v120 (F := F) x0 := h_v120
    have e2 : W (Proc.devRef .tc ((![main_v119, main_v120, main_v121] : Fin 3 → Ref sig .tc) 2)) = val_main_v121 (F := F) x0 := h_v121
    rw [e0, e1, e2, h_v25]
    rfl
  · unfold s8; after_results_simp; exact h_v5

/-- Operations 169 to 194: the blend of the four corner values by the two offsets, and `-1` in its place at a point outside
    the square (`main_v143`). -/
def s9 : List (HloOp τ sig (Elt F)) :=
  [ unary main_v24 main_v124 ((extractStridedSlice S512x8192x1 ![0, 0, 0] · slices_S512x8192x2_S512x8192x1_0_0_0) : (⟨S512x8192x2, .f32⟩ : BufTy).Contents (Elt F) → (⟨S512x8192x1, .f32⟩ : BufTy).Contents (Elt F)),
    reshape main_v124 main_v125 rfl shapeCasts_S512x8192x1_S512x8192,
    unary main_v24 main_v126 ((extractStridedSlice S512x8192x1 ![0, 0, 1] · slices_S512x8192x2_S512x8192x1_0_0_1) : (⟨S512x8192x2, .f32⟩ : BufTy).Contents (Elt F) → (⟨S512x8192x1, .f32⟩ : BufTy).Contents (Elt F)),
    reshape main_v126 main_v127 rfl shapeCasts_S512x8192x1_S512x8192,
    nullary main_cst_38 (constant S_ .f32 0x3F800000#32),
    unary main_cst_38 main_v128 (broadcastInDim S512x8192 ![] bcast_S_S512x8192 : (⟨S_, .f32⟩ : BufTy).Contents (Elt F) → (⟨S512x8192, .f32⟩ : BufTy).Contents (Elt F)),
    binary main_v128 main_v125 main_v129 (subf : (⟨S512x8192, .f32⟩ : BufTy).Contents (Elt F) → (⟨S512x8192, .f32⟩ : BufTy).Contents (Elt F) → (⟨S512x8192, .f32⟩ : BufTy).Contents (Elt F)),
    binary main_v129 main_v52 main_v130 (mulf : (⟨S512x8192, .f32⟩ : BufTy).Contents (Elt F) → (⟨S512x8192, .f32⟩ : BufTy).Contents (Elt F) → (⟨S512x8192, .f32⟩ : BufTy).Contents (Elt F)),
    binary main_v125 main_v75 main_v131 (mulf : (⟨S512x8192, .f32⟩ : BufTy).Contents (Elt F) → (⟨S512x8192, .f32⟩ : BufTy).Contents (Elt F) → (⟨S512x8192, .f32⟩ : BufTy).Contents (Elt F)),
    binary main_v130 main_v131 main_v132 (addf : (⟨S512x8192, .f32⟩ : BufTy).Contents (Elt F) → (⟨S512x8192, .f32⟩ : BufTy).Contents (Elt F) → (⟨S512x8192, .f32⟩ : BufTy).Contents (Elt F)),
    nullary main_cst_39 (constant S_ .f32 0x3F800000#32),
    unary main_cst_39 main_v133 (broadcastInDim S512x8192 ![] bcast_S_S512x8192 : (⟨S_, .f32⟩ : BufTy).Contents (Elt F) → (⟨S512x8192, .f32⟩ : BufTy).Contents (Elt F)),
    binary main_v133 main_v125 main_v134 (subf : (⟨S512x8192, .f32⟩ : BufTy).Contents (Elt F) → (⟨S512x8192, .f32⟩ : BufTy).Contents (Elt F) → (⟨S512x8192, .f32⟩ : BufTy).Contents (Elt F)),
    binary main_v134 main_v98 main_v135 (mulf : (⟨S512x8192, .f32⟩ : BufTy).Contents (Elt F) → (⟨S512x8192, .f32⟩ : BufTy).Contents (Elt F) → (⟨S512x8192, .f32⟩ : BufTy).Contents (Elt F)),
    binary main_v125 main_v123 main_v136 (mulf : (⟨S512x8192, .f32⟩ : BufTy).Contents (Elt F) → (⟨S512x8192, .f32⟩ : BufTy).Contents (Elt F) → (⟨S512x8192, .f32⟩ : BufTy).Contents (Elt F)),
    binary main_v135 main_v136 main_v137 (addf : (⟨S512x8192, .f32⟩ : BufTy).Contents (Elt F) → (⟨S512x8192, .f32⟩ : BufTy).Contents (Elt F) → (⟨S512x8192, .f32⟩ : BufTy).Contents (Elt F)),
    nullary main_cst_40 (constant S_ .f32 0x3F800000#32),
    unary main_cst_40 main_v138 (broadcastInDim S512x8192 ![] bcast_S_S512x8192 : (⟨S_, .f32⟩ : BufTy).Contents (Elt F) → (⟨S512x8192, .f32⟩ : BufTy).Contents (Elt F)),
    binary main_v138 main_v127 main_v139 (subf : (⟨S512x8192, .f32⟩ : BufTy).Contents (Elt F) → (⟨S512x8192, .f32⟩ : BufTy).Contents (Elt F) → (⟨S512x8192, .f32⟩ : BufTy).Contents (Elt F)),
    binary main_v139 main_v132 main_v140 (mulf : (⟨S512x8192, .f32⟩ : BufTy).Contents (Elt F) → (⟨S512x8192, .f32⟩ : BufTy).Contents (Elt F) → (⟨S512x8192, .f32⟩ : BufTy).Contents (Elt F)),
    binary main_v127 main_v137 main_v141 (mulf : (⟨S512x8192, .f32⟩ : BufTy).Contents (Elt F) → (⟨S512x8192, .f32⟩ : BufTy).Contents (Elt F) → (⟨S512x8192, .f32⟩ : BufTy).Contents (Elt F)),
    binary main_v140 main_v141 main_v142 (addf : (⟨S512x8192, .f32⟩ : BufTy).Contents (Elt F) → (⟨S512x8192, .f32⟩ : BufTy).Contents (Elt F) → (⟨S512x8192, .f32⟩ : BufTy).Contents (Elt F)),
    nullary main_cst_41 (constant S_ .f32 0xBF800000#32),
    TRef.unary (TRef.of (T := ⟨S_, .f32⟩) main_cst_41) (TRef.of (T := ⟨S_, .f32⟩) main_call1_v0) id,
    TRef.unary (TRef.of (T := ⟨S_, .f32⟩) main_call1_v0) (TRef.of (T := ⟨S512x8192, .f32⟩) main_call1_v1) (broadcastInDim S512x8192 ![] bcast_S_S512x8192),
    TRef.ternary (TRef.of (T := ⟨S512x8192, .i1⟩) main_v5) (TRef.of (T := ⟨S512x8192, .f32⟩) main_call1_v1) (TRef.of (T := ⟨S512x8192, .f32⟩) main_v142) (TRef.of (T := ⟨S512x8192, .f32⟩) main_v143) select ]

set_option maxHeartbeats 4000000 in
/-- After stretch 9 the blended distance holds its stage's value, given that the offsets, the four corner values and
    the outside test held theirs. The outside test is read under a change of type along an equation between equal
    types: it is kept as the buffer's own contents until the two sides are compared. -/
theorem after_s9 (x0 : (⟨S512x8192x2, .f32⟩ : BufTy).Contents (Elt F)) (x1 : (⟨S512x1x200x200, .f32⟩ : BufTy).Contents (Elt F)) (W : Valuation τ sig (Elt F))
    (h_v24 : W (Proc.devRef .tc main_v24) = val_main_v24 (F := F) x0)
    (h_v52 : W (Proc.devRef .tc main_v52) = val_main_v52 (F := F) x0 x1)
    (h_v75 : W (Proc.devRef .tc main_v75) = val_main_v75 (F := F) x0 x1)
    (h_v98 : W (Proc.devRef .tc main_v98) = val_main_v98 (F := F) x0 x1)
    (h_v123 : W (Proc.devRef .tc main_v123) = val_main_v123 (F := F) x0 x1)
    (h_v5 : W (Proc.devRef .tc main_v5) = val_main_v5 (F := F) x0) :
    after (s9 (F := F)) W (Proc.devRef .tc main_v143) = val_main_v143 (F := F) x0 x1 := by
  unfold s9; after_results_simp
  simp only [h_v24, h_v52, h_v75, h_v98, h_v123]
  unfold val_main_v143
  rw [← h_v5]
  rfl

/-- Operations 195 to 208: the penalty of each point, the sum over all points and its quotient by their number (`main_v151`). -/
def s10 : List (HloOp τ sig (Elt F)) :=
  [ nullary main_cst_42 (constant S_ .f32 0x3E99999A#32),
    unary main_cst_42 main_v144 (broadcastInDim S512x8192 ![] bcast_S_S512x8192 : (⟨S_, .f32⟩ : BufTy).Contents (Elt F) → (⟨S512x8192, .f32⟩ : BufTy).Contents (Elt F)),
    binary main_v144 main_v143 main_v145 (subf : (⟨S512x8192, .f32⟩ : BufTy).Contents (Elt F) → (⟨S512x8192, .f32⟩ : BufTy).Contents (Elt F) → (⟨S512x8192, .f32⟩ : BufTy).Contents (Elt F)),
    nullary main_cst_43 (constant S_ .f32 0x41200000#32),
    unary main_cst_43 main_v146 (broadcastInDim S512x8192 ![] bcast_S_S512x8192 : (⟨S_, .f32⟩ : BufTy).Contents (Elt F) → (⟨S512x8192, .f32⟩ : BufTy).Contents (Elt F)),
    binary main_v146 main_v145 main_v147 (mulf : (⟨S512x8192, .f32⟩ : BufTy).Contents (Elt F) → (⟨S512x8192, .f32⟩ : BufTy).Contents (Elt F) → (⟨S512x8192, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S512x8192, .f32⟩) main_call2_v0) (broadcastInDim S512x8192 ![] bcast_S_S512x8192),
    TRef.binary (TRef.of (T := ⟨S512x8192, .f32⟩) main_v147) (TRef.of (T := ⟨S512x8192, .f32⟩) main_call2_v0) (TRef.of (T := ⟨S512x8192, .f32⟩) main_v148) maximumf,
    binary main_v148 main_v148 main_v149 (mulf : (⟨S512x8192, .f32⟩ : BufTy).Contents (Elt F) → (⟨S512x8192, .f32⟩ : BufTy).Contents (Elt F) → (⟨S512x8192, .f32⟩ : BufTy).Contents (Elt F)),
    nullary main_cst_44 (constant S_ .f32 0x00000000#32),
    binary main_v149 main_cst_44 main_v150 ((fun x v => Host.reduceAdd x v reducesTo_S512x8192_S_d0_1 h_S_) : (⟨S512x8192, .f32⟩ : BufTy).Contents (Elt F) → (⟨S_, .f32⟩ : BufTy).Contents (Elt F) → (⟨S_, .f32⟩ : BufTy).Contents (Elt F)),
    nullary main_cst_45 (constant S_ .f32 0x4A800000#32),
    binary main_v150 main_cst_45 main_v151 (Host.divf : (⟨S_, .f32⟩ : BufTy).Contents (Elt F) → (⟨S_, .f32⟩ : BufTy).Contents (Elt F) → (⟨S_, .f32⟩ : BufTy).Contents (Elt F)) ]

set_option maxHeartbeats 4000000 in
/-- After stretch 10 each buffer a later operation reads holds its stage's value, given that the buffers the stretch reads
    held theirs: the buffers the stretch writes by computing the fold, the others because no operation of it writes them. -/
theorem after_s10 (x0 : (⟨S512x8192x2, .f32⟩ : BufTy).Contents (Elt F)) (x1 : (⟨S512x1x200x200, .f32⟩ : BufTy).Contents (Elt F)) (W : Valuation τ sig (Elt F))
    (h_v143 : W (Proc.devRef .tc main_v143) = val_main_v143 (F := F) x0 x1) :
    after (s10 (F := F)) W (Proc.devRef .tc main_v151) = val_main_v151 (F := F) x0 x1 := by
  unfold s10; after_results_simp
  try simp only [h_v143]
  all_goals rfl

/-- The line is its eleven stretches one after the other. -/
theorem ops_eq : (ops : List (HloOp τ sig (Elt F))) = s0 ++ s1 ++ s2 ++ s3 ++ s4 ++ s5 ++ s6 ++ s7 ++ s8 ++ s9 ++ s10 := rfl

/-- After the whole line the result buffer holds the last stage's value of the two arguments' contents: the stretches'
    facts in turn, each fed the one before's, from the arguments' own contents. -/
theorem after_ops (V : Valuation τ sig (Elt F)) :
    after (ops (F := F)) V (Proc.devRef .tc main_v151)
      = val_main_v151 (F := F) (V (Proc.devRef .tc main_arg0)) (V (Proc.devRef .tc main_arg1)) := by
  rw [ops_eq]
  simp only [after_append]
  obtain ⟨a_v14, a_v24, a_v5, a_arg1⟩ := after_s0 (F := F) (V (Proc.devRef .tc main_arg0)) (V (Proc.devRef .tc main_arg1)) V rfl rfl
  obtain ⟨b_v48, b_v49, b_v50, b_v25, b_v29, b_v27, b_v31, b_v24, b_v5⟩ := after_s1 _ _ _ a_arg1 a_v14 a_v24 a_v5
  obtain ⟨c_v29, c_v27, c_v31, c_v25, c_v24, c_v52, c_v5⟩ := after_s2 _ _ _ b_v48 b_v49 b_v50 b_v25 b_v29 b_v27 b_v31 b_v24 b_v5
  obtain ⟨d_v71, d_v72, d_v73, d_v25, d_v31, d_v27, d_v29, d_v24, d_v52, d_v5⟩ := after_s3 _ _ _ c_v29 c_v27 c_v31 c_v25 c_v24 c_v52 c_v5
  obtain ⟨e_v31, e_v27, e_v29, e_v25, e_v24, e_v52, e_v75, e_v5⟩ := after_s4 _ _ _ d_v71 d_v72 d_v73 d_v25 d_v31 d_v27 d_v29 d_v24 d_v52 d_v5
  obtain ⟨f_v94, f_v95, f_v96, f_v25, f_v29, f_v31, f_v27, f_v24, f_v52, f_v75, f_v5⟩ := after_s5 _ _ _ e_v31 e_v27 e_v29 e_v25 e_v24 e_v52 e_v75 e_v5
  obtain ⟨g_v29, g_v31, g_v27, g_v25, g_v24, g_v52, g_v75, g_v98, g_v5⟩ := after_s6 _ _ _ f_v94 f_v95 f_v96 f_v25 f_v29 f_v31 f_v27 f_v24 f_v52 f_v75 f_v5
  obtain ⟨h_v119, h_v120, h_v121, h_v25, h_v24, h_v52, h_v75, h_v98, h_v5⟩ := after_s7 _ _ _ g_v29 g_v31 g_v27 g_v25 g_v24 g_v52 g_v75 g_v98 g_v5
  obtain ⟨i_v24, i_v52, i_v75, i_v98, i_v123, i_v5⟩ := after_s8 _ _ _ h_v119 h_v120 h_v121 h_v25 h_v24 h_v52 h_v75 h_v98 h_v5
  obtain j_v143 := after_s9 _ _ _ i_v24 i_v52 i_v75 i_v98 i_v123 i_v5
  obtain k_v151 := after_s10 _ _ _ j_v143
  exact k_v151

set_option maxRecDepth 8192 in
set_option maxHeartbeats 8000000 in
/-- On every device, from any memory with zero counters: every weakly fair execution of @main terminates with the
    result at the last stage's value of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v151)
        = val_main_v151 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v151).trans (after_ops _),
      (h c main_arg0).trans (by after_results_simp <;> rfl),
      (h c main_arg1).trans (by after_results_simp <;> rfl)⟩)
    (run_seq scopedRefs_eq scopedSems_eq defs main (fun _ => ops) main_eq (fun _ => ops_sub) m ρ)

end Cert.ReferenceIdeal.RefRun

end
-- ==== Proof.RefValue.lean ====
import proofs.«116232_j80032420594331_1_alg».proof.Proof.RefStages
import proofs.«116232_j80032420594331_1_alg».proof.Proof.CellRange
import Idealize.ShloMosaic.Lib.ValueIdx
import Idealize.ShloMosaic.Lib.ValueLayout
import Idealize.ShloMosaic.Lib.Pipeline.Value
import Idealize.ShloMosaic.PureOps.Ideal.Laws

/-!
# The reference computes the mean penalty

Read one operation at a time, the reference's result is the mean of the points' penalties: its four gathers read
the grid at `(b, ix, iy)`, `(b, ix + 1, iy)`, `(b, ix, iy + 1)`, `(b, ix + 1, iy + 1)` — the wrap of a negative index and
the gather's clamp are the identity, a cell word and its successor lying on the grid —, and the fold of the two
out-of-range bits of a point is their disjunction.
-/

set_option maxRecDepth 16384

noncomputable section

namespace Cert.ReferenceIdeal.RefValue

open Cert.ReferenceIdeal Cert.ReferenceIdeal.Gen
open Idealize.ShloMosaic Idealize.ShloMosaic.ValueIdx

open Cert.ReferenceIdeal.ReadP

/-- The two arguments: the points `[512, 8192, 2]` and the grids `[512, 1, 200, 200]`. -/
abbrev X0 := (⟨S512x8192x2, .f32⟩ : BufTy).Contents (Elt Ideal)
abbrev X1 := (⟨S512x1x200x200, .f32⟩ : BufTy).Contents (Elt Ideal)

/-! ### A point's clipped coordinate, cell word, offset and out-of-range bit -/

theorem t_v6 (x0 : X0) (b : Fin 512) (n : Fin 8192) (k : Fin 2) :
    val_main_v6 (F := Ideal) x0 (ix3 b n k) = Cert.PointSpec.clip (x0 (ix3 b n k)) := by
  rfl

theorem t_v14 (x0 : X0) (b : Fin 512) (n : Fin 8192) (k : Fin 2) :
    val_main_v14 (F := Ideal) x0 (ix3 b n k) = Cert.PointSpec.cellWord (x0 (ix3 b n k)) := by
  rfl

theorem t_v24 (x0 : X0) (b : Fin 512) (n : Fin 8192) (k : Fin 2) :
    val_main_v24 (F := Ideal) x0 (ix3 b n k)
      = Cert.PointSpec.offset (x0 (ix3 b n k)) (Cert.PointSpec.cellWord (x0 (ix3 b n k))) := by
  rfl

/-- A fold of a commutative, associative operation over the two coordinates of an axis of extent two. -/
theorem fold_two {α : Type} (f : α → α → α) [Std.Commutative f] [Std.Associative f] (init : α) (g : Fin 2 → α) :
    (Finset.univ : Finset (Fin 2)).fold f init g = f (g 0) (f (g 1) init) := by
  rw [show (Finset.univ : Finset (Fin 2)) = insert 0 {1} from by decide,
    Finset.fold_insert (by decide), Finset.fold_singleton]

/-- On one-bit words the disjunction from zero of two disjunctions is the four-fold disjunction, in the
    bracketing of the specification. -/
theorem or_four : ∀ a0 b0 a1 b1 : BitVec 1,
    IntOp.ori (IntOp.ori a0 b0) (IntOp.ori (IntOp.ori a1 b1) 0#1) = IntOp.ori (IntOp.ori (IntOp.ori a0 b0) a1) b1 := by
  decide

theorem t_v5 (x0 : X0) (b : Fin 512) (n : Fin 8192) :
    val_main_v5 (F := Ideal) x0 (ix2 b n) = Cert.PointSpec.outside (x0 (ix3 b n 0)) (x0 (ix3 b n 1)) := by
  have hR : S512x8192x2.Reduces [2] S512x8192 := by decide
  have hl : ∀ k : Fin 2, hR.lift (ix2 b n) k = ix3 b n k := by
    intro k; funext c; apply Fin.ext
    match c with
    | ⟨0, _⟩ => rfl
    | ⟨1, _⟩ => rfl
    | ⟨2, _⟩ => rfl
  unfold val_main_v5
  rw [Host.reduce_eq_fold_single IntOp.ori _ _ reducesTo_S512x8192x2_S512x8192_d2 hR h_S_ (ix2 b n)]
  refine (fold_two IntOp.ori _ _).trans ?_
  show IntOp.ori (val_main_v4 (F := Ideal) x0 (hR.lift (ix2 b n) (0 : Fin 2))) (IntOp.ori (val_main_v4 (F := Ideal) x0 (hR.lift (ix2 b n) (1 : Fin 2))) 0#1) = _
  rw [hl 0, hl 1]
  exact or_four _ _ _ _

/-! ### A gather and a concatenation read at a point -/

abbrev GD := gather_S512x200x200_S512x8192x3_S512x8192_n_012_n_n_012_2_111

/-- The gather read at point `(b, n)`: the operand at the three components of the point's start index, each read
    signed and clamped to its axis. -/
theorem gather_at {α : Type} (x : S512x200x200.Idx → α) (idx : IVec S512x8192x3 32) (b : Fin 512) (n : Fin 8192) :
    Host.gather GD x idx (ix2 b n)
      = x (ix3 (⟨min (idx (ix3 b n 0)).toInt.toNat 511, by omega⟩ : Fin 512)
              (⟨min (idx (ix3 b n 1)).toInt.toNat 199, by omega⟩ : Fin 200)
              (⟨min (idx (ix3 b n 2)).toInt.toNat 199, by omega⟩ : Fin 200)) := by
  have hmem : ∀ a : Fin 3, a ∈ GD.startIndexMap := by decide
  have hcol : ∀ a : Fin 3, a ∈ GD.collapsedSliceDims := by decide
  have hsi : ∀ a : Fin 3, GD.siIdx (ix2 b n) ⟨List.idxOf a GD.startIndexMap, List.idxOf_lt_length_iff.2 (hmem a)⟩ = ix3 b n a := by
    intro a; funext c; refine Fin.ext ?_
    match a, c with
    | ⟨0, _⟩, ⟨0, _⟩ => rfl
    | ⟨0, _⟩, ⟨1, _⟩ => rfl
    | ⟨0, _⟩, ⟨2, _⟩ => rfl
    | ⟨1, _⟩, ⟨0, _⟩ => rfl
    | ⟨1, _⟩, ⟨1, _⟩ => rfl
    | ⟨1, _⟩, ⟨2, _⟩ => rfl
    | ⟨2, _⟩, ⟨0, _⟩ => rfl
    | ⟨2, _⟩, ⟨1, _⟩ => rfl
    | ⟨2, _⟩, ⟨2, _⟩ => rfl
  have hst : ∀ a : Fin 3, GD.start (ix2 b n) idx a = min (idx (ix3 b n a)).toInt.toNat (S512x200x200.size a - GD.sliceSizes a) := by
    intro a
    unfold GatherDims.start
    rw [dif_pos (hmem a), hsi a]
  unfold Host.gather
  congr 1
  funext a
  refine Fin.ext ?_
  show GD.start (ix2 b n) idx a + GD.batchCoord (ix2 b n) a + GD.offCoord (ix2 b n) a = _
  rw [GatherDims.batchCoord_eq_zero _ _ _ List.not_mem_nil,
    GatherDims.offCoord_eq_zero _ _ _ (fun h => ((GatherDims.mem_sKept _ _).mp h).1 (hcol a)), hst a]
  match a with
  | ⟨0, _⟩ => rfl
  | ⟨1, _⟩ => rfl
  | ⟨2, _⟩ => rfl

abbrev Col := S512x8192x1.Idx → BitVec 32

/-- Three unit columns joined on the last axis, read at component `0`, `1`, `2` of point `(b, n)`: the first, the
    second, the third column at that point. -/
theorem concat3_at (c0 c1 c2 : Col) (b : Fin 512) (n : Fin 8192) :
    concatenate S512x8192x3 2 [⟨S512x8192x1, c0⟩, ⟨S512x8192x1, c1⟩, ⟨S512x8192x1, c2⟩]
        concatenates_S512x8192x1_S512x8192x1_S512x8192x1_S512x8192x3_d2 (ix3 b n 0) = c0 (ix3 b n 0) ∧
    concatenate S512x8192x3 2 [⟨S512x8192x1, c0⟩, ⟨S512x8192x1, c1⟩, ⟨S512x8192x1, c2⟩]
        concatenates_S512x8192x1_S512x8192x1_S512x8192x1_S512x8192x3_d2 (ix3 b n 1) = c1 (ix3 b n 0) ∧
    concatenate S512x8192x3 2 [⟨S512x8192x1, c0⟩, ⟨S512x8192x1, c1⟩, ⟨S512x8192x1, c2⟩]
        concatenates_S512x8192x1_S512x8192x1_S512x8192x1_S512x8192x3_d2 (ix3 b n 2) = c2 (ix3 b n 0) := by
  have hoff : ∀ (k : Fin 3) (c : Fin S512x8192x1.rank), c.cast (rfl : S512x8192x1.rank = S512x8192x3.rank) ≠ (2 : Fin S512x8192x3.rank) →
      ((ix3 b n (0 : Fin 1) : S512x8192x1.Idx) c).val = ((ix3 b n k : S512x8192x3.Idx) (c.cast rfl)).val := by
    intro k c hc
    match c with
    | ⟨0, _⟩ => rfl
    | ⟨1, _⟩ => rfl
    | ⟨2, _⟩ => exact absurd rfl hc
  refine ⟨?_, ?_, ?_⟩
  · exact concatenate_apply_piece (2 : Fin S512x8192x3.rank) [⟨S512x8192x1, c0⟩, ⟨S512x8192x1, c1⟩, ⟨S512x8192x1, c2⟩]
      concatenates_S512x8192x1_S512x8192x1_S512x8192x1_S512x8192x3_d2 (ix3 b n 0) 0 (show 0 < 3 by omega) S512x8192x1 c0 rfl rfl 0 rfl
      (ix3 b n 0) (hoff 0) rfl
  · exact concatenate_apply_piece (2 : Fin S512x8192x3.rank) [⟨S512x8192x1, c0⟩, ⟨S512x8192x1, c1⟩, ⟨S512x8192x1, c2⟩]
      concatenates_S512x8192x1_S512x8192x1_S512x8192x1_S512x8192x3_d2 (ix3 b n 1) 1 (show 1 < 3 by omega) S512x8192x1 c1 rfl rfl 1 rfl
      (ix3 b n 0) (hoff 1) rfl
  · exact concatenate_apply_piece (2 : Fin S512x8192x3.rank) [⟨S512x8192x1, c0⟩, ⟨S512x8192x1, c1⟩, ⟨S512x8192x1, c2⟩]
      concatenates_S512x8192x1_S512x8192x1_S512x8192x1_S512x8192x3_d2 (ix3 b n 2) 2 (show 2 < 3 by omega) S512x8192x1 c2 rfl rfl 2 rfl
      (ix3 b n 0) (hoff 2) rfl

/-! ### The index maps of the slices and reshapes at a point -/

theorem idx_v29 (b : Fin 512) (n : Fin 8192) : idx_main_v28 (idx_main_v29 (ix2 b n)) = ix3 b n 0 := by
  have hb := b.isLt; have hn := n.isLt
  funext a; refine Fin.ext ?_
  match a with
  | ⟨0, _⟩ => show (b.val * 8192 + n.val) / 8192 = b.val; omega
  | ⟨1, _⟩ => show (b.val * 8192 + n.val) / 1 % 8192 = n.val; omega
  | ⟨2, _⟩ => rfl

theorem idx_v31 (b : Fin 512) (n : Fin 8192) : idx_main_v30 (idx_main_v31 (ix2 b n)) = ix3 b n 1 := by
  have hb := b.isLt; have hn := n.isLt
  funext a; refine Fin.ext ?_
  match a with
  | ⟨0, _⟩ => show (b.val * 8192 + n.val) / 8192 = b.val; omega
  | ⟨1, _⟩ => show (b.val * 8192 + n.val) / 1 % 8192 = n.val; omega
  | ⟨2, _⟩ => rfl

theorem idx_v125 (b : Fin 512) (n : Fin 8192) : idx_main_v124 (idx_main_v125 (ix2 b n)) = ix3 b n 0 := by
  have hb := b.isLt; have hn := n.isLt
  funext a; refine Fin.ext ?_
  match a with
  | ⟨0, _⟩ => show (b.val * 8192 + n.val) / 8192 = b.val; omega
  | ⟨1, _⟩ => show (b.val * 8192 + n.val) / 1 % 8192 = n.val; omega
  | ⟨2, _⟩ => rfl

theorem idx_v127 (b : Fin 512) (n : Fin 8192) : idx_main_v126 (idx_main_v127 (ix2 b n)) = ix3 b n 1 := by
  have hb := b.isLt; have hn := n.isLt
  funext a; refine Fin.ext ?_
  match a with
  | ⟨0, _⟩ => show (b.val * 8192 + n.val) / 8192 = b.val; omega
  | ⟨1, _⟩ => show (b.val * 8192 + n.val) / 1 % 8192 = n.val; omega
  | ⟨2, _⟩ => rfl

theorem idx_v25 (b : Fin 512) (p q : Fin 200) : idx_main_v25 (ix3 b p q) = ix4 b 0 p q := by
  have hb := b.isLt; have hp := p.isLt; have hq := q.isLt
  funext a; refine Fin.ext ?_
  match a with
  | ⟨0, _⟩ => show ((b.val * 200 + p.val) * 200 + q.val) / 40000 = b.val; omega
  | ⟨1, _⟩ => rfl
  | ⟨2, _⟩ => show ((b.val * 200 + p.val) * 200 + q.val) / 200 % 200 = p.val; omega
  | ⟨3, _⟩ => show ((b.val * 200 + p.val) * 200 + q.val) % 200 = q.val; omega

/-! ### The cell words and offsets of a point, as the later stages read them -/

theorem t_v29 (x0 : X0) (b : Fin 512) (n : Fin 8192) :
    val_main_v29 (F := Ideal) x0 (ix2 b n) = Cert.PointSpec.cellWord (x0 (ix3 b n 0)) := by
  rw [val_main_v29_apply, val_main_v28_apply, idx_v29]; rfl

theorem t_v31 (x0 : X0) (b : Fin 512) (n : Fin 8192) :
    val_main_v31 (F := Ideal) x0 (ix2 b n) = Cert.PointSpec.cellWord (x0 (ix3 b n 1)) := by
  rw [val_main_v31_apply, val_main_v30_apply, idx_v31]; rfl

theorem t_v125 (x0 : X0) (b : Fin 512) (n : Fin 8192) :
    val_main_v125 (F := Ideal) x0 (ix2 b n)
      = Cert.PointSpec.offset (x0 (ix3 b n 0)) (Cert.PointSpec.cellWord (x0 (ix3 b n 0))) := by
  rw [val_main_v125_apply, val_main_v124_apply, idx_v125]; rfl

theorem t_v127 (x0 : X0) (b : Fin 512) (n : Fin 8192) :
    val_main_v127 (F := Ideal) x0 (ix2 b n)
      = Cert.PointSpec.offset (x0 (ix3 b n 1)) (Cert.PointSpec.cellWord (x0 (ix3 b n 1))) := by
  rw [val_main_v127_apply, val_main_v126_apply, idx_v127]; rfl

/-- The grid of batch `b` at row `p`, column `q`, as the reshaped second argument holds it. -/
theorem grid_at (x1 : X1) (b : Fin 512) (B : Fin 512) (P Q : Fin 200) (hB : B.val = b.val) :
    val_main_v25 (F := Ideal) x1 (ix3 B P Q) = Cert.PointSpec.cell (Cert.PointSpec.grid3 x1) b P.val Q.val := by
  obtain rfl : B = b := Fin.ext hB
  unfold Cert.PointSpec.cell
  rw [dif_pos ⟨P.isLt, Q.isLt⟩, val_main_v25_apply, idx_v25]
  rfl

/-! ### The index columns of the four gathers at a point -/

theorem iota_toNat (b : Fin 512) : (BitVec.ofNat 32 b.val).toNat = b.val := by
  rw [BitVec.toNat_ofNat]; exact Nat.mod_eq_of_lt (by have := b.isLt; omega)

theorem iota_le511 (b : Fin 512) : (BitVec.ofNat 32 b.val).toNat ≤ 511 := by
  rw [iota_toNat]; have := b.isLt; omega

theorem cw_le511 (x : EReal) : (Cert.PointSpec.cellWord x).toNat ≤ 511 := by
  have := Cert.PointSpec.cellWord_toNat_le x; omega

theorem succ_le511 (x : EReal) : (IntOp.addi (Cert.PointSpec.cellWord x) 1#32).toNat ≤ 511 := by
  rw [Cert.PointSpec.succ_toNat _ (Cert.PointSpec.cellWord_toNat_le x)]
  have := Cert.PointSpec.cellWord_toNat_le x; omega

theorem t_v48 (b : Fin 512) (n : Fin 8192) : val_main_v48 (F := Ideal) (ix3 b n 0) = BitVec.ofNat 32 b.val := by
  rw [val_main_v48_apply, val_main_v47_apply, val_main_v36_apply, val_main_v33_apply, val_main_v35_apply, val_main_v27_apply,
    val_main_v26_apply]
  exact Cert.PointSpec.wrap_eq _ _ (iota_le511 b)

theorem t_v71 (b : Fin 512) (n : Fin 8192) : val_main_v71 (F := Ideal) (ix3 b n 0) = BitVec.ofNat 32 b.val := by
  rw [val_main_v71_apply, val_main_v70_apply, val_main_v59_apply, val_main_v56_apply, val_main_v58_apply, val_main_v27_apply,
    val_main_v26_apply]
  exact Cert.PointSpec.wrap_eq _ _ (iota_le511 b)

theorem t_v94 (b : Fin 512) (n : Fin 8192) : val_main_v94 (F := Ideal) (ix3 b n 0) = BitVec.ofNat 32 b.val := by
  rw [val_main_v94_apply, val_main_v93_apply, val_main_v82_apply, val_main_v79_apply, val_main_v81_apply, val_main_v27_apply,
    val_main_v26_apply]
  exact Cert.PointSpec.wrap_eq _ _ (iota_le511 b)

theorem t_v119 (b : Fin 512) (n : Fin 8192) : val_main_v119 (F := Ideal) (ix3 b n 0) = BitVec.ofNat 32 b.val := by
  rw [val_main_v119_apply, val_main_v118_apply, val_main_v107_apply, val_main_v104_apply, val_main_v106_apply, val_main_v27_apply,
    val_main_v26_apply]
  exact Cert.PointSpec.wrap_eq _ _ (iota_le511 b)

theorem t_v49 (x0 : X0) (b : Fin 512) (n : Fin 8192) :
    val_main_v49 (F := Ideal) x0 (ix3 b n 0) = Cert.PointSpec.cellWord (x0 (ix3 b n 0)) := by
  rw [val_main_v49_apply]
  show val_main_v41 (F := Ideal) x0 (ix2 b n) = _
  rw [val_main_v41_apply, val_main_v38_apply, val_main_v40_apply, t_v29]
  exact Cert.PointSpec.wrap_eq _ _ (cw_le511 _)

theorem t_v50 (x0 : X0) (b : Fin 512) (n : Fin 8192) :
    val_main_v50 (F := Ideal) x0 (ix3 b n 0) = Cert.PointSpec.cellWord (x0 (ix3 b n 1)) := by
  rw [val_main_v50_apply]
  show val_main_v46 (F := Ideal) x0 (ix2 b n) = _
  rw [val_main_v46_apply, val_main_v43_apply, val_main_v45_apply, t_v31]
  exact Cert.PointSpec.wrap_eq _ _ (cw_le511 _)

theorem t_v72 (x0 : X0) (b : Fin 512) (n : Fin 8192) :
    val_main_v72 (F := Ideal) x0 (ix3 b n 0) = IntOp.addi (Cert.PointSpec.cellWord (x0 (ix3 b n 0))) 1#32 := by
  rw [val_main_v72_apply]
  show val_main_v64 (F := Ideal) x0 (ix2 b n) = _
  rw [val_main_v64_apply, val_main_v61_apply, val_main_v63_apply, val_main_v54_apply, t_v29]
  exact Cert.PointSpec.wrap_eq _ _ (succ_le511 _)

theorem t_v73 (x0 : X0) (b : Fin 512) (n : Fin 8192) :
    val_main_v73 (F := Ideal) x0 (ix3 b n 0) = Cert.PointSpec.cellWord (x0 (ix3 b n 1)) := by
  rw [val_main_v73_apply]
  show val_main_v69 (F := Ideal) x0 (ix2 b n) = _
  rw [val_main_v69_apply, val_main_v66_apply, val_main_v68_apply, t_v31]
  exact Cert.PointSpec.wrap_eq _ _ (cw_le511 _)

theorem t_v95 (x0 : X0) (b : Fin 512) (n : Fin 8192) :
    val_main_v95 (F := Ideal) x0 (ix3 b n 0) = Cert.PointSpec.cellWord (x0 (ix3 b n 0)) := by
  rw [val_main_v95_apply]
  show val_main_v87 (F := Ideal) x0 (ix2 b n) = _
  rw [val_main_v87_apply, val_main_v84_apply, val_main_v86_apply, t_v29]
  exact Cert.PointSpec.wrap_eq _ _ (cw_le511 _)

theorem t_v96 (x0 : X0) (b : Fin 512) (n : Fin 8192) :
    val_main_v96 (F := Ideal) x0 (ix3 b n 0) = IntOp.addi (Cert.PointSpec.cellWord (x0 (ix3 b n 1))) 1#32 := by
  rw [val_main_v96_apply]
  show val_main_v92 (F := Ideal) x0 (ix2 b n) = _
  rw [val_main_v92_apply, val_main_v89_apply, val_main_v91_apply, val_main_v77_apply, t_v31]
  exact Cert.PointSpec.wrap_eq _ _ (succ_le511 _)

theorem t_v120 (x0 : X0) (b : Fin 512) (n : Fin 8192) :
    val_main_v120 (F := Ideal) x0 (ix3 b n 0) = IntOp.addi (Cert.PointSpec.cellWord (x0 (ix3 b n 0))) 1#32 := by
  rw [val_main_v120_apply]
  show val_main_v112 (F := Ideal) x0 (ix2 b n) = _
  rw [val_main_v112_apply, val_main_v109_apply, val_main_v111_apply, val_main_v100_apply, t_v29]
  exact Cert.PointSpec.wrap_eq _ _ (succ_le511 _)

theorem t_v121 (x0 : X0) (b : Fin 512) (n : Fin 8192) :
    val_main_v121 (F := Ideal) x0 (ix3 b n 0) = IntOp.addi (Cert.PointSpec.cellWord (x0 (ix3 b n 1))) 1#32 := by
  rw [val_main_v121_apply]
  show val_main_v117 (F := Ideal) x0 (ix2 b n) = _
  rw [val_main_v117_apply, val_main_v114_apply, val_main_v116_apply, val_main_v102_apply, t_v31]
  exact Cert.PointSpec.wrap_eq _ _ (succ_le511 _)

/-! ### The four gathers at a point -/

/-- A word at most `m ≤ 511`, read signed and clamped to `[0, m]`, is its own value. -/
theorem clamp_nat (w : BitVec 32) (m : ℕ) (h : w.toNat ≤ m) (hm : m ≤ 511) : min w.toInt.toNat m = w.toNat := by
  rw [Cert.PointSpec.toInt_eq w (by omega), Int.toNat_natCast]
  exact Nat.min_eq_left h

theorem cw_le199 (x : EReal) : (Cert.PointSpec.cellWord x).toNat ≤ 199 := by
  have := Cert.PointSpec.cellWord_toNat_le x; omega

theorem succ_le199 (x : EReal) : (IntOp.addi (Cert.PointSpec.cellWord x) 1#32).toNat ≤ 199 := by
  rw [Cert.PointSpec.succ_toNat _ (Cert.PointSpec.cellWord_toNat_le x)]
  have := Cert.PointSpec.cellWord_toNat_le x; omega

/-- A gather whose start index at point `(b, n)` is the batch `b` and two words on the grid reads the grid of
    batch `b` at those two words: the clamp changes none of the three. -/
theorem gather_cell (x1 : X1) (idx : IVec S512x8192x3 32) (b : Fin 512) (n : Fin 8192) (wp wq : BitVec 32)
    (h0 : idx (ix3 b n 0) = BitVec.ofNat 32 b.val) (h1 : idx (ix3 b n 1) = wp) (h2 : idx (ix3 b n 2) = wq)
    (hp : wp.toNat ≤ 199) (hq : wq.toNat ≤ 199) :
    Host.gather GD (val_main_v25 (F := Ideal) x1) idx (ix2 b n)
      = Cert.PointSpec.cell (Cert.PointSpec.grid3 x1) b wp.toNat wq.toNat := by
  rw [gather_at]
  refine (grid_at x1 b _ _ _ ?_).trans ?_
  · show min (idx (ix3 b n 0)).toInt.toNat 511 = b.val
    rw [h0, clamp_nat _ 511 (iota_le511 b) (le_refl _), iota_toNat]
  · show Cert.PointSpec.cell (Cert.PointSpec.grid3 x1) b (min (idx (ix3 b n 1)).toInt.toNat 199)
        (min (idx (ix3 b n 2)).toInt.toNat 199) = _
    rw [h1, h2, clamp_nat wp 199 hp (by omega), clamp_nat wq 199 hq (by omega)]

theorem t_v52 (x0 : X0) (x1 : X1) (b : Fin 512) (n : Fin 8192) :
    val_main_v52 (F := Ideal) x0 x1 (ix2 b n)
      = Cert.PointSpec.cell (Cert.PointSpec.grid3 x1) b (Cert.PointSpec.cellWord (x0 (ix3 b n 0))).toNat (Cert.PointSpec.cellWord (x0 (ix3 b n 1))).toNat := by
  obtain ⟨e0, e1, e2⟩ := concat3_at (val_main_v48 (F := Ideal)) (val_main_v49 (F := Ideal) x0) (val_main_v50 (F := Ideal) x0) b n
  have h := gather_cell x1 (val_main_v51 (F := Ideal) x0) b n (Cert.PointSpec.cellWord (x0 (ix3 b n 0))) (Cert.PointSpec.cellWord (x0 (ix3 b n 1)))
    (e0.trans (t_v48 b n)) (e1.trans (t_v49 x0 b n)) (e2.trans (t_v50 x0 b n)) (cw_le199 _) (cw_le199 _)
  exact h

theorem t_v75 (x0 : X0) (x1 : X1) (b : Fin 512) (n : Fin 8192) :
    val_main_v75 (F := Ideal) x0 x1 (ix2 b n)
      = Cert.PointSpec.cell (Cert.PointSpec.grid3 x1) b ((Cert.PointSpec.cellWord (x0 (ix3 b n 0))).toNat + 1) (Cert.PointSpec.cellWord (x0 (ix3 b n 1))).toNat := by
  obtain ⟨e0, e1, e2⟩ := concat3_at (val_main_v71 (F := Ideal)) (val_main_v72 (F := Ideal) x0) (val_main_v73 (F := Ideal) x0) b n
  have h := gather_cell x1 (val_main_v74 (F := Ideal) x0) b n (IntOp.addi (Cert.PointSpec.cellWord (x0 (ix3 b n 0))) 1#32) (Cert.PointSpec.cellWord (x0 (ix3 b n 1)))
    (e0.trans (t_v71 b n)) (e1.trans (t_v72 x0 b n)) (e2.trans (t_v73 x0 b n)) (succ_le199 _) (cw_le199 _)
  rw [Cert.PointSpec.succ_toNat _ (Cert.PointSpec.cellWord_toNat_le _)] at h; exact h

theorem t_v98 (x0 : X0) (x1 : X1) (b : Fin 512) (n : Fin 8192) :
    val_main_v98 (F := Ideal) x0 x1 (ix2 b n)
      = Cert.PointSpec.cell (Cert.PointSpec.grid3 x1) b (Cert.PointSpec.cellWord (x0 (ix3 b n 0))).toNat ((Cert.PointSpec.cellWord (x0 (ix3 b n 1))).toNat + 1) := by
  obtain ⟨e0, e1, e2⟩ := concat3_at (val_main_v94 (F := Ideal)) (val_main_v95 (F := Ideal) x0) (val_main_v96 (F := Ideal) x0) b n
  have h := gather_cell x1 (val_main_v97 (F := Ideal) x0) b n (Cert.PointSpec.cellWord (x0 (ix3 b n 0))) (IntOp.addi (Cert.PointSpec.cellWord (x0 (ix3 b n 1))) 1#32)
    (e0.trans (t_v94 b n)) (e1.trans (t_v95 x0 b n)) (e2.trans (t_v96 x0 b n)) (cw_le199 _) (succ_le199 _)
  rw [Cert.PointSpec.succ_toNat _ (Cert.PointSpec.cellWord_toNat_le _)] at h; exact h

theorem t_v123 (x0 : X0) (x1 : X1) (b : Fin 512) (n : Fin 8192) :
    val_main_v123 (F := Ideal) x0 x1 (ix2 b n)
      = Cert.PointSpec.cell (Cert.PointSpec.grid3 x1) b ((Cert.PointSpec.cellWord (x0 (ix3 b n 0))).toNat + 1) ((Cert.PointSpec.cellWord (x0 (ix3 b n 1))).toNat + 1) := by
  obtain ⟨e0, e1, e2⟩ := concat3_at (val_main_v119 (F := Ideal)) (val_main_v120 (F := Ideal) x0) (val_main_v121 (F := Ideal) x0) b n
  have h := gather_cell x1 (val_main_v122 (F := Ideal) x0) b n (IntOp.addi (Cert.PointSpec.cellWord (x0 (ix3 b n 0))) 1#32) (IntOp.addi (Cert.PointSpec.cellWord (x0 (ix3 b n 1))) 1#32)
    (e0.trans (t_v119 b n)) (e1.trans (t_v120 x0 b n)) (e2.trans (t_v121 x0 b n)) (succ_le199 _) (succ_le199 _)
  rw [Cert.PointSpec.succ_toNat _ (Cert.PointSpec.cellWord_toNat_le _), Cert.PointSpec.succ_toNat _ (Cert.PointSpec.cellWord_toNat_le _)] at h; exact h

/-! ### The penalty of a point, and the mean -/

theorem t_v149 (x0 : X0) (x1 : X1) (b : Fin 512) (n : Fin 8192) :
    val_main_v149 (F := Ideal) x0 x1 (ix2 b n) = Cert.PointSpec.pointPenalty x0 (Cert.PointSpec.grid3 x1) b n := by
  rw [val_main_v149_apply, val_main_v148_apply, val_main_v147_apply, val_main_v145_apply, val_main_v143_apply,
    val_main_v142_apply, val_main_v140_apply, val_main_v141_apply, val_main_v139_apply, val_main_v132_apply,
    val_main_v137_apply, val_main_v130_apply, val_main_v131_apply, val_main_v135_apply, val_main_v136_apply,
    val_main_v129_apply, val_main_v134_apply, t_v5, t_v52, t_v75, t_v98, t_v123, t_v125, t_v127]
  rfl

/-- The reference's last stage is the mean penalty of the two arguments. -/
theorem ref_value (x0 : (⟨S512x8192x2, .f32⟩ : BufTy).Contents (Elt Ideal)) (x1 : (⟨S512x1x200x200, .f32⟩ : BufTy).Contents (Elt Ideal)) :
    Cert.ReferenceIdeal.ReadP.val_main_v151 (F := Ideal) x0 x1 = fun _ => Cert.PointSpec.mean x0 x1 := by
  funext i
  have hpt : ∀ j : S512x8192.Idx,
      val_main_v149 (F := Ideal) x0 x1 j = Cert.PointSpec.pointPenalty x0 (Cert.PointSpec.grid3 x1) (j 0) (j 1) :=
    fun j => (congrArg (val_main_v149 (F := Ideal) x0 x1) (eq_ix2 j)).trans (t_v149 x0 x1 (j 0) (j 1))
  have hsum : (∑ j : S512x8192.Idx, val_main_v149 (F := Ideal) x0 x1 j)
      = ∑ j : S512x8192.Idx, Cert.PointSpec.pointPenalty x0 (Cert.PointSpec.grid3 x1) (j 0) (j 1) :=
    Finset.sum_congr rfl (fun j _ => hpt j)
  rw [val_main_v151_apply, val_main_v150_apply, hsum]
  unfold Cert.PointSpec.mean Cert.PointSpec.total
  rw [val_main_cst_44_apply, val_main_cst_45_apply]
  rfl

end Cert.ReferenceIdeal.RefValue

end
-- ==== Proof.lean ====
/-
  The kernel — a pipelined region over 64 batch groups × 16 chunks of 512 points, then a host sum and a division — and
  its reference compute the same number: the mean, over 512 · 8192 points, of a penalty of the bilinearly interpolated
  distance at the point. Both clip a coordinate to the same square, locate it in the same cell and blend the same four
  grid values; the kernel finds them by one-hot contractions with clamped indices, the reference by gathers with
  wrapped indices, and on a cell word — one of 0 … 198 whatever the coordinate — the clamps and the wrap change
  nothing. The kernel's sum runs over tiles (eight batches, sixteen chunks of 512 points, then the 512 rows), the
  reference's over all points at once: one sum in an additive commutative monoid.
  The three frames: the two kernel programs' are the generated frame certificates; the reference's is its run with
  the result forgotten. The idealization rewrote nothing, so there is nothing to preserve.
-/
import proofs.«116232_j80032420594331_1_alg».proof.Defs
import proofs.«116232_j80032420594331_1_alg».proof.Proof.Gen.Kernel
import proofs.«116232_j80032420594331_1_alg».proof.Proof.Gen.Kernel.Skeleton
import proofs.«116232_j80032420594331_1_alg».proof.Proof.Gen.Kernel.Launch
import proofs.«116232_j80032420594331_1_alg».proof.Proof.Gen.Kernel.Points
import proofs.«116232_j80032420594331_1_alg».proof.Proof.Gen.Kernel.Frame
import proofs.«116232_j80032420594331_1_alg».proof.Proof.Gen.KernelIdeal
import proofs.«116232_j80032420594331_1_alg».proof.Proof.Gen.KernelIdeal.Skeleton
import proofs.«116232_j80032420594331_1_alg».proof.Proof.Gen.KernelIdeal.Launch
import proofs.«116232_j80032420594331_1_alg».proof.Proof.Gen.KernelIdeal.Points
import proofs.«116232_j80032420594331_1_alg».proof.Proof.Gen.KernelIdeal.Frame
import proofs.«116232_j80032420594331_1_alg».proof.Proof.Gen.ReferenceIdeal
import proofs.«116232_j80032420594331_1_alg».proof.Proof.Gen.Pre_finite_inputs
import proofs.«116232_j80032420594331_1_alg».proof.Proof.KernelTail
import proofs.«116232_j80032420594331_1_alg».proof.Proof.RefRun
import proofs.«116232_j80032420594331_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel [Cert.Kernel.Facts] [Cert.Pre_finite_inputs.Facts] : Cert.frame_Kernel :=
  fun m ρ _ => Cert.Kernel.Gen.frame m ρ

/-- So does its idealization, -/
theorem frame_kernelIdeal [Cert.KernelIdeal.Facts] [Cert.Pre_finite_inputs.Facts] : Cert.frame_KernelIdeal :=
  fun m ρ _ => Cert.KernelIdeal.Gen.frame m ρ

/-- and the reference: its run with the result forgotten. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.RefRun.run (F := Ideal) m ρ)

/-- Both programs end with the mean penalty of the arguments in their result buffer. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c _ => Cert.PointSpec.mean (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Tail.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.ref_value, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
